-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S524288 : Shape := ⟨1, ![524288]⟩
abbrev S2x524288 : Shape := ⟨2, ![2, 524288]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S524288 : S_.BroadcastsInDim S524288 (![] : Fin 0 → Fin S524288.rank)
  reducesTo_S524288_S_d0 : S524288.ReducesTo [0] S_

variable [Facts]

def fn_part1 {F : FTy → Type} [FloatOps F] (main_arg4 : FVec F S16 .f32) (main_arg5 : FVec F S524288 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S524288 .f32 := Host.absf main_arg5
  let main_cst_8 : FVec F S_ .f32 := constant S_ .f32 0x7F800000#32
  let main_v25 : FVec F S524288 .f32 := broadcastInDim S524288 ![] bcast_S_S524288 main_cst_8
  let main_v26 : IVec S524288 1 := cmpf .olt main_v24 main_v25
  let main_c_9 : IVec S_ 1 := constantI S_ 1 1#1
  let main_v27 : IVec S_ 1 := (fun x v => Host.reduce IntOp.andi x v reducesTo_S524288_S_d0 h_S_) main_v26 main_c_9
  let main_v28 : IVec S_ 1 := andi main_v23 main_v27
  main_v28

def fn {F : FTy → Type} [FloatOps F] (main_arg0 : FVec F S16384x64 .f32) (main_arg1 : FVec F S64x64 .f32) (main_arg2 : FVec F S64 .f32) (main_arg3 : FVec F S64x16 .f32) (main_arg4 : FVec F S16 .f32) (main_arg5 : FVec F S524288 .f32) (main_arg6 : IVec S2x524288 32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_v13 main_v16
-- ==== Kernel.lean ====
abbrev S16384x64 : Shape := ⟨2, ![16384, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S524288 : Shape := ⟨1, ![524288]⟩
abbrev S2x524288 : Shape := ⟨2, ![2, 524288]⟩
abbrev S1x524288 : Shape := ⟨2, ![1, 524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S16384x1 : Shape := ⟨2, ![16384, 1]⟩
abbrev S1024x2048 : Shape := ⟨2, ![1024, 2048]⟩
abbrev S1024x1 : Shape := ⟨2, ![1024, 1]⟩
abbrev S1024 : Shape := ⟨1, ![1024]⟩
abbrev S1x64 : Shape := ⟨2, ![1, 64]⟩
abbrev S1024x4096 : Shape := ⟨2, ![1024, 4096]⟩
abbrev S4096x64 : Shape := ⟨2, ![4096, 64]⟩
abbrev S4096x1 : Shape := ⟨2, ![4096, 1]⟩
abbrev S1024x64 : Shape := ⟨2, ![1024, 64]⟩
abbrev S16384x16 : Shape := ⟨2, ![16384, 16]⟩
abbrev S1x16 : Shape := ⟨2, ![1, 16]⟩
abbrev S4096x16 : Shape := ⟨2, ![4096, 16]⟩
abbrev S1024x16 : Shape := ⟨2, ![1024, 16]⟩

abbrev nBuf : Space → Nat
  | .hbm => 68
  | .vmem => 31
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S524288, .f32⟩
  | .hbm, ⟨6, _⟩ => ⟨S2x524288, .i32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .f32⟩
  | .hbm, ⟨12, _⟩ => ⟨S524288, .f32⟩
  | .hbm, ⟨13, _⟩ => ⟨S524288, .f32⟩
  | .hbm, ⟨14, _⟩ => ⟨S_, .f32⟩
  | .hbm, ⟨15, _⟩ => ⟨S16384x16384, .f32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S524288x1, .i32⟩
  | .hbm, ⟨32, _⟩ => ⟨S524288x2, .i32⟩
  | .hbm, ⟨33, _⟩ => ⟨S16384x16384, .f32⟩
  | .hbm, ⟨34, _⟩ => ⟨S_, .i32⟩
  | .hbm, ⟨35, _⟩ => ⟨S524288, .i32⟩
  | .hbm, ⟨36, _⟩ => ⟨S524288, .i1⟩
  | .hbm, ⟨37, _⟩ => ⟨S_, .i32⟩
  | .hbm, ⟨38, _⟩ => ⟨S524288, .i32⟩
  | .hbm, ⟨39, _⟩ => ⟨S524288, .i32⟩
  | .hbm, ⟨40, _⟩ => ⟨S524288, .i32⟩
  | .hbm, ⟨41, _⟩ => ⟨S_, .i32⟩
  | .hbm, ⟨42, _⟩ => ⟨S524288, .i32⟩
  | .hbm, ⟨43, _⟩ => ⟨S524288, .i1⟩
  | .hbm, ⟨44, _⟩ => ⟨S_, .i32⟩
  | .hbm, ⟨45, _⟩ => ⟨S524288, .i32⟩
  | .hbm, ⟨46, _⟩ => ⟨S524288, .i32⟩
  | .hbm, ⟨47, _⟩ => ⟨S524288, .i32⟩
  | .hbm, ⟨48, _⟩ => ⟨S524288x1, .i32⟩
  | .hbm, ⟨49, _⟩ => ⟨S524288x1, .i32⟩
  | .hbm, ⟨50, _⟩ => ⟨S524288x2, .i32⟩
  | .hbm, ⟨51, _⟩ => ⟨S16384x16384, .f32⟩
  | .hbm, ⟨52, _⟩ => ⟨S16384x16384, .i32⟩
  | .hbm, ⟨53, _⟩ => ⟨S16384x16384, .i32⟩
  | .hbm, ⟨54, _⟩ => ⟨S_, .i32⟩
  | .hbm, ⟨55, _⟩ => ⟨S16384x16384, .i32⟩
  | .hbm, ⟨56, _⟩ => ⟨S16384x16384, .i32⟩
  | .hbm, ⟨57, _⟩ => ⟨S16384x16384, .i1⟩
  | .hbm, ⟨58, _⟩ => ⟨S16384x16384, .f32⟩
  | .hbm, ⟨59, _⟩ => ⟨S16384x16384, .f32⟩
  | .hbm, ⟨60, _⟩ => ⟨S16384x16384, .bf16⟩
  | .hbm, ⟨61, _⟩ => ⟨S16384x1, .f32⟩
  | .hbm, ⟨62, _⟩ => ⟨S16384x64, .f32⟩
  | .hbm, ⟨63, _⟩ => ⟨S1x64, .f32⟩
  | .hbm, ⟨64, _⟩ => ⟨S16384x64, .f32⟩
  | .hbm, ⟨65, _⟩ => ⟨S16384x16, .f32⟩
  | .hbm, ⟨66, _⟩ => ⟨S1x16, .f32⟩
  | .hbm, ⟨67, _⟩ => ⟨S16384x16, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x4096, .bf16⟩
  | .local _ .vmem, ⟨8, _⟩ => ⟨S1024x4096, .bf16⟩
  | .local _ .vmem, ⟨9, _⟩ => ⟨S4096x64, .f32⟩
  | .local _ .vmem, ⟨10, _⟩ => ⟨S4096x64, .f32⟩
  | .local _ .vmem, ⟨11, _⟩ => ⟨S1024x1, .f32⟩
  | .local _ .vmem, ⟨12, _⟩ => ⟨S1024x1, .f32⟩
  | .local _ .vmem, ⟨13, _⟩ => ⟨S4096x1, .f32⟩
  | .local _ .vmem, ⟨14, _⟩ => ⟨S4096x1, .f32⟩
  | .local _ .vmem, ⟨15, _⟩ => ⟨S1x64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x4096, .bf16⟩
  | .local _ .vmem, ⟨20, _⟩ => ⟨S1024x4096, .bf16⟩
  | .local _ .vmem, ⟨21, _⟩ => ⟨S4096x16, .f32⟩
  | .local _ .vmem, ⟨22, _⟩ => ⟨S4096x16, .f32⟩
  | .local _ .vmem, ⟨23, _⟩ => ⟨S1024x1, .f32⟩
  | .local _ .vmem, ⟨24, _⟩ => ⟨S1024x1, .f32⟩
  | .local _ .vmem, ⟨25, _⟩ => ⟨S4096x1, .f32⟩
  | .local _ .vmem, ⟨26, _⟩ => ⟨S4096x1, .f32⟩
  | .local _ .vmem, ⟨27, _⟩ => ⟨S1x16, .f32⟩
  | .local _ .vmem, ⟨28, _⟩ => ⟨S1024x16, .f32⟩
  | .local _ .vmem, ⟨29, _⟩ => ⟨S1024x16, .f32⟩
  | .local _ .vmem, ⟨30, _⟩ => ⟨S1024x16, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42_0 : Ref sig .tc := ⟨.hbm, 60, rfl⟩
abbrev main_v42_1 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![16, 4], ![false, false]⟩

def k2_cond2 (i : grid2.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_10 : BitVec 32 := 0#32
  let v20 : BitVec 1 := Scalar.cmpi .ne v19 c0_i32_10
  v20

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S4096x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384x16384 : S_.BroadcastsInDim S16384x16384 (![] : Fin 0 → Fin S16384x16384.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  reduces_S1024x2048_S1024 : S1024x2048.Reduces [1] S1024
  shapeCasts_S1024_S1024x1 : S1024.ShapeCasts S1024x1
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  shapeCasts_S16_S1x16 : S16.ShapeCasts S1x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  broadcasts_S4096x1_S4096x16 : S4096x1.Broadcasts S4096x16
  broadcasts_S1024x1_S1024x16 : S1024x1.Broadcasts S1024x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  scatter_S16384x16384_S524288x2_S524288_n_01_01_1_wf : ScatterDims.WF S16384x16384 S524288x2 S524288 [] [0, 1] [0, 1] 1
  dot_S16384x64_S64x64_S16384x64_1_0_0_1_n_n_wf : DotDims.WF S16384x64 S64x64 S16384x64 [1] [0] [0] [1] [] []
  dot_S1024x4096_S4096x64_S1024x64_1_0_0_1_n_n_wf : DotDims.WF S1024x4096 S4096x64 S1024x64 [1] [0] [0] [1] [] []
  dot_S16384x64_S64x16_S16384x16_1_0_0_1_n_n_wf : DotDims.WF S16384x64 S64x16 S16384x16 [1] [0] [0] [1] [] []
  dot_S1024x4096_S4096x16_S1024x16_1_0_0_1_n_n_wf : DotDims.WF S1024x4096 S4096x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x16384.size a
  hwx0_1 : ∀ i : grid0.Coords, EltTy.bits .bf16 = 32 ∨ (Rect.block (s := S16384x16384) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x16384.size a
  hwx1_0 : ∀ i : grid1.Coords, EltTy.bits .bf16 = 32 ∨ (Rect.block (s := S16384x16384) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S16384x64.size a
  hwx1_1 : ∀ i : grid1.Coords, EltTy.bits .f32 = 32 ∨ (Rect.block (s := S16384x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S16384x1.size a
  hwx1_3 : ∀ i : grid1.Coords, EltTy.bits .f32 = 32 ∨ (Rect.block (s := S16384x1) S4096x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S16384x64.size a
  hwx1_5 : ∀ i : grid1.Coords, EltTy.bits .f32 = 32 ∨ (Rect.block (s := S16384x64) S1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S16384x16384.size a
  hwx2_0 : ∀ i : grid2.Coords, EltTy.bits .bf16 = 32 ∨ (Rect.block (s := S16384x16384) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x16.size a ≤ S16384x16.size a
  hwx2_1 : ∀ i : grid2.Coords, EltTy.bits .f32 = 32 ∨ (Rect.block (s := S16384x16) S4096x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S16384x1.size a
  hwx2_2 : ∀ i : grid2.Coords, EltTy.bits .f32 = 32 ∨ (Rect.block (s := S16384x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x1.size a ≤ S16384x1.size a
  hwx2_3 : ∀ i : grid2.Coords, EltTy.bits .f32 = 32 ∨ (Rect.block (s := S16384x1) S4096x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x16.size a ≤ S16384x16.size a
  hwx2_5 : ∀ i : grid2.Coords, EltTy.bits .f32 = 32 ∨ (Rect.block (s := S16384x16) S1024x16.size (cc2_transform_5 i) (hinb2_5 i)).WholeWords (EltTy.packing .f32)

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S1024x4096_S4096x16_S1024x16_1_0_0_1_n_n : DotDims S1024x4096 S4096x16 S1024x16 where
  lhsContracting := [1]
  rhsContracting := [0]
  lhsNonContracting := [0]
  rhsNonContracting := [1]
  lhsBatch := []
  rhsBatch := []
  wf := dot_S1024x4096_S4096x16_S1024x16_1_0_0_1_n_n_wf

abbrev win0_0 : Pipeline.Window sig grid0 :=
  Pipeline.Window.ofSpec (Memref.whole main_v41) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42_0) S1024x2048.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42_1) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v42_0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42_1) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42_1) S4096x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v42_0) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S4096x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42_1) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42_1) S4096x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S1024x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S16384x64 : Shape := ⟨2, ![16384, 64]⟩
abbrev S64x64 : Shape := ⟨2, ![64, 64]⟩
abbrev S64 : Shape := ⟨1, ![64]⟩
abbrev S64x16 : Shape := ⟨2, ![64, 16]⟩
abbrev S16 : Shape := ⟨1, ![16]⟩
abbrev S524288 : Shape := ⟨1, ![524288]⟩
abbrev S2x524288 : Shape := ⟨2, ![2, 524288]⟩
abbrev S1x524288 : Shape := ⟨2, ![1, 524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S16384 : Shape := ⟨1, ![16384]⟩
abbrev S16384x1 : Shape := ⟨2, ![16384, 1]⟩
abbrev S1x16384 : Shape := ⟨2, ![1, 16384]⟩
abbrev S1x64 : Shape := ⟨2, ![1, 64]⟩
abbrev S16384x16 : Shape := ⟨2, ![16384, 16]⟩
abbrev S1x16 : Shape := ⟨2, ![1, 16]⟩

abbrev nBuf : Space → Nat
  | .hbm => 89
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S524288, .f32⟩
  | .hbm, ⟨6, _⟩ => ⟨S2x524288, .i32⟩
  | .hbm, ⟨7, _⟩ => ⟨S1x524288, .i32⟩
  | .hbm, ⟨8, _⟩ => ⟨S524288, .i32⟩
  | .hbm, ⟨9, _⟩ => ⟨S1x524288, .i32⟩
  | .hbm, ⟨10, _⟩ => ⟨S524288, .i32⟩
  | .hbm, ⟨11, _⟩ => ⟨S_, .f32⟩
  | .hbm, ⟨12, _⟩ => ⟨S524288, .f32⟩
  | .hbm, ⟨13, _⟩ => ⟨S524288, .f32⟩
  | .hbm, ⟨14, _⟩ => ⟨S_, .f32⟩
  | .hbm, ⟨15, _⟩ => ⟨S16384x16384, .f32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S_, .i32⟩
  | .hbm, ⟨24, _⟩ => ⟨S524288, .i32⟩
  | .hbm, ⟨25, _⟩ => ⟨S524288, .i1⟩
  | .hbm, ⟨26, _⟩ => ⟨S_, .i32⟩
  | .hbm, ⟨27, _⟩ => ⟨S524288, .i32⟩
  | .hbm, ⟨28, _⟩ => ⟨S524288, .i32⟩
  | .hbm, ⟨29, _⟩ => ⟨S524288, .i32⟩
  | .hbm, ⟨30, _⟩ => ⟨S524288x1, .i32⟩
  | .hbm, ⟨31, _⟩ => ⟨S524288x1, .i32⟩
  | .hbm, ⟨32, _⟩ => ⟨S524288x2, .i32⟩
  | .hbm, ⟨33, _⟩ => ⟨S16384x16384, .f32⟩
  | .hbm, ⟨34, _⟩ => ⟨S_, .i32⟩
  | .hbm, ⟨35, _⟩ => ⟨S524288, .i32⟩
  | .hbm, ⟨36, _⟩ => ⟨S524288, .i1⟩
  | .hbm, ⟨37, _⟩ => ⟨S_, .i32⟩
  | .hbm, ⟨38, _⟩ => ⟨S524288, .i32⟩
  | .hbm, ⟨39, _⟩ => ⟨S524288, .i32⟩
  | .hbm, ⟨40, _⟩ => ⟨S524288, .i32⟩
  | .hbm, ⟨41, _⟩ => ⟨S_, .i32⟩
  | .hbm, ⟨42, _⟩ => ⟨S524288, .i32⟩
  | .hbm, ⟨43, _⟩ => ⟨S524288, .i1⟩
  | .hbm, ⟨44, _⟩ => ⟨S_, .i32⟩
  | .hbm, ⟨45, _⟩ => ⟨S524288, .i32⟩
  | .hbm, ⟨46, _⟩ => ⟨S524288, .i32⟩
  | .hbm, ⟨47, _⟩ => ⟨S524288, .i32⟩
  | .hbm, ⟨48, _⟩ => ⟨S524288x1, .i32⟩
  | .hbm, ⟨49, _⟩ => ⟨S524288x1, .i32⟩
  | .hbm, ⟨50, _⟩ => ⟨S524288x2, .i32⟩
  | .hbm, ⟨51, _⟩ => ⟨S16384x16384, .f32⟩
  | .hbm, ⟨52, _⟩ => ⟨S16384x16384, .i32⟩
  | .hbm, ⟨53, _⟩ => ⟨S16384x16384, .i32⟩
  | .hbm, ⟨54, _⟩ => ⟨S_, .i32⟩
  | .hbm, ⟨55, _⟩ => ⟨S16384x16384, .i32⟩
  | .hbm, ⟨56, _⟩ => ⟨S16384x16384, .i32⟩
  | .hbm, ⟨57, _⟩ => ⟨S16384x16384, .i1⟩
  | .hbm, ⟨58, _⟩ => ⟨S16384x16384, .f32⟩
  | .hbm, ⟨59, _⟩ => ⟨S16384x16384, .f32⟩
  | .hbm, ⟨60, _⟩ => ⟨S_, .f32⟩
  | .hbm, ⟨61, _⟩ => ⟨S16384, .f32⟩
  | .hbm, ⟨62, _⟩ => ⟨S_, .f32⟩
  | .hbm, ⟨63, _⟩ => ⟨S16384, .f32⟩
  | .hbm, ⟨64, _⟩ => ⟨S16384, .i1⟩
  | .hbm, ⟨65, _⟩ => ⟨S16384, .f32⟩
  | .hbm, ⟨66, _⟩ => ⟨S_, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384x1, .f32⟩
  | .hbm, ⟨71, _⟩ => ⟨S16384x16384, .f32⟩
  | .hbm, ⟨72, _⟩ => ⟨S16384x16384, .f32⟩
  | .hbm, ⟨73, _⟩ => ⟨S1x16384, .f32⟩
  | .hbm, ⟨74, _⟩ => ⟨S16384x16384, .f32⟩
  | .hbm, ⟨75, _⟩ => ⟨S16384x16384, .f32⟩
  | .hbm, ⟨76, _⟩ => ⟨S16384x64, .f32⟩
  | .hbm, ⟨77, _⟩ => ⟨S16384x64, .f32⟩
  | .hbm, ⟨78, _⟩ => ⟨S1x64, .f32⟩
  | .hbm, ⟨79, _⟩ => ⟨S16384x64, .f32⟩
  | .hbm, ⟨80, _⟩ => ⟨S16384x64, .f32⟩
  | .hbm, ⟨81, _⟩ => ⟨S_, .f32⟩
  | .hbm, ⟨82, _⟩ => ⟨S16384x64, .f32⟩
  | .hbm, ⟨83, _⟩ => ⟨S16384x64, .f32⟩
  | .hbm, ⟨84, _⟩ => ⟨S16384x16, .f32⟩
  | .hbm, ⟨85, _⟩ => ⟨S16384x16, .f32⟩
  | .hbm, ⟨86, _⟩ => ⟨S1x16, .f32⟩
  | .hbm, ⟨87, _⟩ => ⟨S16384x16, .f32⟩
  | .hbm, ⟨88, _⟩ => ⟨S16384x16, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_6 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_call0_v0 : Ref sig .tc := ⟨.hbm, 67, rfl⟩
abbrev main_call0_v1 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S_S16384x16384 : S_.BroadcastsInDim S16384x16384 (![] : Fin 0 → Fin S16384x16384.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S16384_S1x16384_1 : S16384.BroadcastsInDim S1x16384 (![1] : Fin 1 → Fin S1x16384.rank)
  bcast_S1x16384_S16384x16384_0_1 : S1x16384.BroadcastsInDim S16384x16384 (![0, 1] : Fin 2 → Fin S16384x16384.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  scatter_S16384x16384_S524288x2_S524288_n_01_01_1_wf : ScatterDims.WF S16384x16384 S524288x2 S524288 [] [0, 1] [0, 1] 1
  dot_S16384x64_S64x64_S16384x64_1_0_0_1_n_n_wf : DotDims.WF S16384x64 S64x64 S16384x64 [1] [0] [0] [1] [] []
  dot_S16384x16384_S16384x64_S16384x64_1_0_0_1_n_n_wf : DotDims.WF S16384x16384 S16384x64 S16384x64 [1] [0] [0] [1] [] []
  dot_S16384x64_S64x16_S16384x16_1_0_0_1_n_n_wf : DotDims.WF S16384x64 S64x16 S16384x16 [1] [0] [0] [1] [] []
  dot_S16384x16384_S16384x16_S16384x16_1_0_0_1_n_n_wf : DotDims.WF S16384x16384 S16384x16 S16384x16 [1] [0] [0] [1] [] []

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x16_S16384x16_1_0_0_1_n_n : DotDims S16384x64 S64x16 S16384x16 where
  lhsContracting := [1]
  rhsContracting := [0]
  lhsNonContracting := [0]
  rhsNonContracting := [1]
  lhsBatch := []
  rhsBatch := []
  wf := dot_S16384x64_S64x16_S16384x16_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.K.R0.Defs.lean ====
/-
  Region 0 (the degree-and-cast pass over the dense adjacency, grid 16 x 8): what its staging buffers and its
  scratch hold point by point, as explicit functions of the array the region finds.

  The kernel walks a row block i of 1024 rows across eight column blocks k of 2048 columns.  Its scratch holds the
  running row sums: zero plus the first block's row sums after k = 0, the previous contents plus block k's row sums
  after k > 0.  Window 1 (the cast copy) gets the block itself, narrowed, at every point.  Window 2 (the inverse
  square root of the degree) is stored only at k = 7, from the finished row sums: rsqrt where the sum is positive,
  zero elsewhere.  At the other points window 2 is idle and what is written here for it is never consulted.
-/
import proofs.«133464_j38560216383500_1_alg».proof.Proof.Patched.KernelLaunch
import proofs.«133464_j38560216383500_1_alg».proof.Proof.Gen.Kernel.Skeleton
import proofs.«133464_j38560216383500_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block the point reads, at its literal type: rows 1024 i …, columns 2048 k …. -/
abbrev ablk0 (c : Dev nD) (t : Fin cfg0.N) : Vec F S1024x2048 .f32 := iblk0 V c 0 t

/-- The scratch operand: a whole scoped buffer of the kernel's own. -/
abbrev scM0_0 : Memref sig .tc .vmem S1024x1 .f32 := Memref.whole cc0_scratch0

/-! ## The running row sums -/

/-- What the scratch holds after the body at position `n`: at the first column block of a row block (n ≡ 0 mod 8)
    the zero column plus this block's row sums, elsewhere the previous point's contents plus this block's. -/
def acc0 (c : Dev nD) : (n : ℕ) → n < cfg0.N → Vec F S1024x1 .f32
  | 0, hn => k0_pay3 (ablk0 V c ⟨0, hn⟩) k0_pay1
  | n + 1, hn =>
    if (n + 1) % 8 = 0 then k0_pay3 (ablk0 V c ⟨n + 1, hn⟩) k0_pay1
    else k0_pay3 (ablk0 V c ⟨n + 1, hn⟩) (acc0 c n (Nat.lt_of_succ_lt hn))

theorem acc0_first (c : Dev nD) (t : Fin cfg0.N) (h : t.val % 8 = 0) :
    acc0 V c t.val t.isLt = k0_pay3 (ablk0 V c t) k0_pay1 := by
  obtain ⟨n, hn⟩ := t
  cases n with
  | zero => rfl
  | succ n => exact if_pos h

theorem acc0_next (c : Dev nD) (t : Fin cfg0.N) (h : ¬ t.val % 8 = 0) :
    acc0 V c t.val t.isLt
      = k0_pay3 (ablk0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- Before position `n`: before the first point the launch's invariant (every scoped buffer no window stages at
    anything, the generator register at some state); afterwards the same with the scratch at the row sums the point
    before left. -/
def PhiS0 (c : Dev nD) : (n : ℕ) → n ≤ cfg0.N → sProp 𝕄
  | 0, _ => Pipeline.ΦA spec0 c
  | n + 1, hn => iprop((owns (c : Thread nD τ) scM0_0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop((owns (c : Thread nD τ) scM0_0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The proof data of pipeline 0 on core `c`: the arrays as the region finds them; after the body at point `t` the
    input's buffer at its block, the cast copy's at the narrowed block, the degree window's at the inverse square
    root of the running sums (consulted only where it is written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay4 (ablk0 V c t)
    | ⟨2, _⟩ => k0_pay5 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay4 (ablk0 V c t) := by dsimp only [dat0]
theorem after0_2 (c : Dev nD) (t : Fin cfg0.N) : (dat0 V c).after 2 t = k0_pay5 (acc0 V c t.val t.isLt) := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.Rgn

end
-- ==== Proof.K.R0.Body.lean ====
/-
  Region 0: the kernel body meets the pipeline's obligation at every grid point, with the contents stated in
  Defs.lean, and the region invariant is entered from and returned to the launch's invariant.

  The body has three control cases along the column-block coordinate k of a row block: at k = 0 the scratch is zeroed
  before the block's row sums are added to it; at 0 < k < 7 the sums are added to what the point before left; at
  k = 7 the sums are added and the scale column is stored from the finished sums. Each case is run once on arbitrary
  whole memrefs, with the contents it leaves stated as the payloads applied to the contents it finds; the body
  obligation at a point selects the case from the closed forms of the two conditions.
-/
import proofs.«133464_j38560216383500_1_alg».proof.Proof.K.R0.Defs
import Idealize.ShloMosaic.Lib.Pipeline.Value

set_option maxRecDepth 16384

noncomputable section

namespace Cert.Kernel.Rgn

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions -/

/-- The first branch of the body is taken where the column-block coordinate is zero. -/
abbrev cond0_0 (i : grid0.Coords) : Prop := (Scalar.cmpi .ne (Scalar.extui (Scalar.cmpi .eq (BitVec.ofNat 32 (i 1).val) 0#32)) 0#32) = 1#1
/-- The second branch of the body is taken where the column-block coordinate is the last. -/
abbrev cond0_1 (i : grid0.Coords) : Prop := k0_cond2 i = 1#1

/-- The first branch is taken exactly at the first column block of a row block. -/
theorem hcond0_0 : ∀ t : Fin cfg0.N, cond0_0 (grid0.coords t) ↔ t.val % 8 = 0 :=
  (by decide +kernel : ∀ t : Fin grid0.N, cond0_0 (grid0.coords t) ↔ t.val % 8 = 0)
/-- The second branch is taken exactly at the last column block of a row block. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The adjacency window is never idle. -/
theorem liveAt0_0 : ∀ t : Fin cfg0.N, cfg0.idle 0 (grid0.coords t) = false := by decide +kernel
/-- The cast copy's window is never idle. -/
theorem liveAt0_1 : ∀ t : Fin cfg0.N, cfg0.idle 1 (grid0.coords t) = false := by decide +kernel
/-- Off the last column block the scale window is idle, -/
theorem idleAt0_2 : ∀ t : Fin cfg0.N, ¬cond0_1 (grid0.coords t) → cfg0.idle 2 (grid0.coords t) = true := by decide +kernel
/-- and its block is not written back there. -/
theorem noFlush0_2 : ∀ t : Fin cfg0.N, ¬cond0_1 (grid0.coords t) → (cfg0.win 2).flush t = false := by decide +kernel
/-- At the last column block the scale window is live. -/
theorem liveAt0_2 : ∀ t : Fin cfg0.N, cond0_1 (grid0.coords t) → cfg0.idle 2 (grid0.coords t) = false := by decide +kernel

/-! ## Whole-buffer loads and stores -/

/-- The zero offsets of a two-axis rectangle, as the constant function. -/
theorem zero2 : (![0, 0] : Fin 2 → Nat) = fun _ => 0 := funext fun a => by fin_cases a <;> rfl

/-- A buffer whose last store covered it whole reads back as that store's value, whatever was stored before. -/
theorem read_writes_whole {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-- A whole-buffer load from a whole memref held at `X` reads `X`. -/
theorem readAt_whole_unread {S : Shape} {e : EltTy} {m : Memref sig .tc .vmem S e} (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-! ## The body's run, case by case

On whole memrefs: the adjacency block's at `x0`, the cast copy's at anything, the scale column's and the scratch as
the case says. Each run ends with the adjacency block's buffer as it was, the cast copy's at the narrowed block,
the scratch at its contents plus the block's row sums. -/

set_option maxHeartbeats 1000000 in
/-- First column block of a row block: the scratch, at anything, is zeroed and then takes the block's row sums; the
    scale column's buffer is handed back as found. -/
theorem kernelRun0_A (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : cond0_0 i) (hc1 : ¬cond0_1 i)
    (x0 : Vec F S1024x2048 .f32) (xi2 : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xi2 ∗ (∃ d, owns (c : Thread nD τ) arg5 fullShare d)
        ∗ (iprop(owns (c : Thread nD τ) arg2 fullShare x0 ∗ owns (c : Thread nD τ) arg3 fullShare (k0_pay4 x0) ∗ owns (c : Thread nD τ) arg4 fullShare xi2 ∗ owns (c : Thread nD τ) arg5 fullShare (k0_pay3 x0 k0_pay1)) -∗ K ⟨⟩))
      ⊢ wp frame (wpE (defs₀ (F := F)) Variants.none c none) E (cc0__adj_build_kernel i arg2 harg2 arg3 harg3 arg4 harg4 arg5 harg5) K := by
  simp only [cc0__adj_build_kernel_eq_skeleton]; unfold cc0__adj_build_kernel_skel
  unfold owns
  iintro ⟨⟨%f0, %hf0, H0⟩, ⟨%d1, %f1, -, H1⟩, ⟨%f2, %hf2, H2⟩, ⟨%ds, %fs, -, HS⟩, Hk⟩
  obtain rfl := harg2.eq_unread hf0; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [read_writes_whole _ _ zero2, readAt_whole_unread harg2 zero2]
  isplitl [H2]
  · iexists _; isplitr; · ipureintro; exact harg4.read_unread _
    iexact H2
  iexists _; isplitr
  swap; · iexact HS
  ipureintro
  rw [read_writes_whole _ _ zero2, readAt_whole_unread harg2 zero2]
  sl_unfold_run_names
  rw [View.readCov_unit_zero _ zero2]

set_option maxHeartbeats 1000000 in
/-- A middle column block: the scratch, at `xs`, takes the block's row sums; the scale column's buffer is handed
    back as found. -/
theorem kernelRun0_B (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : ¬cond0_0 i) (hc1 : ¬cond0_1 i)
    (x0 : Vec F S1024x2048 .f32) (xs : Vec F S1024x1 .f32) (xi2 : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xi2 ∗ owns (c : Thread nD τ) arg5 fullShare xs
        ∗ (iprop(owns (c : Thread nD τ) arg2 fullShare x0 ∗ owns (c : Thread nD τ) arg3 fullShare (k0_pay4 x0) ∗ owns (c : Thread nD τ) arg4 fullShare xi2 ∗ owns (c : Thread nD τ) arg5 fullShare (k0_pay3 x0 xs)) -∗ K ⟨⟩))
      ⊢ wp frame (wpE (defs₀ (F := F)) Variants.none c none) E (cc0__adj_build_kernel i arg2 harg2 arg3 harg3 arg4 harg4 arg5 harg5) K := by
  simp only [cc0__adj_build_kernel_eq_skeleton]; unfold cc0__adj_build_kernel_skel
  unfold owns
  iintro ⟨⟨%f0, %hf0, H0⟩, ⟨%d1, %f1, -, H1⟩, ⟨%f2, %hf2, H2⟩, ⟨%fs, %hfs, HS⟩, Hk⟩
  obtain rfl := harg2.eq_unread hf0; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [read_writes_whole _ _ zero2, readAt_whole_unread harg2 zero2]
  isplitl [H2]
  · iexists _; isplitr; · ipureintro; exact harg4.read_unread _
    iexact H2
  iexists _; isplitr
  swap; · iexact HS
  ipureintro
  rw [read_writes_whole _ _ zero2, readAt_whole_unread harg2 zero2, readAt_whole_unread harg5 zero2]

set_option maxHeartbeats 1000000 in
/-- Last column block of a row block: the scratch, at `xs`, takes the block's row sums, and the scale column's
    buffer, at anything, is stored whole from the finished sums. -/
theorem kernelRun0_C (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : ¬cond0_0 i) (hc1 : cond0_1 i)
    (x0 : Vec F S1024x2048 .f32) (xs : Vec F S1024x1 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d) ∗ owns (c : Thread nD τ) arg5 fullShare xs
        ∗ (iprop(owns (c : Thread nD τ) arg2 fullShare x0 ∗ owns (c : Thread nD τ) arg3 fullShare (k0_pay4 x0) ∗ owns (c : Thread nD τ) arg4 fullShare (k0_pay5 (k0_pay3 x0 xs)) ∗ owns (c : Thread nD τ) arg5 fullShare (k0_pay3 x0 xs)) -∗ K ⟨⟩))
      ⊢ wp frame (wpE (defs₀ (F := F)) Variants.none c none) E (cc0__adj_build_kernel i arg2 harg2 arg3 harg3 arg4 harg4 arg5 harg5) K := by
  simp only [cc0__adj_build_kernel_eq_skeleton]; unfold cc0__adj_build_kernel_skel
  unfold owns
  iintro ⟨⟨%f0, %hf0, H0⟩, ⟨%d1, %f1, -, H1⟩, ⟨%d2, %f2, -, H2⟩, ⟨%fs, %hfs, HS⟩, Hk⟩
  obtain rfl := harg2.eq_unread hf0; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [read_writes_whole _ _ zero2, readAt_whole_unread harg2 zero2]
  isplitl [H2]
  · iexists _; isplitr
    swap; · iexact H2
    ipureintro
    rw [read_writes_whole _ _ zero2]
    sl_unfold_run_names
    rw [View.readCov_unit_zero _ zero2, readAt_whole_unread harg2 zero2, readAt_whole_unread harg5 zero2]
  iexists _; isplitr
  swap; · iexact HS
  ipureintro
  sl_unfold_run_names
  rw [read_writes_whole _ _ zero2, readAt_whole_unread harg2 zero2, readAt_whole_unread harg5 zero2]

/-! ## The staging memrefs at a point -/

/-- Each window's current staging memref at point `t`, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)

/-! ## The launch's invariant, opened at the scratch -/

/-- The launch's invariant is the scratch at some contents, every other scoped buffer no window stages, and the
    generator register at some state. -/
theorem PhiA0_eq (c : Dev nD) :
    (Pipeline.ΦA spec0 c : sProp 𝕄)
      = iprop((iprop(∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; rfl

/-! ## What the input's buffer holds when the body runs -/

/-- The adjacency window's current buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]) t d).trans
    (by unfold Dat.fetched Dat.blockOf iblk0; rw [A_eq0]; rfl)

/-! ## The body obligation at a point -/

/-- What the body is called with at point `t`: the invariant, what the core owes, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The adjacency buffer holds its block; the closed forms of the two conditions say which
    case the point is in, and that case's run applies: the invariant hands it the scratch (at anything where the
    row block begins, else at the running sums the point before left) and takes it back at this point's running
    sums; the other scoped buffers and the generator register ride along; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [acc0_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩⟩
      iapply (kernelRun0_A c (grid0.coords t) _ _ _ _ _ _ _ _ ((hcond0_0 t).mpr h0) (fun h => h1 ((hcond0_1 t).mp h)) (ablk0 V c t) _ Set.univ _)
      isplitl [H0]; · iexact H0
      isplitl [H1]; · iexists _; iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, HR⟩, Hg⟩, Ho, ⟨%d0, H0⟩, ⟨%d1, H1⟩, ⟨%d2, H2⟩⟩
      iapply (kernelRun0_A c (grid0.coords t) _ _ _ _ _ _ _ _ ((hcond0_0 t).mpr h0) (fun h => h1 ((hcond0_1 t).mp h)) (ablk0 V c t) _ Set.univ _)
      isplitl [H0]; · iexact H0
      isplitl [H1]; · iexists _; iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun e => h0 (by rw [e])
    rw [acc0_next V c t h0, PhiS0_castSucc V c t, PhiS0_pos V c _ _ hz]
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2, acc0_next V c t h0]
      iintro ⟨⟨⟨HS, HR⟩, Hg⟩, Ho, ⟨%d0, H0⟩, ⟨%d1, H1⟩, ⟨%d2, H2⟩⟩
      iapply (kernelRun0_C c (grid0.coords t) _ _ _ _ _ _ _ _ (fun h => h0 ((hcond0_0 t).mp h)) ((hcond0_1 t).mpr h1) (ablk0 V c t) _ Set.univ _)
      isplitl [H0]; · iexact H0
      isplitl [H1]; · iexists _; iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      iintro ⟨⟨⟨HS, HR⟩, Hg⟩, Ho, ⟨%d0, H0⟩, ⟨%d1, H1⟩, ⟨%d2, H2⟩⟩
      iapply (kernelRun0_B c (grid0.coords t) _ _ _ _ _ _ _ _ (fun h => h0 ((hcond0_0 t).mp h)) (fun h => h1 ((hcond0_1 t).mp h)) (ablk0 V c t) _ _ Set.univ _)
      isplitl [H0]; · iexact H0
      isplitl [H1]; · iexists _; iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-! ## The three obligations -/

/-- The body at every point: handed the input windows' current staging buffers at their blocks, the output windows'
    at anything and the invariant before the point, it runs to the end and leaves the buffers and the invariant as
    the proof data say. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the launch's back: the scratch's named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, HR⟩, Hg⟩
  isplitl [HS HR]
  · isplitl [HS]
    · iexists _; iexact HS
    iexact HR
  iexact Hg

end Cert.Kernel.Rgn

end
-- ==== Proof.K.R1.Defs.lean ====
/-
  Region 1 (the first normalised-adjacency layer, grid 16 x 4): what its staging buffers and its scratch hold point
  by point, as explicit functions of the arrays the region finds.

  The kernel walks a row block i of 1024 rows across four column blocks k of 4096 columns.  At each point it scales
  the 4096 feature rows of block k by the column scale, multiplies the adjacency block by them and adds the product
  to the scratch: zero plus the first product after k = 0, the previous contents plus the product after k > 0.  The
  output window is stored only at k = 3: the finished sums times the row scale, plus the bias, clamped at zero below.
  At the other points the output window is idle and what is written here for it is never consulted.
  Windows 2 and 3 (row scale, column scale) stage blocks of ONE array; each holds it at half the full share.
-/
import proofs.«133464_j38560216383500_1_alg».proof.Proof.Patched.KernelLaunch
import proofs.«133464_j38560216383500_1_alg».proof.Proof.Gen.Kernel.Skeleton
import proofs.«133464_j38560216383500_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks the point reads, at their literal types: the adjacency block (rows 1024 i …, columns 4096 k …), the
    feature rows 4096 k …, the row scale of rows 1024 i …, the column scale of rows 4096 k …, the bias row. -/
abbrev ablk1 (c : Dev nD) (t : Fin cfg1.N) : Vec F S1024x4096 .bf16 := iblk1 V c 0 t
abbrev vblk1 (c : Dev nD) (t : Fin cfg1.N) : Vec F S4096x64 .f32 := iblk1 V c 1 t
abbrev rblk1 (c : Dev nD) (t : Fin cfg1.N) : Vec F S1024x1 .f32 := iblk1 V c 2 t
abbrev cblk1 (c : Dev nD) (t : Fin cfg1.N) : Vec F S4096x1 .f32 := iblk1 V c 3 t
abbrev bblk1 (c : Dev nD) (t : Fin cfg1.N) : Vec F S1x64 .f32 := iblk1 V c 4 t

/-- The scratch operand: a whole scoped buffer of the kernel's own. -/
abbrev scM1_0 : Memref sig .tc .vmem S1024x64 .f32 := Memref.whole cc1_scratch0

/-- The scoped buffers no window of this call stages, split at the call's own scratch. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f))
          ∗ Pipeline.scopedRestBut (Ix := Ix) (Name := Name) (U := U) (Lvl := Lvl) (Val := Val) spec1 c [cc1_scratch0]) :=
  Pipeline.scopedRest_split_of_list spec1 c [cc1_scratch0] (by decide) (by decide)

/-! ## The running sums of block products -/

/-- What the scratch holds after the body at position `n`: at the first column block of a row block (n ≡ 0 mod 4)
    zero plus this block's product, elsewhere the previous point's contents plus this block's. -/
def acc1 (c : Dev nD) : (n : ℕ) → n < cfg1.N → Vec F S1024x64 .f32
  | 0, hn => k1_pay2 (vblk1 V c ⟨0, hn⟩) (cblk1 V c ⟨0, hn⟩) k1_pay1 (ablk1 V c ⟨0, hn⟩)
  | n + 1, hn =>
    if (n + 1) % 4 = 0 then k1_pay2 (vblk1 V c ⟨n + 1, hn⟩) (cblk1 V c ⟨n + 1, hn⟩) k1_pay1 (ablk1 V c ⟨n + 1, hn⟩)
    else k1_pay2 (vblk1 V c ⟨n + 1, hn⟩) (cblk1 V c ⟨n + 1, hn⟩) (acc1 c n (Nat.lt_of_succ_lt hn)) (ablk1 V c ⟨n + 1, hn⟩)

theorem acc1_first (c : Dev nD) (t : Fin cfg1.N) (h : t.val % 4 = 0) :
    acc1 V c t.val t.isLt = k1_pay2 (vblk1 V c t) (cblk1 V c t) k1_pay1 (ablk1 V c t) := by
  obtain ⟨n, hn⟩ := t
  cases n with
  | zero => rfl
  | succ n => exact if_pos h

theorem acc1_next (c : Dev nD) (t : Fin cfg1.N) (h : ¬ t.val % 4 = 0) :
    acc1 V c t.val t.isLt
      = k1_pay2 (vblk1 V c t) (cblk1 V c t) (acc1 V c (t.val - 1) (Nat.lt_of_le_of_lt (Nat.sub_le _ _) t.isLt)) (ablk1 V c t) := by
  obtain ⟨n, hn⟩ := t
  cases n with
  | zero => exact absurd (Nat.zero_mod _) h
  | succ n => exact if_neg h

/-! ## The region invariant -/

/-- Before position `n`: before the first point the launch's invariant; afterwards the same with the scratch at the
    sums the point before left. -/
def PhiS1 (c : Dev nD) : (n : ℕ) → n ≤ cfg1.N → sProp 𝕄
  | 0, _ => Pipeline.ΦA spec1 c
  | n + 1, hn => iprop((owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop((owns (c : Thread nD τ) scM1_0 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of pipeline 1 on core `c`: the arrays as the region finds them; after the body at point `t` each
    input's buffer at its block and the output's at the finished layer row block (consulted only where it is written
    back); the invariant above; nothing owed; full shares but for the two windows on the one scale array, which
    hold it at its two halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (rblk1 V c t) (bblk1 V c t)
  Φ t := PhiS1 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay3 (acc1 V c t.val t.isLt) (rblk1 V c t) (bblk1 V c t) := by dsimp only [dat1]

theorem q1_2 (c : Dev nD) : (dat1 V c).q 2 = fullShare.left := by dsimp only [dat1]
theorem q1_3 (c : Dev nD) : (dat1 V c).q 3 = fullShare.right := by dsimp only [dat1]
theorem q1_0 (c : Dev nD) : (dat1 V c).q 0 = fullShare := by dsimp only [dat1]
theorem q1_1 (c : Dev nD) : (dat1 V c).q 1 = fullShare := by dsimp only [dat1]
theorem q1_4 (c : Dev nD) : (dat1 V c).q 4 = fullShare := by dsimp only [dat1]
theorem q1_5 (c : Dev nD) : (dat1 V c).q 5 = fullShare := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Rgn

end
-- ==== Proof.K.R1.Body.lean ====
/-
  Region 1: the kernel body meets the pipeline's obligation at every grid point, with the contents stated in
  Defs.lean, and the region invariant is entered from and returned to the launch's invariant.
-/
import proofs.«133464_j38560216383500_1_alg».proof.Proof.K.R1.Defs
import Idealize.ShloMosaic.Lib.Pipeline.Value

set_option maxRecDepth 16384

noncomputable section

namespace Cert.Kernel.Rgn

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions over the grid -/

/-- The reset branch's condition (the column-block coordinate is the first), from the grid coordinates. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The output branch's condition (the column-block coordinate is the last). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The staging memrefs at a point -/

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x64 .f32 := win1_5.stage (cfg1.slots t 5)
abbrev hs1_5 (t : Fin cfg1.N) : (ms1_5 t).IsWhole := hstage1_5 ((cfg1.slots t 5).cast nbuf1_5)

/-! ## Each input's staging buffer holds its block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Whole-buffer loads and stores -/

/-- The whole-buffer rectangle's offsets are zero. -/
theorem hzWhole1 : (![0, 0] : Fin 2 → ℕ) = fun _ => 0 := funext fun a => by fin_cases a <;> rfl

/-- A store through the whole-buffer rectangle, last, leaves its payload whatever the buffer held and whatever was
    stored before. -/
theorem read_write_whole1 {κ : Kind} {sp : Space} (v : View sig κ sp S1024x64 .f32) (f : v.ty.Contents (Elt F)) (p : Vec F S1024x64 .f32)
    (L : List (View.Piece (Elt F) S1024x64 .f32)) :
    v.read (Elt F) (v.writes (Elt F) f (⟨Rect.unit (s := S1024x64) ![0, 0] S1024x64.size inb_S1024x64_S1024x64_0_0, p⟩ :: L)) = p := by
  rw [View.read_writes_eq_canon _ _ _ (fun y => ⟨_, List.mem_cons_self, View.mem_set_unit_zero hzWhole1 inb_S1024x64_S1024x64_0_0 y⟩), View.canon_cons_unit_zero hzWhole1]

set_option maxHeartbeats 1000000 in
/-- At the first column block: the scratch, whatever it held, is zeroed, and the body adds this block's product to
    the zeros it reads back; the output window is not touched. -/
theorem kernelRun1_A (c : Dev nD) (i : grid1.Coords) (arg2 : Memref sig .tc .vmem S1024x4096 .bf16) (harg2 : arg2.IsWhole) (arg3 : Memref sig .tc .vmem S4096x64 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x64 .f32) (harg8 : arg8.IsWhole) (hc0 : cond1_0 i) (hc1 : ¬cond1_1 i)
    (x0 : Vec F S1024x4096 .bf16) (x1 : Vec F S4096x64 .f32) (x2 : Vec F S1024x1 .f32) (x3 : Vec F S4096x1 .f32) (x4 : Vec F S1x64 .f32)
    (xi5 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay2 x1 x3 k1_pay1 x0)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap; · iexact HS
  ipureintro
  rw [read_write_whole1]
  sl_unfold_run_names
  simp only [View.readAt_eq_ld, View.ld_unit_zero (S := S4096x64) hzWhole1, View.ld_unit_zero (S := S4096x1) hzWhole1, View.ld_unit_zero (S := S1024x64) hzWhole1, View.ld_unit_zero (S := S1024x4096) hzWhole1, View.ld_unit_zero (S := S1024x1) hzWhole1, View.ld_unit_zero (S := S1x64) hzWhole1, View.readCov_unit_zero (S := S1024x64) _ hzWhole1]

set_option maxHeartbeats 1000000 in
/-- Between the first and the last column block: the scratch holds the sums so far and the body adds this block's
    product; the output window is not touched. -/
theorem kernelRun1_B (c : Dev nD) (i : grid1.Coords) (arg2 : Memref sig .tc .vmem S1024x4096 .bf16) (harg2 : arg2.IsWhole) (arg3 : Memref sig .tc .vmem S4096x64 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x64 .f32) (harg8 : arg8.IsWhole) (hc0 : ¬cond1_0 i) (hc1 : ¬cond1_1 i)
    (x0 : Vec F S1024x4096 .bf16) (x1 : Vec F S4096x64 .f32) (x2 : Vec F S1024x1 .f32) (x3 : Vec F S4096x1 .f32) (x4 : Vec F S1x64 .f32)
    (xi5 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay2 x1 x3 xs x0)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap; · iexact HS
  ipureintro
  rw [read_write_whole1]
  simp only [View.readAt_eq_ld, View.ld_unit_zero (S := S4096x64) hzWhole1, View.ld_unit_zero (S := S4096x1) hzWhole1, View.ld_unit_zero (S := S1024x64) hzWhole1, View.ld_unit_zero (S := S1024x4096) hzWhole1, View.ld_unit_zero (S := S1024x1) hzWhole1, View.ld_unit_zero (S := S1x64) hzWhole1]

set_option maxHeartbeats 1000000 in
/-- At the last column block: the body adds this block's product to the sums so far, then stores into the output
    window the finished sums scaled by the row scale, plus the bias, clamped below at zero. -/
theorem kernelRun1_C (c : Dev nD) (i : grid1.Coords) (arg2 : Memref sig .tc .vmem S1024x4096 .bf16) (harg2 : arg2.IsWhole) (arg3 : Memref sig .tc .vmem S4096x64 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x64 .f32) (harg8 : arg8.IsWhole) (hc0 : ¬cond1_0 i) (hc1 : cond1_1 i)
    (x0 : Vec F S1024x4096 .bf16) (x1 : Vec F S4096x64 .f32) (x2 : Vec F S1024x1 .f32) (x3 : Vec F S4096x1 .f32) (x4 : Vec F S1x64 .f32)
    (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k1_pay3 (k1_pay2 x1 x3 xs x0) x2 x4)
            ∗ owns (c : Thread nD τ) arg8 fullShare (k1_pay2 x1 x3 xs x0)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists _; isplitr
    swap; · iexact H5
    ipureintro
    rw [read_write_whole1]
    sl_unfold_run_names
    simp only [View.readAt_eq_ld, View.ld_unit_zero (S := S4096x64) hzWhole1, View.ld_unit_zero (S := S4096x1) hzWhole1, View.ld_unit_zero (S := S1024x64) hzWhole1, View.ld_unit_zero (S := S1024x4096) hzWhole1, View.ld_unit_zero (S := S1024x1) hzWhole1, View.ld_unit_zero (S := S1x64) hzWhole1, View.readCov_unit_zero (S := S1024x64) _ hzWhole1]
  iexists _; isplitr
  swap; · iexact HS
  ipureintro
  sl_unfold_run_names
  rw [read_write_whole1]
  simp only [View.readAt_eq_ld, View.ld_unit_zero (S := S4096x64) hzWhole1, View.ld_unit_zero (S := S4096x1) hzWhole1, View.ld_unit_zero (S := S1024x64) hzWhole1, View.ld_unit_zero (S := S1024x4096) hzWhole1, View.ld_unit_zero (S := S1024x1) hzWhole1, View.ld_unit_zero (S := S1x64) hzWhole1]

/-! ## The launch's invariant with the scratch as a memref -/

/-- The launch's invariant: the call's own scratch owned whole at some contents, the other scoped buffers, the
    generator register. -/
theorem PhiA1_eq (c : Dev nD) :
    (Pipeline.ΦA spec1 c : sProp 𝕄)
      = iprop((iprop(∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' staging buffers hold their blocks; the point's position among the four column
    blocks says which of the three runs applies; the invariant hands the run the scratch (at anything before the very
    first point, at the previous point's sums afterwards) and takes it back at this point's sums, the other scoped
    buffers and the generator register riding along untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond1_0 (grid1.coords t) := fun h => h0 ((hcond1_0 t).mp h)
    rw [acc1_next V c t h0]
    rw [PhiS1_castSucc V c t, PhiS1_pos V c _ _ hz]
    by_cases h1 : t.val % 4 = 3
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [acc1_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) ((dat1 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body at every point: handed the input windows' current staging buffers at their blocks, the output windows'
    at anything and the invariant before the point, it runs to the end and leaves the buffers and the invariant as
    the proof data say. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the launch's back: the scratch's named contents are forgotten. -/
theorem hout1 (c : Dev nD) : (dat1 V c).Φ (Fin.last cfg1.N) ⊢ (Pipeline.ΦA spec1 c : sProp 𝕄) := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, HR⟩, Hg⟩
  isplitl [HS HR]
  · isplitl [HS]
    · iexists _; iexact HS
    iexact HR
  iexact Hg

end Cert.Kernel.Rgn

end
-- ==== Proof.K.R2.Defs.lean ====
/-
  Region 2 (the second normalised-adjacency layer, grid 16 x 4): what its staging buffers and its scratch hold point
  by point, as explicit functions of the arrays the region finds.

  The kernel walks a row block i of 1024 rows across four column blocks k of 4096 columns.  At each point it scales
  the 4096 feature rows of block k by the column scale, multiplies the adjacency block by them and adds the product
  to the scratch: zero plus the first product after k = 0, the previous contents plus the product after k > 0.  The
  output window is stored only at k = 3: the finished sums times the row scale, plus the bias.
  At the other points the output window is idle and what is written here for it is never consulted.
  Windows 2 and 3 (row scale, column scale) stage blocks of ONE array; each holds it at half the full share.
-/
import proofs.«133464_j38560216383500_1_alg».proof.Proof.Patched.KernelLaunch
import proofs.«133464_j38560216383500_1_alg».proof.Proof.Gen.Kernel.Skeleton
import proofs.«133464_j38560216383500_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Rgn

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The blocks the point reads, at their literal types: the adjacency block (rows 1024 i …, columns 4096 k …), the
    feature rows 4096 k …, the row scale of rows 1024 i …, the column scale of rows 4096 k …, the bias row. -/
abbrev ablk2 (c : Dev nD) (t : Fin cfg2.N) : Vec F S1024x4096 .bf16 := iblk2 V c 0 t
abbrev vblk2 (c : Dev nD) (t : Fin cfg2.N) : Vec F S4096x16 .f32 := iblk2 V c 1 t
abbrev rblk2 (c : Dev nD) (t : Fin cfg2.N) : Vec F S1024x1 .f32 := iblk2 V c 2 t
abbrev cblk2 (c : Dev nD) (t : Fin cfg2.N) : Vec F S4096x1 .f32 := iblk2 V c 3 t
abbrev bblk2 (c : Dev nD) (t : Fin cfg2.N) : Vec F S1x16 .f32 := iblk2 V c 4 t

/-- The scratch operand: a whole scoped buffer of the kernel's own. -/
abbrev scM2_0 : Memref sig .tc .vmem S1024x16 .f32 := Memref.whole cc2_scratch0

/-- The scoped buffers no window of this call stages, split at the call's own scratch. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-! ## The running sums of block products -/

/-- What the scratch holds after the body at position `n`: at the first column block of a row block (n ≡ 0 mod 4)
    zero plus this block's product, elsewhere the previous point's contents plus this block's. -/
def acc2 (c : Dev nD) : (n : ℕ) → n < cfg2.N → Vec F S1024x16 .f32
  | 0, hn => k2_pay2 (vblk2 V c ⟨0, hn⟩) (cblk2 V c ⟨0, hn⟩) k2_pay1 (ablk2 V c ⟨0, hn⟩)
  | n + 1, hn =>
    if (n + 1) % 4 = 0 then k2_pay2 (vblk2 V c ⟨n + 1, hn⟩) (cblk2 V c ⟨n + 1, hn⟩) k2_pay1 (ablk2 V c ⟨n + 1, hn⟩)
    else k2_pay2 (vblk2 V c ⟨n + 1, hn⟩) (cblk2 V c ⟨n + 1, hn⟩) (acc2 c n (Nat.lt_of_succ_lt hn)) (ablk2 V c ⟨n + 1, hn⟩)

theorem acc2_first (c : Dev nD) (t : Fin cfg2.N) (h : t.val % 4 = 0) :
    acc2 V c t.val t.isLt = k2_pay2 (vblk2 V c t) (cblk2 V c t) k2_pay1 (ablk2 V c t) := by
  obtain ⟨n, hn⟩ := t
  cases n with
  | zero => rfl
  | succ n => exact if_pos h

theorem acc2_next (c : Dev nD) (t : Fin cfg2.N) (h : ¬ t.val % 4 = 0) :
    acc2 V c t.val t.isLt
      = k2_pay2 (vblk2 V c t) (cblk2 V c t) (acc2 V c (t.val - 1) (Nat.lt_of_le_of_lt (Nat.sub_le _ _) t.isLt)) (ablk2 V c t) := by
  obtain ⟨n, hn⟩ := t
  cases n with
  | zero => exact absurd (Nat.zero_mod _) h
  | succ n => exact if_neg h

/-! ## The region invariant -/

/-- Before position `n`: before the first point the launch's invariant; afterwards the same with the scratch at the
    sums the point before left. -/
def PhiS2 (c : Dev nD) : (n : ℕ) → n ≤ cfg2.N → sProp 𝕄
  | 0, _ => Pipeline.ΦA spec2 c
  | n + 1, hn => iprop((owns (c : Thread nD τ) scM2_0 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2_0 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop((owns (c : Thread nD τ) scM2_0 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of pipeline 2 on core `c`: the arrays as the region finds them; after the body at point `t` each
    input's buffer at its block and the output's at the finished layer row block (consulted only where it is written
    back); the invariant above; nothing owed; full shares but for the two windows on the one scale array, which
    hold it at its two halves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.val t.isLt) (rblk2 V c t) (bblk2 V c t)
  Φ t := PhiS2 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = k2_pay3 (acc2 V c t.val t.isLt) (rblk2 V c t) (bblk2 V c t) := by dsimp only [dat2]

theorem q2_2 (c : Dev nD) : (dat2 V c).q 2 = fullShare.left := by dsimp only [dat2]
theorem q2_3 (c : Dev nD) : (dat2 V c).q 3 = fullShare.right := by dsimp only [dat2]
theorem q2_0 (c : Dev nD) : (dat2 V c).q 0 = fullShare := by dsimp only [dat2]
theorem q2_1 (c : Dev nD) : (dat2 V c).q 1 = fullShare := by dsimp only [dat2]
theorem q2_4 (c : Dev nD) : (dat2 V c).q 4 = fullShare := by dsimp only [dat2]
theorem q2_5 (c : Dev nD) : (dat2 V c).q 5 = fullShare := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

end Cert.Kernel.Rgn

end
-- ==== Proof.K.R2.Body.lean ====
/-
  Region 2: the kernel body meets the pipeline's obligation at every grid point, with the contents stated in
  Defs.lean, and the region invariant is entered from and returned to the launch's invariant.
-/
import proofs.«133464_j38560216383500_1_alg».proof.Proof.K.R2.Defs
import Idealize.ShloMosaic.Lib.Pipeline.Value

set_option maxRecDepth 16384

noncomputable section

namespace Cert.Kernel.Rgn

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions over the grid -/

/-- The reset branch's condition (the column-block coordinate is the first), from the grid coordinates. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The output branch's condition (the column-block coordinate is the last). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The staging memrefs at a point -/

abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x16 .f32 := win2_5.stage (cfg2.slots t 5)
abbrev hs2_5 (t : Fin cfg2.N) : (ms2_5 t).IsWhole := hstage2_5 ((cfg2.slots t 5).cast nbuf2_5)

/-! ## Each input's staging buffer holds its block, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## Whole-buffer loads and stores -/

/-- The whole-buffer rectangle's offsets are zero. -/
theorem hzWhole2 : (![0, 0] : Fin 2 → ℕ) = fun _ => 0 := funext fun a => by fin_cases a <;> rfl

/-- A store through the whole-buffer rectangle, last, leaves its payload whatever the buffer held and whatever was
    stored before. -/
theorem read_write_whole2 {κ : Kind} {sp : Space} (v : View sig κ sp S1024x16 .f32) (f : v.ty.Contents (Elt F)) (p : Vec F S1024x16 .f32)
    (L : List (View.Piece (Elt F) S1024x16 .f32)) :
    v.read (Elt F) (v.writes (Elt F) f (⟨Rect.unit (s := S1024x16) ![0, 0] S1024x16.size inb_S1024x16_S1024x16_0_0, p⟩ :: L)) = p := by
  rw [View.read_writes_eq_canon _ _ _ (fun y => ⟨_, List.mem_cons_self, View.mem_set_unit_zero hzWhole2 inb_S1024x16_S1024x16_0_0 y⟩), View.canon_cons_unit_zero hzWhole2]

set_option maxHeartbeats 1000000 in
/-- At the first column block: the scratch, whatever it held, is zeroed, and the body adds this block's product to
    the zeros it reads back; the output window is not touched. -/
theorem kernelRun2_A (c : Dev nD) (i : grid2.Coords) (arg2 : Memref sig .tc .vmem S1024x4096 .bf16) (harg2 : arg2.IsWhole) (arg3 : Memref sig .tc .vmem S4096x16 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x4096 .bf16) (x1 : Vec F S4096x16 .f32) (x2 : Vec F S1024x1 .f32) (x3 : Vec F S4096x1 .f32) (x4 : Vec F S1x16 .f32)
    (xi5 : Vec F S1024x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k2_pay2 x1 x3 k2_pay1 x0)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap; · iexact HS
  ipureintro
  rw [read_write_whole2]
  sl_unfold_run_names
  simp only [View.readAt_eq_ld, View.ld_unit_zero (S := S4096x16) hzWhole2, View.ld_unit_zero (S := S4096x1) hzWhole2, View.ld_unit_zero (S := S1024x16) hzWhole2, View.ld_unit_zero (S := S1024x4096) hzWhole2, View.ld_unit_zero (S := S1024x1) hzWhole2, View.ld_unit_zero (S := S1x16) hzWhole2, View.readCov_unit_zero (S := S1024x16) _ hzWhole2]

set_option maxHeartbeats 1000000 in
/-- Between the first and the last column block: the scratch holds the sums so far and the body adds this block's
    product; the output window is not touched. -/
theorem kernelRun2_B (c : Dev nD) (i : grid2.Coords) (arg2 : Memref sig .tc .vmem S1024x4096 .bf16) (harg2 : arg2.IsWhole) (arg3 : Memref sig .tc .vmem S4096x16 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x4096 .bf16) (x1 : Vec F S4096x16 .f32) (x2 : Vec F S1024x1 .f32) (x3 : Vec F S4096x1 .f32) (x4 : Vec F S1x16 .f32)
    (xi5 : Vec F S1024x16 .f32) (xs : Vec F S1024x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k2_pay2 x1 x3 xs x0)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap; · iexact HS
  ipureintro
  rw [read_write_whole2]
  simp only [View.readAt_eq_ld, View.ld_unit_zero (S := S4096x16) hzWhole2, View.ld_unit_zero (S := S4096x1) hzWhole2, View.ld_unit_zero (S := S1024x16) hzWhole2, View.ld_unit_zero (S := S1024x4096) hzWhole2, View.ld_unit_zero (S := S1024x1) hzWhole2, View.ld_unit_zero (S := S1x16) hzWhole2]

set_option maxHeartbeats 1000000 in
/-- At the last column block: the body adds this block's product to the sums so far, then stores into the output
    window the finished sums scaled by the row scale, plus the bias, clamped below at zero. -/
theorem kernelRun2_C (c : Dev nD) (i : grid2.Coords) (arg2 : Memref sig .tc .vmem S1024x4096 .bf16) (harg2 : arg2.IsWhole) (arg3 : Memref sig .tc .vmem S4096x16 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x4096 .bf16) (x1 : Vec F S4096x16 .f32) (x2 : Vec F S1024x1 .f32) (x3 : Vec F S4096x1 .f32) (x4 : Vec F S1x16 .f32)
    (xs : Vec F S1024x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k2_pay3 (k2_pay2 x1 x3 xs x0) x2 x4)
            ∗ owns (c : Thread nD τ) arg8 fullShare (k2_pay2 x1 x3 xs x0)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists _; isplitr
    swap; · iexact H5
    ipureintro
    rw [read_write_whole2]
    sl_unfold_run_names
    simp only [View.readAt_eq_ld, View.ld_unit_zero (S := S4096x16) hzWhole2, View.ld_unit_zero (S := S4096x1) hzWhole2, View.ld_unit_zero (S := S1024x16) hzWhole2, View.ld_unit_zero (S := S1024x4096) hzWhole2, View.ld_unit_zero (S := S1024x1) hzWhole2, View.ld_unit_zero (S := S1x16) hzWhole2, View.readCov_unit_zero (S := S1024x16) _ hzWhole2]
  iexists _; isplitr
  swap; · iexact HS
  ipureintro
  sl_unfold_run_names
  rw [read_write_whole2]
  simp only [View.readAt_eq_ld, View.ld_unit_zero (S := S4096x16) hzWhole2, View.ld_unit_zero (S := S4096x1) hzWhole2, View.ld_unit_zero (S := S1024x16) hzWhole2, View.ld_unit_zero (S := S1024x4096) hzWhole2, View.ld_unit_zero (S := S1024x1) hzWhole2, View.ld_unit_zero (S := S1x16) hzWhole2]

/-! ## The launch's invariant with the scratch as a memref -/

/-- The launch's invariant: the call's own scratch owned whole at some contents, the other scoped buffers, the
    generator register. -/
theorem PhiA2_eq (c : Dev nD) :
    (Pipeline.ΦA spec2 c : sProp 𝕄)
      = iprop((iprop(∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' staging buffers hold their blocks; the point's position among the four column
    blocks says which of the three runs applies; the invariant hands the run the scratch (at anything before the very
    first point, at the previous point's sums afterwards) and takes it back at this point's sums, the other scoped
    buffers and the generator register riding along untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 64 := lt_of_lt_of_eq t.isLt (show cfg2.N = 64 from N_2)
  by_cases h0 : t.val % 4 = 0
  · have h1 : ¬t.val % 4 = 3 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1)]
    rw [acc2_first V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond2_0 (grid2.coords t) := fun h => h0 ((hcond2_0 t).mp h)
    rw [acc2_next V c t h0]
    rw [PhiS2_castSucc V c t, PhiS2_pos V c _ _ hz]
    by_cases h1 : t.val % 4 = 3
    · have hc1 : cond2_1 (grid2.coords t) := (hcond2_1 t).mpr h1
      rw [show (dat2 V c).leavesExact 5 t = owns (c : Thread nD τ) (ms2_5 t) fullShare ((dat2 V c).after 5 t) from by
        unfold Dat.leavesExact; rw [liveAt2_5 t hc1], after2_5]
      rw [acc2_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 5 t (idleAt2_5 t hc1) (noFlush2_5 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 (iblk2 V c 0 t) (iblk2 V c 1 t) (iblk2 V c 2 t) (iblk2 V c 3 t) (iblk2 V c 4 t) ((dat2 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body at every point: handed the input windows' current staging buffers at their blocks, the output windows'
    at anything and the invariant before the point, it runs to the end and leaves the buffers and the invariant as
    the proof data say. -/
theorem body_obligation2 (c : Dev nD) :
    BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives the launch's back: the scratch's named contents are forgotten. -/
theorem hout2 (c : Dev nD) : (dat2 V c).Φ (Fin.last cfg2.N) ⊢ (Pipeline.ΦA spec2 c : sProp 𝕄) := by
  have hN : cfg2.N = 64 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS, HR⟩, Hg⟩
  isplitl [HS HR]
  · isplitl [HS]
    · iexists _; iexact HS
    iexact HR
  iexact Hg

end Cert.Kernel.Rgn

end
-- ==== Proof.K.AssemblyDefs.lean ====
/-
  The contents of every unscoped buffer between two items of @main, as a fold from the launch memory: a host stretch
  applies its operations; a region leaves each of its output arrays at what its write-backs fold to and touches
  nothing else.
-/
import proofs.«133464_j38560216383500_1_alg».proof.Proof.K.R0.Defs
import proofs.«133464_j38560216383500_1_alg».proof.Proof.K.R1.Defs
import proofs.«133464_j38560216383500_1_alg».proof.Proof.K.R2.Defs
import Idealize.ShloMosaic.Lib.StableHlo.Run

set_option maxRecDepth 16384

noncomputable section

namespace Cert.Kernel.Rgn

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m ((c : Dev nD), b)
/-- After the first host stretch (region 0's entry): the dense adjacency is built. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: the cast copy and the scale column at what the region's write-backs leave. -/
def W2 (c : Dev nD) : Valuation τ sig (Elt F) :=
  Function.update (Function.update (W1 m c) main_v42_0 ((dat0 (V1 m) c).arrAt 1 cfg0.N)) main_v42_1 ((dat0 (V1 m) c).arrAt 2 cfg0.N)
/-- After the second host stretch (region 1's entry): the first feature projection and the bias row. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: the hidden layer at what the region's write-backs leave. -/
def W4 (c : Dev nD) : Valuation τ sig (Elt F) :=
  Function.update (W3 m c) main_v45 ((dat1 (V3 m) c).arrAt 5 cfg1.N)
/-- After the third host stretch (region 2's entry): the second feature projection and the bias row. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: the result at what the region's write-backs leave. -/
def W6 (c : Dev nD) : Valuation τ sig (Elt F) :=
  Function.update (W5 m c) main_v48 ((dat2 (V5 m) c).arrAt 5 cfg2.N)

end Cert.Kernel.Rgn

end
-- ==== Proof.K.Assembly.lean ====
/-
  @main from the launch to the return: three host stretches and three kernel regions in turn.

  Given, for each region, that its body meets the pipeline's obligation at every grid point and that its invariant
  is entered from and returned to the launch's, every weakly fair execution of @main terminates, nothing faulting,
  and ends with every unscoped buffer at the last valuation of the fold in AssemblyDefs.lean.  The argument arrays are
  written by no item, so they end as launched; the result array is the last region's output.

  Each region's arrays are split out of the core's unscoped buffers at its entry and put back at its exit.  In the two
  layer regions the row-scale and column-scale windows stage blocks of ONE array: at entry that array's full share is
  dealt to the two windows as its left and right halves, and at exit the halves, both still at the entry contents
  (inputs are never written back), are joined again.
-/
import proofs.«133464_j38560216383500_1_alg».proof.Proof.K.AssemblyDefs
import proofs.«133464_j38560216383500_1_alg».proof.Proof.Patched.KernelRegions
import Idealize.ShloMosaic.Lib.Pipeline.RegionsLoop
import Idealize.ShloMosaic.Lib.Pipeline.FrameSuffix
import Idealize.ShloMosaic.Adequacy
import Idealize.ShloMosaic.Init

set_option maxRecDepth 16384

noncomputable section

namespace Cert.Kernel.Rgn

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

/-- The first host stretch leaves every buffer it does not write at the launch contents. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- Region 0 changes its two output arrays only. -/
theorem W2_of (c : Dev nD) (r : Ref sig .tc) (h0 : r ≠ main_v42_0) (h1 : r ≠ main_v42_1) :
    W2 m c (Proc.devRef .tc r) = W1 m c (Proc.devRef .tc r) := by
  unfold W2
  rw [Function.update_of_ne (StableHlo.devRef_ne_of_ne h1), Function.update_of_ne (StableHlo.devRef_ne_of_ne h0)]
theorem W2_main_v42_0 (c : Dev nD) : W2 m c (Proc.devRef .tc main_v42_0) = (dat0 (V1 m) c).arrAt 1 cfg0.N := by
  unfold W2
  rw [Function.update_of_ne (StableHlo.devRef_ne_of_ne (by decide)), Function.update_self]
theorem W2_main_v42_1 (c : Dev nD) : W2 m c (Proc.devRef .tc main_v42_1) = (dat0 (V1 m) c).arrAt 2 cfg0.N := by
  unfold W2
  rw [Function.update_self]
/-- The second host stretch leaves every buffer it does not write as region 0 left it. -/
theorem W3_of (c : Dev nD) (r : Ref sig .tc) (h : r ∉ hostOps1_W) : W3 m c (Proc.devRef .tc r) = W2 m c (Proc.devRef .tc r) :=
  StableHlo.after_of_writes_sub hostOps1 _ hostOps1_writes h
/-- Region 1 changes its output array only. -/
theorem W4_of (c : Dev nD) (r : Ref sig .tc) (h : r ≠ main_v45) : W4 m c (Proc.devRef .tc r) = W3 m c (Proc.devRef .tc r) := by
  unfold W4
  rw [Function.update_of_ne (StableHlo.devRef_ne_of_ne h)]
theorem W4_main_v45 (c : Dev nD) : W4 m c (Proc.devRef .tc main_v45) = (dat1 (V3 m) c).arrAt 5 cfg1.N := by
  unfold W4
  rw [Function.update_self]
/-- The third host stretch leaves every buffer it does not write as region 1 left it. -/
theorem W5_of (c : Dev nD) (r : Ref sig .tc) (h : r ∉ hostOps2_W) : W5 m c (Proc.devRef .tc r) = W4 m c (Proc.devRef .tc r) :=
  StableHlo.after_of_writes_sub hostOps2 _ hostOps2_writes h
/-- Region 2 changes its output array only. -/
theorem W6_of (c : Dev nD) (r : Ref sig .tc) (h : r ≠ main_v48) : W6 m c (Proc.devRef .tc r) = W5 m c (Proc.devRef .tc r) := by
  unfold W6
  rw [Function.update_of_ne (StableHlo.devRef_ne_of_ne h)]

/-- The result array at the end is the last region's output. -/
theorem W6_main_v48 (c : Dev nD) : W6 m c (Proc.devRef .tc main_v48) = (dat2 (V5 m) c).arrAt 5 cfg2.N := by
  unfold W6
  rw [Function.update_self]

/-- A buffer no host stretch writes and no region puts out reaches the end as launched. -/
theorem W6_of_untouched (c : Dev nD) (r : Ref sig .tc) (h0 : r ∉ hostOps0_W) (h1 : r ∉ hostOps1_W) (h2 : r ∉ hostOps2_W)
    (ha : r ≠ main_v42_0) (hb : r ≠ main_v42_1) (hc : r ≠ main_v45) (hd : r ≠ main_v48) :
    W6 m c (Proc.devRef .tc r) = m ((c : Thread nD τ).loc r) :=
  (W6_of m c r hd).trans <| (W5_of m c r h2).trans <| (W4_of m c r hc).trans <| (W3_of m c r h1).trans <|
    (W2_of m c r ha hb).trans <| (W1_of m c r h0).trans rfl

/-- No item writes an argument array: each holds its launch contents at the end. -/
theorem W6_main_arg0 (c : Dev nD) : W6 m c (Proc.devRef .tc main_arg0) = m ((c : Thread nD τ).loc main_arg0) :=
  W6_of_untouched m c main_arg0 (by decide) (by decide) (by decide) (by decide) (by decide) (by decide) (by decide)
theorem W6_main_arg1 (c : Dev nD) : W6 m c (Proc.devRef .tc main_arg1) = m ((c : Thread nD τ).loc main_arg1) :=
  W6_of_untouched m c main_arg1 (by decide) (by decide) (by decide) (by decide) (by decide) (by decide) (by decide)
theorem W6_main_arg2 (c : Dev nD) : W6 m c (Proc.devRef .tc main_arg2) = m ((c : Thread nD τ).loc main_arg2) :=
  W6_of_untouched m c main_arg2 (by decide) (by decide) (by decide) (by decide) (by decide) (by decide) (by decide)
theorem W6_main_arg3 (c : Dev nD) : W6 m c (Proc.devRef .tc main_arg3) = m ((c : Thread nD τ).loc main_arg3) :=
  W6_of_untouched m c main_arg3 (by decide) (by decide) (by decide) (by decide) (by decide) (by decide) (by decide)
theorem W6_main_arg4 (c : Dev nD) : W6 m c (Proc.devRef .tc main_arg4) = m ((c : Thread nD τ).loc main_arg4) :=
  W6_of_untouched m c main_arg4 (by decide) (by decide) (by decide) (by decide) (by decide) (by decide) (by decide)
theorem W6_main_arg5 (c : Dev nD) : W6 m c (Proc.devRef .tc main_arg5) = m ((c : Thread nD τ).loc main_arg5) :=
  W6_of_untouched m c main_arg5 (by decide) (by decide) (by decide) (by decide) (by decide) (by decide) (by decide)
theorem W6_main_arg6 (c : Dev nD) : W6 m c (Proc.devRef .tc main_arg6) = m ((c : Thread nD τ).loc main_arg6) :=
  W6_of_untouched m c main_arg6 (by decide) (by decide) (by decide) (by decide) (by decide) (by decide) (by decide)

/-! ## The exit contents read at the TensorCore's references, and what each region's arrays hold there -/

/-- Region 0's, region 1's and region 2's exit contents at the TensorCore's references. -/
abbrev E2 : (c : Dev nD) → (b : Ref sig .tc) → Buf (Elt F) ((c : Thread nD τ).loc b) := fun c b => W2 m c b
abbrev E4 : (c : Dev nD) → (b : Ref sig .tc) → Buf (Elt F) ((c : Thread nD τ).loc b) := fun c b => W4 m c b
abbrev E6 : (c : Dev nD) → (b : Ref sig .tc) → Buf (Elt F) ((c : Thread nD τ).loc b) := fun c b => W6 m c b

/-- At region 0's exit its input array is as entered and its two outputs at what the write-backs fold to; -/
theorem hF0 (c : Dev nD) : ∀ w : Fin cfg0.W, (dat0 (V1 m) c).arrAt w cfg0.N = E2 m c (Pipeline.arrRef spec0 w)
  | ⟨0, _⟩ => (((dat0 (V1 m) c).arrAt_in 0 rfl _).trans (A_eq0 (V1 m) c 0)).trans (W2_of m c main_v41 (by decide) (by decide)).symm
  | ⟨1, _⟩ => (W2_main_v42_0 m c).symm
  | ⟨2, _⟩ => (W2_main_v42_1 m c).symm
/-- every other buffer is as entered. -/
theorem hrest0 (c : Dev nD) : ∀ b, b ∉ Finset.univ.image (Pipeline.arrRef spec0) → E2 m c b = V1 m c b :=
  fun b hb => W2_of m c b (fun e => hb (Finset.mem_image.mpr ⟨1, Finset.mem_univ _, e.symm⟩))
    (fun e => hb (Finset.mem_image.mpr ⟨2, Finset.mem_univ _, e.symm⟩))

/-- A property of the six window indices holds of all once it holds of each. -/
theorem fin6_forall {P : Fin 6 → Prop} (h0 : P 0) (h1 : P 1) (h2 : P 2) (h3 : P 3) (h4 : P 4) (h5 : P 5) : ∀ w, P w
  | 0 => h0 | 1 => h1 | 2 => h2 | 3 => h3 | 4 => h4 | 5 => h5

/-- At region 1's exit its five inputs are as entered (no input is written back) and its output at what the write-backs fold to; -/
theorem hF1_0 (c : Dev nD) : (dat1 (V3 m) c).arrAt 0 cfg1.N = E4 m c (Pipeline.arrRef spec1 0) :=
  (((dat1 (V3 m) c).arrAt_in 0 rfl _).trans (A_eq1 (V3 m) c 0)).trans (W4_of m c main_v42_0 (by decide)).symm
theorem hF1_1 (c : Dev nD) : (dat1 (V3 m) c).arrAt 1 cfg1.N = E4 m c (Pipeline.arrRef spec1 1) :=
  (((dat1 (V3 m) c).arrAt_in 1 rfl _).trans (A_eq1 (V3 m) c 1)).trans (W4_of m c main_v43 (by decide)).symm
theorem hF1_2 (c : Dev nD) : (dat1 (V3 m) c).arrAt 2 cfg1.N = E4 m c (Pipeline.arrRef spec1 2) :=
  (((dat1 (V3 m) c).arrAt_in 2 rfl _).trans (A_eq1 (V3 m) c 2)).trans (W4_of m c main_v42_1 (by decide)).symm
theorem hF1_3 (c : Dev nD) : (dat1 (V3 m) c).arrAt 3 cfg1.N = E4 m c (Pipeline.arrRef spec1 3) :=
  (((dat1 (V3 m) c).arrAt_in 3 rfl _).trans (A_eq1 (V3 m) c 3)).trans (W4_of m c main_v42_1 (by decide)).symm
theorem hF1_4 (c : Dev nD) : (dat1 (V3 m) c).arrAt 4 cfg1.N = E4 m c (Pipeline.arrRef spec1 4) :=
  (((dat1 (V3 m) c).arrAt_in 4 rfl _).trans (A_eq1 (V3 m) c 4)).trans (W4_of m c main_v44 (by decide)).symm
theorem hF1_5 (c : Dev nD) : (dat1 (V3 m) c).arrAt 5 cfg1.N = E4 m c (Pipeline.arrRef spec1 5) :=
  (W4_main_v45 m c).symm
theorem hF1 (c : Dev nD) : ∀ w : Fin cfg1.W, (dat1 (V3 m) c).arrAt w cfg1.N = E4 m c (Pipeline.arrRef spec1 w) :=
  fin6_forall (P := fun w : Fin 6 => (dat1 (V3 m) c).arrAt w cfg1.N = E4 m c (Pipeline.arrRef spec1 w))
    (hF1_0 m c) (hF1_1 m c) (hF1_2 m c) (hF1_3 m c) (hF1_4 m c) (hF1_5 m c)
/-- every other buffer is as entered. -/
theorem hrest1 (c : Dev nD) : ∀ b, b ∉ Finset.univ.image (Pipeline.arrRef spec1) → E4 m c b = V3 m c b :=
  fun b hb => W4_of m c b (fun e => hb (Finset.mem_image.mpr ⟨5, Finset.mem_univ _, e.symm⟩))

/-- At region 2's exit its five inputs are as entered and its output at what the write-backs fold to; -/
theorem hF2_0 (c : Dev nD) : (dat2 (V5 m) c).arrAt 0 cfg2.N = E6 m c (Pipeline.arrRef spec2 0) :=
  (((dat2 (V5 m) c).arrAt_in 0 rfl _).trans (A_eq2 (V5 m) c 0)).trans (W6_of m c main_v42_0 (by decide)).symm
theorem hF2_1 (c : Dev nD) : (dat2 (V5 m) c).arrAt 1 cfg2.N = E6 m c (Pipeline.arrRef spec2 1) :=
  (((dat2 (V5 m) c).arrAt_in 1 rfl _).trans (A_eq2 (V5 m) c 1)).trans (W6_of m c main_v46 (by decide)).symm
theorem hF2_2 (c : Dev nD) : (dat2 (V5 m) c).arrAt 2 cfg2.N = E6 m c (Pipeline.arrRef spec2 2) :=
  (((dat2 (V5 m) c).arrAt_in 2 rfl _).trans (A_eq2 (V5 m) c 2)).trans (W6_of m c main_v42_1 (by decide)).symm
theorem hF2_3 (c : Dev nD) : (dat2 (V5 m) c).arrAt 3 cfg2.N = E6 m c (Pipeline.arrRef spec2 3) :=
  (((dat2 (V5 m) c).arrAt_in 3 rfl _).trans (A_eq2 (V5 m) c 3)).trans (W6_of m c main_v42_1 (by decide)).symm
theorem hF2_4 (c : Dev nD) : (dat2 (V5 m) c).arrAt 4 cfg2.N = E6 m c (Pipeline.arrRef spec2 4) :=
  (((dat2 (V5 m) c).arrAt_in 4 rfl _).trans (A_eq2 (V5 m) c 4)).trans (W6_of m c main_v47 (by decide)).symm
theorem hF2_5 (c : Dev nD) : (dat2 (V5 m) c).arrAt 5 cfg2.N = E6 m c (Pipeline.arrRef spec2 5) :=
  (W6_main_v48 m c).symm
theorem hF2 (c : Dev nD) : ∀ w : Fin cfg2.W, (dat2 (V5 m) c).arrAt w cfg2.N = E6 m c (Pipeline.arrRef spec2 w) :=
  fin6_forall (P := fun w : Fin 6 => (dat2 (V5 m) c).arrAt w cfg2.N = E6 m c (Pipeline.arrRef spec2 w))
    (hF2_0 m c) (hF2_1 m c) (hF2_2 m c) (hF2_3 m c) (hF2_4 m c) (hF2_5 m c)
/-- every other buffer is as entered. -/
theorem hrest2 (c : Dev nD) : ∀ b, b ∉ Finset.univ.image (Pipeline.arrRef spec2) → E6 m c b = V5 m c b :=
  fun b hb => W6_of m c b (fun e => hb (Finset.mem_image.mpr ⟨5, Finset.mem_univ _, e.symm⟩))

/-! ## The layer regions' arrays and the buffers behind them -/

section Arrays
variable (V : (c : Dev nD) → (b : Ref sig .tc) → Buf (Elt F) ((c : Thread nD τ).loc b))

/-- The shares region 1's proof data hold its arrays at: the scale array's two windows at the halves, the others whole. -/
theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl

/-- Window w's array of region 1 held at a share: the buffer behind it, whole, at the valuation's contents. -/
theorem arrPiece1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) (q : PosShare TreeShare) (w : Fin cfg1.W) :
    ((cfg1.win w).arr.view.loc (c : Thread nD τ) ↦[(cfg1.win w).arr.view.set]{q} G w : sProp 𝕄)
      = (((c : Thread nD τ).loc (Pipeline.arrRef spec1 w)) ↦{q} V' (Pipeline.arrRef spec1 w)) := by
  rw [hG w, (arr_whole1 w).set_eq_univ]

/-- Region 1's arrays, each at the valuation's contents, are the five distinct buffers behind them whole at the full
    share: the scale array's full share is the left half, held by the row-scale window, and the right half, held by
    the column-scale window. -/
theorem arrays_iff_arrBufs1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs (Ix := Unit) (Name := ℕ) (U := UR sig nD τ) (Lvl := ℕ) spec1 c V' : sProp 𝕄)
      ⊣⊢ (dat1 V c).arrays G := by
  unfold Pipeline.arrBufs Pipeline.Dat.arrays
  rw [bigSep_W1, bigSep_eq_bigSepL_of_eq [main_v42_0, main_v43, main_v42_1, main_v44, main_v45] (by decide) (by decide)]
  rw [arrPiece1 c V' G hG _ 0, arrPiece1 c V' G hG _ 1, arrPiece1 c V' G hG _ 2, arrPiece1 c V' G hG _ 3,
    arrPiece1 c V' G hG _ 4, arrPiece1 c V' G hG _ 5, share1_0, share1_1, share1_2, share1_3, share1_4, share1_5]
  show iprop((((c : Thread nD τ).loc main_v42_0) ↦{fullShare} V' main_v42_0) ∗ (((c : Thread nD τ).loc main_v43) ↦{fullShare} V' main_v43)
      ∗ (((c : Thread nD τ).loc main_v42_1) ↦{fullShare} V' main_v42_1) ∗ (((c : Thread nD τ).loc main_v44) ↦{fullShare} V' main_v44)
      ∗ (((c : Thread nD τ).loc main_v45) ↦{fullShare} V' main_v45))
    ⊣⊢ (iprop((((c : Thread nD τ).loc main_v42_0) ↦{fullShare} V' main_v42_0) ∗ (((c : Thread nD τ).loc main_v43) ↦{fullShare} V' main_v43)
      ∗ (((c : Thread nD τ).loc main_v42_1) ↦{fullShare.left} V' main_v42_1) ∗ (((c : Thread nD τ).loc main_v42_1) ↦{fullShare.right} V' main_v42_1)
      ∗ (((c : Thread nD τ).loc main_v44) ↦{fullShare} V' main_v44) ∗ (((c : Thread nD τ).loc main_v45) ↦{fullShare} V' main_v45)) : sProp 𝕄)
  constructor
  · iintro ⟨H0, H1, H2, H4, H5⟩
    ihave H2 := (pointsTo_share (PosShare.mem_left_op_right fullShare)).1 $$ H2
    icases H2 with ⟨H2, H3⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    ihave H2 := (pointsTo_share (PosShare.mem_left_op_right fullShare)).2 $$ [H2 H3]
    · isplitl [H2] <;> iassumption
    isplitl [H0]; · iexact H0
    isplitl [H1]; · iexact H1
    isplitl [H2]; · iexact H2
    isplitl [H4]; · iexact H4
    iexact H5

/-- The shares region 2's proof data hold its arrays at: the scale array's two windows at the halves, the others whole. -/
theorem share2_0 (c : Dev nD) : (dat2 V c).share 0 = fullShare := rfl
theorem share2_1 (c : Dev nD) : (dat2 V c).share 1 = fullShare := rfl
theorem share2_2 (c : Dev nD) : (dat2 V c).share 2 = fullShare.left := rfl
theorem share2_3 (c : Dev nD) : (dat2 V c).share 3 = fullShare.right := rfl
theorem share2_4 (c : Dev nD) : (dat2 V c).share 4 = fullShare := rfl
theorem share2_5 (c : Dev nD) : (dat2 V c).share 5 = fullShare := rfl

/-- Window w's array of region 2 held at a share: the buffer behind it, whole, at the valuation's contents. -/
theorem arrPiece2 (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w)) (q : PosShare TreeShare) (w : Fin cfg2.W) :
    ((cfg2.win w).arr.view.loc (c : Thread nD τ) ↦[(cfg2.win w).arr.view.set]{q} G w : sProp 𝕄)
      = (((c : Thread nD τ).loc (Pipeline.arrRef spec2 w)) ↦{q} V' (Pipeline.arrRef spec2 w)) := by
  rw [hG w, (arr_whole2 w).set_eq_univ]

/-- Region 2's arrays, each at the valuation's contents, are the five distinct buffers behind them whole at the full
    share: the scale array's full share is the left half, held by the row-scale window, and the right half, held by
    the column-scale window. -/
theorem arrays_iff_arrBufs2 (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w)) :
    (Pipeline.arrBufs (Ix := Unit) (Name := ℕ) (U := UR sig nD τ) (Lvl := ℕ) spec2 c V' : sProp 𝕄)
      ⊣⊢ (dat2 V c).arrays G := by
  unfold Pipeline.arrBufs Pipeline.Dat.arrays
  rw [bigSep_W2, bigSep_eq_bigSepL_of_eq [main_v42_0, main_v46, main_v42_1, main_v47, main_v48] (by decide) (by decide)]
  rw [arrPiece2 c V' G hG _ 0, arrPiece2 c V' G hG _ 1, arrPiece2 c V' G hG _ 2, arrPiece2 c V' G hG _ 3,
    arrPiece2 c V' G hG _ 4, arrPiece2 c V' G hG _ 5, share2_0, share2_1, share2_2, share2_3, share2_4, share2_5]
  show iprop((((c : Thread nD τ).loc main_v42_0) ↦{fullShare} V' main_v42_0) ∗ (((c : Thread nD τ).loc main_v46) ↦{fullShare} V' main_v46)
      ∗ (((c : Thread nD τ).loc main_v42_1) ↦{fullShare} V' main_v42_1) ∗ (((c : Thread nD τ).loc main_v47) ↦{fullShare} V' main_v47)
      ∗ (((c : Thread nD τ).loc main_v48) ↦{fullShare} V' main_v48))
    ⊣⊢ (iprop((((c : Thread nD τ).loc main_v42_0) ↦{fullShare} V' main_v42_0) ∗ (((c : Thread nD τ).loc main_v46) ↦{fullShare} V' main_v46)
      ∗ (((c : Thread nD τ).loc main_v42_1) ↦{fullShare.left} V' main_v42_1) ∗ (((c : Thread nD τ).loc main_v42_1) ↦{fullShare.right} V' main_v42_1)
      ∗ (((c : Thread nD τ).loc main_v47) ↦{fullShare} V' main_v47) ∗ (((c : Thread nD τ).loc main_v48) ↦{fullShare} V' main_v48)) : sProp 𝕄)
  constructor
  · iintro ⟨H0, H1, H2, H4, H5⟩
    ihave H2 := (pointsTo_share (PosShare.mem_left_op_right fullShare)).1 $$ H2
    icases H2 with ⟨H2, H3⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    ihave H2 := (pointsTo_share (PosShare.mem_left_op_right fullShare)).2 $$ [H2 H3]
    · isplitl [H2] <;> iassumption
    isplitl [H0]; · iexact H0
    isplitl [H1]; · iexact H1
    isplitl [H2]; · iexact H2
    isplitl [H4]; · iexact H4
    iexact H5

end Arrays

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and that it
    owes nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last contents of the fold, the generator
    register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- REGION 0 over the thread state: entered from every unscoped buffer at the contents after the first host stretch,
    left at those with its two outputs at what the write-backs fold to. Its three arrays are distinct buffers, each
    split out of the unscoped buffers whole and put back whole. -/
def reg0
    (hb : ∀ c : Dev nD, BodyObligation (dat0 (F := F) (V1 m) c) (defs₀ (F := F)) Variants.none () Set.univ)
    (hi : ∀ c : Dev nD, (Pipeline.ΦA spec0 c : sProp 𝕄) ⊢ (dat0 (V1 m) c).Φ 0)
    (ho : ∀ c : Dev nD, (dat0 (V1 m) c).Φ (Fin.last cfg0.N) ⊢ (Pipeline.ΦA spec0 c : sProp 𝕄)) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 0).pre c (fun _ => fullShare) (adm 0).1
        ∗ Pipeline.scopedRest (Ix := Unit) (Name := ℕ) (U := UR sig nD τ) (Lvl := ℕ) (Val := Elt F) spec0 c)
      ⊢ (Pipeline.ΦA spec0 c : sProp 𝕄) from by
    unfold Pipeline.ΦA
    iintro ⟨Hp, -, Hr⟩
    isplitl [Hr]; · iexact Hr
    iexact Hp).trans (hi c)
  hout c := (ho c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the fold's contents before it, left at the
    contents after it. Its arrays are split out of the unscoped buffers, the scale array's share dealt to its two
    windows, and put back at the exit contents, the halves joined; the generator register goes into the launch's
    invariant and comes back; nothing owed; no semaphore of the kernel's own. -/
def reg1
    (hb : ∀ c : Dev nD, BodyObligation (dat1 (F := F) (V3 m) c) (defs₀ (F := F)) Variants.none () Set.univ)
    (hi : ∀ c : Dev nD, (Pipeline.ΦA spec1 c : sProp 𝕄) ⊢ (dat1 (V3 m) c).Φ 0)
    (ho : ∀ c : Dev nD, (dat1 (V3 m) c).Φ (Fin.last cfg1.N) ⊢ (Pipeline.ΦA spec1 c : sProp 𝕄)) :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0)
            ∗ Pipeline.unscopedRest (Ix := Unit) (Name := ℕ) (U := UR sig nD τ) (Lvl := ℕ) spec1 c (V3 m c)) := by
      rw [Pipeline.unscopedBufs_split₀ cfgs 1 winFacts₀1.arr_unscoped c (V3 m c)]
      exact sep_mono (arrays_iff_arrBufs1 (V3 m) c (V3 m c) (fun w => (dat1 (V3 m) c).arrAt w 0) fun _ => rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 1).pre c (fun _ => fullShare) (adm 1).1
        ∗ Pipeline.scopedRest (Ix := Unit) (Name := ℕ) (U := UR sig nD τ) (Lvl := ℕ) (Val := Elt F) spec1 c)
      ⊢ (Pipeline.ΦA spec1 c : sProp 𝕄) from by
    unfold Pipeline.ΦA
    iintro ⟨Hp, -, Hr⟩
    isplitl [Hr]; · iexact Hr
    iexact Hp).trans (hi c)
  hout c := (ho c).trans (by
    rw [Pipeline.ownSems0_none]; unfold Pipeline.ΦA
    iintro ⟨Hr, Hp⟩
    isplitl [Hp]; · iexact Hp
    isplitr; · iempintro
    iexact Hr)
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (E4 m c) : sProp 𝕄) := by
      rw [Pipeline.unscopedBufs_split₀ cfgs 1 winFacts₀1.arr_unscoped c (E4 m c)]
      refine sep_mono (arrays_iff_arrBufs1 (V3 m) c (E4 m c) (fun w => (dat1 (V3 m) c).arrAt w cfg1.N) (hF1 m c)).2 (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the fold's contents before it, left at the
    contents after it. Its arrays are split out of the unscoped buffers, the scale array's share dealt to its two
    windows, and put back at the exit contents, the halves joined; the generator register goes into the launch's
    invariant and comes back; nothing owed; no semaphore of the kernel's own. -/
def reg2
    (hb : ∀ c : Dev nD, BodyObligation (dat2 (F := F) (V5 m) c) (defs₀ (F := F)) Variants.none () Set.univ)
    (hi : ∀ c : Dev nD, (Pipeline.ΦA spec2 c : sProp 𝕄) ⊢ (dat2 (V5 m) c).Φ 0)
    (ho : ∀ c : Dev nD, (dat2 (V5 m) c).Φ (Fin.last cfg2.N) ⊢ (Pipeline.ΦA spec2 c : sProp 𝕄)) :
    Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit : (unscopedBufs (Ix := Unit) (Name := ℕ) (U := UR sig nD τ) (Lvl := ℕ) c (V5 m c) : sProp 𝕄)
        ⊢ iprop((pdats m 2 c).arrays ((pdats m 2 c).arrAt · 0)
            ∗ Pipeline.unscopedRest (Ix := Unit) (Name := ℕ) (U := UR sig nD τ) (Lvl := ℕ) spec2 c (V5 m c)) := by
      rw [Pipeline.unscopedBufs_split₀ cfgs 2 winFacts₀2.arr_unscoped c (V5 m c)]
      exact sep_mono (arrays_iff_arrBufs2 (V5 m) c (V5 m c) (fun w => (dat2 (V5 m) c).arrAt w 0) fun _ => rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 2).pre c (fun _ => fullShare) (adm 2).1
        ∗ Pipeline.scopedRest (Ix := Unit) (Name := ℕ) (U := UR sig nD τ) (Lvl := ℕ) (Val := Elt F) spec2 c)
      ⊢ (Pipeline.ΦA spec2 c : sProp 𝕄) from by
    unfold Pipeline.ΦA
    iintro ⟨Hp, -, Hr⟩
    isplitl [Hr]; · iexact Hr
    iexact Hp).trans (hi c)
  hout c := (ho c).trans (by
    rw [Pipeline.ownSems0_none]; unfold Pipeline.ΦA
    iintro ⟨Hr, Hp⟩
    isplitl [Hp]; · iexact Hp
    isplitr; · iempintro
    iexact Hr)
  hexit c := by
    have hjoin : iprop((pdats m 2 c).arrays ((pdats m 2 c).arrAt · cfg2.N)
          ∗ Pipeline.unscopedRest (Ix := Unit) (Name := ℕ) (U := UR sig nD τ) (Lvl := ℕ) spec2 c (V5 m c))
        ⊢ (unscopedBufs (Ix := Unit) (Name := ℕ) (U := UR sig nD τ) (Lvl := ℕ) c (E6 m c) : sProp 𝕄) := by
      rw [Pipeline.unscopedBufs_split₀ cfgs 2 winFacts₀2.arr_unscoped c (E6 m c)]
      refine sep_mono (arrays_iff_arrBufs2 (V5 m) c (E6 m c) (fun w => (dat2 (V5 m) c).arrAt w cfg2.N) (hF2 m c)).2 (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from the contents before it, a region per kernel call. -/
abbrev rsegs (R0 : Pipeline.RegionSeg (pcfgs (F := F)) adm (pdats m) () defs₀ 𝒱₀ L lv 0)
    (R1 : Pipeline.RegionSeg (pcfgs (F := F)) adm (pdats m) () defs₀ 𝒱₀ L lv 1)
    (R2 : Pipeline.RegionSeg (pcfgs (F := F)) adm (pdats m) () defs₀ 𝒱₀ L lv 2) :
    List (Pipeline.Seg (pcfgs (F := F)) adm (pdats m) () defs₀ 𝒱₀ L lv) :=
  [ .host (hseg hostOps0 hostOps0_sub hostOps0_fresh (W0 m)),
    .region R0,
    .host (hseg hostOps1 hostOps1_sub hostOps1_fresh (W2 m)),
    .region R1,
    .host (hseg hostOps2 hostOps2_sub hostOps2_fresh (W4 m)),
    .region R2 ]

/-- @main is the run of the segments: both are the chain of the same six fragments. -/
theorem main_run (R0 : Pipeline.RegionSeg (pcfgs (F := F)) adm (pdats m) () defs₀ 𝒱₀ L lv 0)
    (R1 : Pipeline.RegionSeg (pcfgs (F := F)) adm (pdats m) () defs₀ 𝒱₀ L lv 1)
    (R2 : Pipeline.RegionSeg (pcfgs (F := F)) adm (pdats m) () defs₀ 𝒱₀ L lv 2) (c : Dev nD) :
    main (F := F) c = Pipeline.Seg.run (rsegs m R0 R1 R2) := by
  rw [main_chain c, Pipeline.Seg.run_eq_chain]
  rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Given each region's body obligation and the two ends of its invariant, at the region's entry contents
    of the fold: from any memory with zero counters every weakly fair execution of @main terminates, nothing
    faulting, and every final state holds every unscoped buffer of every core at the last valuation. -/
theorem run_all
    (hb0 : ∀ c : Dev nD, BodyObligation (dat0 (F := F) (V1 m) c) (defs₀ (F := F)) Variants.none () Set.univ)
    (hi0 : ∀ c : Dev nD, (Pipeline.ΦA spec0 c : sProp 𝕄) ⊢ (dat0 (V1 m) c).Φ 0)
    (ho0 : ∀ c : Dev nD, (dat0 (V1 m) c).Φ (Fin.last cfg0.N) ⊢ (Pipeline.ΦA spec0 c : sProp 𝕄))
    (hb1 : ∀ c : Dev nD, BodyObligation (dat1 (F := F) (V3 m) c) (defs₀ (F := F)) Variants.none () Set.univ)
    (hi1 : ∀ c : Dev nD, (Pipeline.ΦA spec1 c : sProp 𝕄) ⊢ (dat1 (V3 m) c).Φ 0)
    (ho1 : ∀ c : Dev nD, (dat1 (V3 m) c).Φ (Fin.last cfg1.N) ⊢ (Pipeline.ΦA spec1 c : sProp 𝕄))
    (hb2 : ∀ c : Dev nD, BodyObligation (dat2 (F := F) (V5 m) c) (defs₀ (F := F)) Variants.none () Set.univ)
    (hi2 : ∀ c : Dev nD, (Pipeline.ΦA spec2 c : sProp 𝕄) ⊢ (dat2 (V5 m) c).Φ 0)
    (ho2 : ∀ c : Dev nD, (dat2 (V5 m) c).Φ (Fin.last cfg2.N) ⊢ (Pipeline.ΦA spec2 c : sProp 𝕄)) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) := by
  exact Pipeline.θ_run_regions_kit (pcfgs (F := F)) adm (pdats m) () cellOf_inj emb₁ defs₀ 𝒱₀ L lv m ρ main
    (rsegs m (reg0 m hb0 hi0 ho0) (reg1 m hb1 hi1 ho1) (reg2 m hb2 hi2 ho2))
    (fun c Q => by rw [main_run m (reg0 m hb0 hi0 ho0) (reg1 m hb1 hi1 ho1) (reg2 m hb2 hi2 ho2) c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Rgn

end
-- ==== Proof.KI.R0.Defs.lean ====
/-
  Region 0 (the degree-and-cast pass over the dense adjacency, grid 16 x 8): what its staging buffers and its
  scratch hold point by point, as explicit functions of the array the region finds.

  The kernel walks a row block i of 1024 rows across eight column blocks k of 2048 columns.  Its scratch holds the
  running row sums: zero plus the first block's row sums after k = 0, the previous contents plus block k's row sums
  after k > 0.  Window 1 (the cast copy) gets the block itself, narrowed, at every point.  Window 2 (the inverse
  square root of the degree) is stored only at k = 7, from the finished row sums: rsqrt where the sum is positive,
  zero elsewhere.  At the other points window 2 is idle and what is written here for it is never consulted.
-/
import proofs.«133464_j38560216383500_1_alg».proof.Proof.Patched.KernelIdealLaunch
import proofs.«133464_j38560216383500_1_alg».proof.Proof.Gen.KernelIdeal.Skeleton
import proofs.«133464_j38560216383500_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency block the point reads, at its literal type: rows 1024 i …, columns 2048 k …. -/
abbrev ablk0 (c : Dev nD) (t : Fin cfg0.N) : Vec F S1024x2048 .f32 := iblk0 V c 0 t

/-- The scratch operand: a whole scoped buffer of the kernel's own. -/
abbrev scM0_0 : Memref sig .tc .vmem S1024x1 .f32 := Memref.whole cc0_scratch0

/-! ## The running row sums -/

/-- What the scratch holds after the body at position `n`: at the first column block of a row block (n ≡ 0 mod 8)
    the zero column plus this block's row sums, elsewhere the previous point's contents plus this block's. -/
def acc0 (c : Dev nD) : (n : ℕ) → n < cfg0.N → Vec F S1024x1 .f32
  | 0, hn => k0_pay3 (ablk0 V c ⟨0, hn⟩) k0_pay1
  | n + 1, hn =>
    if (n + 1) % 8 = 0 then k0_pay3 (ablk0 V c ⟨n + 1, hn⟩) k0_pay1
    else k0_pay3 (ablk0 V c ⟨n + 1, hn⟩) (acc0 c n (Nat.lt_of_succ_lt hn))

theorem acc0_first (c : Dev nD) (t : Fin cfg0.N) (h : t.val % 8 = 0) :
    acc0 V c t.val t.isLt = k0_pay3 (ablk0 V c t) k0_pay1 := by
  obtain ⟨n, hn⟩ := t
  cases n with
  | zero => rfl
  | succ n => exact if_pos h

theorem acc0_next (c : Dev nD) (t : Fin cfg0.N) (h : ¬ t.val % 8 = 0) :
    acc0 V c t.val t.isLt
      = k0_pay3 (ablk0 V c t) (acc0 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- Before position `n`: before the first point the launch's invariant (every scoped buffer no window stages at
    anything, the generator register at some state); afterwards the same with the scratch at the row sums the point
    before left. -/
def PhiS0 (c : Dev nD) : (n : ℕ) → n ≤ cfg0.N → sProp 𝕄
  | 0, _ => Pipeline.ΦA spec0 c
  | n + 1, hn => iprop((owns (c : Thread nD τ) scM0_0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop((owns (c : Thread nD τ) scM0_0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The proof data of pipeline 0 on core `c`: the arrays as the region finds them; after the body at point `t` the
    input's buffer at its block, the cast copy's at the narrowed block, the degree window's at the inverse square
    root of the running sums (consulted only where it is written back); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay4 (ablk0 V c t)
    | ⟨2, _⟩ => k0_pay5 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = k0_pay4 (ablk0 V c t) := by dsimp only [dat0]
theorem after0_2 (c : Dev nD) (t : Fin cfg0.N) : (dat0 V c).after 2 t = k0_pay5 (acc0 V c t.val t.isLt) := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.Rgn

end
-- ==== Proof.KI.R0.Body.lean ====
/-
  Region 0: the kernel body meets the pipeline's obligation at every grid point, with the contents stated in
  Defs.lean, and the region invariant is entered from and returned to the launch's invariant.

  The body has three control cases along the column-block coordinate k of a row block: at k = 0 the scratch is zeroed
  before the block's row sums are added to it; at 0 < k < 7 the sums are added to what the point before left; at
  k = 7 the sums are added and the scale column is stored from the finished sums. Each case is run once on arbitrary
  whole memrefs, with the contents it leaves stated as the payloads applied to the contents it finds; the body
  obligation at a point selects the case from the closed forms of the two conditions.
-/
import proofs.«133464_j38560216383500_1_alg».proof.Proof.KI.R0.Defs
import Idealize.ShloMosaic.Lib.Pipeline.Value

set_option maxRecDepth 16384

noncomputable section

namespace Cert.KernelIdeal.Rgn

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body's two branch conditions -/

/-- The first branch of the body is taken where the column-block coordinate is zero. -/
abbrev cond0_0 (i : grid0.Coords) : Prop := (Scalar.cmpi .ne (Scalar.extui (Scalar.cmpi .eq (BitVec.ofNat 32 (i 1).val) 0#32)) 0#32) = 1#1
/-- The second branch of the body is taken where the column-block coordinate is the last. -/
abbrev cond0_1 (i : grid0.Coords) : Prop := k0_cond2 i = 1#1

/-- The first branch is taken exactly at the first column block of a row block. -/
theorem hcond0_0 : ∀ t : Fin cfg0.N, cond0_0 (grid0.coords t) ↔ t.val % 8 = 0 :=
  (by decide +kernel : ∀ t : Fin grid0.N, cond0_0 (grid0.coords t) ↔ t.val % 8 = 0)
/-- The second branch is taken exactly at the last column block of a row block. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The adjacency window is never idle. -/
theorem liveAt0_0 : ∀ t : Fin cfg0.N, cfg0.idle 0 (grid0.coords t) = false := by decide +kernel
/-- The cast copy's window is never idle. -/
theorem liveAt0_1 : ∀ t : Fin cfg0.N, cfg0.idle 1 (grid0.coords t) = false := by decide +kernel
/-- Off the last column block the scale window is idle, -/
theorem idleAt0_2 : ∀ t : Fin cfg0.N, ¬cond0_1 (grid0.coords t) → cfg0.idle 2 (grid0.coords t) = true := by decide +kernel
/-- and its block is not written back there. -/
theorem noFlush0_2 : ∀ t : Fin cfg0.N, ¬cond0_1 (grid0.coords t) → (cfg0.win 2).flush t = false := by decide +kernel
/-- At the last column block the scale window is live. -/
theorem liveAt0_2 : ∀ t : Fin cfg0.N, cond0_1 (grid0.coords t) → cfg0.idle 2 (grid0.coords t) = false := by decide +kernel

/-! ## Whole-buffer loads and stores -/

/-- The zero offsets of a two-axis rectangle, as the constant function. -/
theorem zero2 : (![0, 0] : Fin 2 → Nat) = fun _ => 0 := funext fun a => by fin_cases a <;> rfl

/-- A buffer whose last store covered it whole reads back as that store's value, whatever was stored before. -/
theorem read_writes_whole {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero h inb y⟩),
    View.canon_cons_unit_zero h]

/-- A whole-buffer load from a whole memref held at `X` reads `X`. -/
theorem readAt_whole_unread {S : Shape} {e : EltTy} {m : Memref sig .tc .vmem S e} (hm : m.IsWhole)
    {off : Fin S.rank → Nat} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-! ## The body's run, case by case

On whole memrefs: the adjacency block's at `x0`, the cast copy's at anything, the scale column's and the scratch as
the case says. Each run ends with the adjacency block's buffer as it was, the cast copy's at the narrowed block,
the scratch at its contents plus the block's row sums. -/

set_option maxHeartbeats 1000000 in
/-- First column block of a row block: the scratch, at anything, is zeroed and then takes the block's row sums; the
    scale column's buffer is handed back as found. -/
theorem kernelRun0_A (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : cond0_0 i) (hc1 : ¬cond0_1 i)
    (x0 : Vec F S1024x2048 .f32) (xi2 : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xi2 ∗ (∃ d, owns (c : Thread nD τ) arg5 fullShare d)
        ∗ (iprop(owns (c : Thread nD τ) arg2 fullShare x0 ∗ owns (c : Thread nD τ) arg3 fullShare (k0_pay4 x0) ∗ owns (c : Thread nD τ) arg4 fullShare xi2 ∗ owns (c : Thread nD τ) arg5 fullShare (k0_pay3 x0 k0_pay1)) -∗ K ⟨⟩))
      ⊢ wp frame (wpE (defs₀ (F := F)) Variants.none c none) E (cc0__adj_build_kernel i arg2 harg2 arg3 harg3 arg4 harg4 arg5 harg5) K := by
  simp only [cc0__adj_build_kernel_eq_skeleton]; unfold cc0__adj_build_kernel_skel
  unfold owns
  iintro ⟨⟨%f0, %hf0, H0⟩, ⟨%d1, %f1, -, H1⟩, ⟨%f2, %hf2, H2⟩, ⟨%ds, %fs, -, HS⟩, Hk⟩
  obtain rfl := harg2.eq_unread hf0; obtain rfl := harg4.eq_unread hf2
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [read_writes_whole _ _ zero2, readAt_whole_unread harg2 zero2]
  isplitl [H2]
  · iexists _; isplitr; · ipureintro; exact harg4.read_unread _
    iexact H2
  iexists _; isplitr
  swap; · iexact HS
  ipureintro
  rw [read_writes_whole _ _ zero2, readAt_whole_unread harg2 zero2]
  sl_unfold_run_names
  rw [View.readCov_unit_zero _ zero2]

set_option maxHeartbeats 1000000 in
/-- A middle column block: the scratch, at `xs`, takes the block's row sums; the scale column's buffer is handed
    back as found. -/
theorem kernelRun0_B (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : ¬cond0_0 i) (hc1 : ¬cond0_1 i)
    (x0 : Vec F S1024x2048 .f32) (xs : Vec F S1024x1 .f32) (xi2 : Vec F S1024x1 .f32) (E : Set ℕ) (K : PUnit → sProp 𝕄) :
    iprop(owns (c : Thread nD τ) arg2 fullShare x0 ∗ (∃ d, owns (c : Thread nD τ) arg3 fullShare d) ∗ owns (c : Thread nD τ) arg4 fullShare xi2 ∗ owns (c : Thread nD τ) arg5 fullShare xs
        ∗ (iprop(owns (c : Thread nD τ) arg2 fullShare x0 ∗ owns (c : Thread nD τ) arg3 fullShare (k0_pay4 x0) ∗ owns (c : Thread nD τ) arg4 fullShare xi2 ∗ owns (c : Thread nD τ) arg5 fullShare (k0_pay3 x0 xs)) -∗ K ⟨⟩))
      ⊢ wp frame (wpE (defs₀ (F := F)) Variants.none c none) E (cc0__adj_build_kernel i arg2 harg2 arg3 harg3 arg4 harg4 arg5 harg5) K := by
  simp only [cc0__adj_build_kernel_eq_skeleton]; unfold cc0__adj_build_kernel_skel
  unfold owns
  iintro ⟨⟨%f0, %hf0, H0⟩, ⟨%d1, %f1, -, H1⟩, ⟨%f2, %hf2, H2⟩, ⟨%fs, %hfs, HS⟩, Hk⟩
  obtain rfl := harg2.eq_unread hf0; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [read_writes_whole _ _ zero2, readAt_whole_unread harg2 zero2]
  isplitl [H2]
  · iexists _; isplitr; · ipureintro; exact harg4.read_unread _
    iexact H2
  iexists _; isplitr
  swap; · iexact HS
  ipureintro
  rw [read_writes_whole _ _ zero2, readAt_whole_unread harg2 zero2, readAt_whole_unread harg5 zero2]

set_option maxHeartbeats 1000000 in
/-- Last column block of a row block: the scratch, at `xs`, takes the block's row sums, and the scale column's
    buffer, at anything, is stored whole from the finished sums. -/
theorem kernelRun0_C (c : Dev nD) (i : grid0.Coords) (arg2 : Memref sig .tc .vmem S1024x2048 .f32) (harg2 : arg2.IsWhole) (arg3 : Memref sig .tc .vmem S1024x2048 .bf16) (harg3 : arg3.IsWhole) (arg4 : Memref sig .tc .vmem S1024x1 .f32) (harg4 : arg4.IsWhole) (arg5 : Memref sig .tc .vmem S1024x1 .f32) (harg5 : arg5.IsWhole)
    (hc0 : ¬cond0_0 i) (hc1 : cond0_1 i)
    (x0 : Vec F S1024x2048 .f32) (xs : Vec F S1024x1 .f32) (E : Set ℕ) (K : PUnit → sProp 𝕄) :
    iprop(owns (c : Thread nD τ) arg2 fullShare x0 ∗ (∃ d, owns (c : Thread nD τ) arg3 fullShare d) ∗ (∃ d, owns (c : Thread nD τ) arg4 fullShare d) ∗ owns (c : Thread nD τ) arg5 fullShare xs
        ∗ (iprop(owns (c : Thread nD τ) arg2 fullShare x0 ∗ owns (c : Thread nD τ) arg3 fullShare (k0_pay4 x0) ∗ owns (c : Thread nD τ) arg4 fullShare (k0_pay5 (k0_pay3 x0 xs)) ∗ owns (c : Thread nD τ) arg5 fullShare (k0_pay3 x0 xs)) -∗ K ⟨⟩))
      ⊢ wp frame (wpE (defs₀ (F := F)) Variants.none c none) E (cc0__adj_build_kernel i arg2 harg2 arg3 harg3 arg4 harg4 arg5 harg5) K := by
  simp only [cc0__adj_build_kernel_eq_skeleton]; unfold cc0__adj_build_kernel_skel
  unfold owns
  iintro ⟨⟨%f0, %hf0, H0⟩, ⟨%d1, %f1, -, H1⟩, ⟨%d2, %f2, -, H2⟩, ⟨%fs, %hfs, HS⟩, Hk⟩
  obtain rfl := harg2.eq_unread hf0; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    rw [read_writes_whole _ _ zero2, readAt_whole_unread harg2 zero2]
  isplitl [H2]
  · iexists _; isplitr
    swap; · iexact H2
    ipureintro
    rw [read_writes_whole _ _ zero2]
    sl_unfold_run_names
    rw [View.readCov_unit_zero _ zero2, readAt_whole_unread harg2 zero2, readAt_whole_unread harg5 zero2]
  iexists _; isplitr
  swap; · iexact HS
  ipureintro
  sl_unfold_run_names
  rw [read_writes_whole _ _ zero2, readAt_whole_unread harg2 zero2, readAt_whole_unread harg5 zero2]

/-! ## The staging memrefs at a point -/

/-- Each window's current staging memref at point `t`, and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)

/-! ## The launch's invariant, opened at the scratch -/

/-- The launch's invariant is the scratch at some contents, every other scoped buffer no window stages, and the
    generator register at some state. -/
theorem PhiA0_eq (c : Dev nD) :
    (Pipeline.ΦA spec0 c : sProp 𝕄)
      = iprop((iprop(∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; rfl

/-! ## What the input's buffer holds when the body runs -/

/-- The adjacency window's current buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]) t d).trans
    (by unfold Dat.fetched Dat.blockOf iblk0; rw [A_eq0]; rfl)

/-! ## The body obligation at a point -/

/-- What the body is called with at point `t`: the invariant, what the core owes, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The adjacency buffer holds its block; the closed forms of the two conditions say which
    case the point is in, and that case's run applies: the invariant hands it the scratch (at anything where the
    row block begins, else at the running sums the point before left) and takes it back at this point's running
    sums; the other scoped buffers and the generator register ride along; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [acc0_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩⟩
      iapply (kernelRun0_A c (grid0.coords t) _ _ _ _ _ _ _ _ ((hcond0_0 t).mpr h0) (fun h => h1 ((hcond0_1 t).mp h)) (ablk0 V c t) _ Set.univ _)
      isplitl [H0]; · iexact H0
      isplitl [H1]; · iexists _; iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS, HR⟩, Hg⟩, Ho, ⟨%d0, H0⟩, ⟨%d1, H1⟩, ⟨%d2, H2⟩⟩
      iapply (kernelRun0_A c (grid0.coords t) _ _ _ _ _ _ _ _ ((hcond0_0 t).mpr h0) (fun h => h1 ((hcond0_1 t).mp h)) (ablk0 V c t) _ Set.univ _)
      isplitl [H0]; · iexact H0
      isplitl [H1]; · iexists _; iexact H1
      isplitl [H2]; · iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2
  · have hz : t.val ≠ 0 := fun e => h0 (by rw [e])
    rw [acc0_next V c t h0, PhiS0_castSucc V c t, PhiS0_pos V c _ _ hz]
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2, acc0_next V c t h0]
      iintro ⟨⟨⟨HS, HR⟩, Hg⟩, Ho, ⟨%d0, H0⟩, ⟨%d1, H1⟩, ⟨%d2, H2⟩⟩
      iapply (kernelRun0_C c (grid0.coords t) _ _ _ _ _ _ _ _ (fun h => h0 ((hcond0_0 t).mp h)) ((hcond0_1 t).mpr h1) (ablk0 V c t) _ Set.univ _)
      isplitl [H0]; · iexact H0
      isplitl [H1]; · iexists _; iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      iintro ⟨⟨⟨HS, HR⟩, Hg⟩, Ho, ⟨%d0, H0⟩, ⟨%d1, H1⟩, ⟨%d2, H2⟩⟩
      iapply (kernelRun0_B c (grid0.coords t) _ _ _ _ _ _ _ _ (fun h => h0 ((hcond0_0 t).mp h)) (fun h => h1 ((hcond0_1 t).mp h)) (ablk0 V c t) _ _ Set.univ _)
      isplitl [H0]; · iexact H0
      isplitl [H1]; · iexists _; iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-! ## The three obligations -/

/-- The body at every point: handed the input windows' current staging buffers at their blocks, the output windows'
    at anything and the invariant before the point, it runs to the end and leaves the buffers and the invariant as
    the proof data say. -/
theorem body_obligation0 (c : Dev nD) :
    BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the launch's back: the scratch's named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, HR⟩, Hg⟩
  isplitl [HS HR]
  · isplitl [HS]
    · iexists _; iexact HS
    iexact HR
  iexact Hg

end Cert.KernelIdeal.Rgn

end
-- ==== Proof.KI.R1.Defs.lean ====
/-
  Region 1 (the first normalised-adjacency layer, grid 16 x 4): what its staging buffers and its scratch hold point
  by point, as explicit functions of the arrays the region finds.

  The kernel walks a row block i of 1024 rows across four column blocks k of 4096 columns.  At each point it scales
  the 4096 feature rows of block k by the column scale, multiplies the adjacency block by them and adds the product
  to the scratch: zero plus the first product after k = 0, the previous contents plus the product after k > 0.  The
  output window is stored only at k = 3: the finished sums times the row scale, plus the bias, clamped at zero below.
  At the other points the output window is idle and what is written here for it is never consulted.
  Windows 2 and 3 (row scale, column scale) stage blocks of ONE array; each holds it at half the full share.
-/
import proofs.«133464_j38560216383500_1_alg».proof.Proof.Patched.KernelIdealLaunch
import proofs.«133464_j38560216383500_1_alg».proof.Proof.Gen.KernelIdeal.Skeleton
import proofs.«133464_j38560216383500_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks the point reads, at their literal types: the adjacency block (rows 1024 i …, columns 4096 k …), the
    feature rows 4096 k …, the row scale of rows 1024 i …, the column scale of rows 4096 k …, the bias row. -/
abbrev ablk1 (c : Dev nD) (t : Fin cfg1.N) : Vec F S1024x4096 .bf16 := iblk1 V c 0 t
abbrev vblk1 (c : Dev nD) (t : Fin cfg1.N) : Vec F S4096x64 .f32 := iblk1 V c 1 t
abbrev rblk1 (c : Dev nD) (t : Fin cfg1.N) : Vec F S1024x1 .f32 := iblk1 V c 2 t
abbrev cblk1 (c : Dev nD) (t : Fin cfg1.N) : Vec F S4096x1 .f32 := iblk1 V c 3 t
abbrev bblk1 (c : Dev nD) (t : Fin cfg1.N) : Vec F S1x64 .f32 := iblk1 V c 4 t

/-- The scratch operand: a whole scoped buffer of the kernel's own. -/
abbrev scM1_0 : Memref sig .tc .vmem S1024x64 .f32 := Memref.whole cc1_scratch0

/-- The scoped buffers no window of this call stages, split at the call's own scratch. -/
theorem scopedRest1_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop(iprop((∃ f : Buf Val ((c : Thread nD τ).loc cc1_scratch0), ((c : Thread nD τ).loc cc1_scratch0) ↦{fullShare} f))
          ∗ Pipeline.scopedRestBut (Ix := Ix) (Name := Name) (U := U) (Lvl := Lvl) (Val := Val) spec1 c [cc1_scratch0]) :=
  Pipeline.scopedRest_split_of_list spec1 c [cc1_scratch0] (by decide) (by decide)

/-! ## The running sums of block products -/

/-- What the scratch holds after the body at position `n`: at the first column block of a row block (n ≡ 0 mod 4)
    zero plus this block's product, elsewhere the previous point's contents plus this block's. -/
def acc1 (c : Dev nD) : (n : ℕ) → n < cfg1.N → Vec F S1024x64 .f32
  | 0, hn => k1_pay2 (vblk1 V c ⟨0, hn⟩) (cblk1 V c ⟨0, hn⟩) k1_pay1 (ablk1 V c ⟨0, hn⟩)
  | n + 1, hn =>
    if (n + 1) % 4 = 0 then k1_pay2 (vblk1 V c ⟨n + 1, hn⟩) (cblk1 V c ⟨n + 1, hn⟩) k1_pay1 (ablk1 V c ⟨n + 1, hn⟩)
    else k1_pay2 (vblk1 V c ⟨n + 1, hn⟩) (cblk1 V c ⟨n + 1, hn⟩) (acc1 c n (Nat.lt_of_succ_lt hn)) (ablk1 V c ⟨n + 1, hn⟩)

theorem acc1_first (c : Dev nD) (t : Fin cfg1.N) (h : t.val % 4 = 0) :
    acc1 V c t.val t.isLt = k1_pay2 (vblk1 V c t) (cblk1 V c t) k1_pay1 (ablk1 V c t) := by
  obtain ⟨n, hn⟩ := t
  cases n with
  | zero => rfl
  | succ n => exact if_pos h

theorem acc1_next (c : Dev nD) (t : Fin cfg1.N) (h : ¬ t.val % 4 = 0) :
    acc1 V c t.val t.isLt
      = k1_pay2 (vblk1 V c t) (cblk1 V c t) (acc1 V c (t.val - 1) (Nat.lt_of_le_of_lt (Nat.sub_le _ _) t.isLt)) (ablk1 V c t) := by
  obtain ⟨n, hn⟩ := t
  cases n with
  | zero => exact absurd (Nat.zero_mod _) h
  | succ n => exact if_neg h

/-! ## The region invariant -/

/-- Before position `n`: before the first point the launch's invariant; afterwards the same with the scratch at the
    sums the point before left. -/
def PhiS1 (c : Dev nD) : (n : ℕ) → n ≤ cfg1.N → sProp 𝕄
  | 0, _ => Pipeline.ΦA spec1 c
  | n + 1, hn => iprop((owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop((owns (c : Thread nD τ) scM1_0 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The proof data of pipeline 1 on core `c`: the arrays as the region finds them; after the body at point `t` each
    input's buffer at its block and the output's at the finished layer row block (consulted only where it is written
    back); the invariant above; nothing owed; full shares but for the two windows on the one scale array, which
    hold it at its two halves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay3 (acc1 V c t.val t.isLt) (rblk1 V c t) (bblk1 V c t)
  Φ t := PhiS1 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = k1_pay3 (acc1 V c t.val t.isLt) (rblk1 V c t) (bblk1 V c t) := by dsimp only [dat1]

theorem q1_2 (c : Dev nD) : (dat1 V c).q 2 = fullShare.left := by dsimp only [dat1]
theorem q1_3 (c : Dev nD) : (dat1 V c).q 3 = fullShare.right := by dsimp only [dat1]
theorem q1_0 (c : Dev nD) : (dat1 V c).q 0 = fullShare := by dsimp only [dat1]
theorem q1_1 (c : Dev nD) : (dat1 V c).q 1 = fullShare := by dsimp only [dat1]
theorem q1_4 (c : Dev nD) : (dat1 V c).q 4 = fullShare := by dsimp only [dat1]
theorem q1_5 (c : Dev nD) : (dat1 V c).q 5 = fullShare := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Rgn

end
-- ==== Proof.KI.R1.Body.lean ====
/-
  Region 1: the kernel body meets the pipeline's obligation at every grid point, with the contents stated in
  Defs.lean, and the region invariant is entered from and returned to the launch's invariant.
-/
import proofs.«133464_j38560216383500_1_alg».proof.Proof.KI.R1.Defs
import Idealize.ShloMosaic.Lib.Pipeline.Value

set_option maxRecDepth 16384

noncomputable section

namespace Cert.KernelIdeal.Rgn

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions over the grid -/

/-- The reset branch's condition (the column-block coordinate is the first), from the grid coordinates. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The output branch's condition (the column-block coordinate is the last). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The staging memrefs at a point -/

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x64 .f32 := win1_5.stage (cfg1.slots t 5)
abbrev hs1_5 (t : Fin cfg1.N) : (ms1_5 t).IsWhole := hstage1_5 ((cfg1.slots t 5).cast nbuf1_5)

/-! ## Each input's staging buffer holds its block, fetched at the point or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## Whole-buffer loads and stores -/

/-- The whole-buffer rectangle's offsets are zero. -/
theorem hzWhole1 : (![0, 0] : Fin 2 → ℕ) = fun _ => 0 := funext fun a => by fin_cases a <;> rfl

/-- A store through the whole-buffer rectangle, last, leaves its payload whatever the buffer held and whatever was
    stored before. -/
theorem read_write_whole1 {κ : Kind} {sp : Space} (v : View sig κ sp S1024x64 .f32) (f : v.ty.Contents (Elt F)) (p : Vec F S1024x64 .f32)
    (L : List (View.Piece (Elt F) S1024x64 .f32)) :
    v.read (Elt F) (v.writes (Elt F) f (⟨Rect.unit (s := S1024x64) ![0, 0] S1024x64.size inb_S1024x64_S1024x64_0_0, p⟩ :: L)) = p := by
  rw [View.read_writes_eq_canon _ _ _ (fun y => ⟨_, List.mem_cons_self, View.mem_set_unit_zero hzWhole1 inb_S1024x64_S1024x64_0_0 y⟩), View.canon_cons_unit_zero hzWhole1]

set_option maxHeartbeats 1000000 in
/-- At the first column block: the scratch, whatever it held, is zeroed, and the body adds this block's product to
    the zeros it reads back; the output window is not touched. -/
theorem kernelRun1_A (c : Dev nD) (i : grid1.Coords) (arg2 : Memref sig .tc .vmem S1024x4096 .bf16) (harg2 : arg2.IsWhole) (arg3 : Memref sig .tc .vmem S4096x64 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x64 .f32) (harg8 : arg8.IsWhole) (hc0 : cond1_0 i) (hc1 : ¬cond1_1 i)
    (x0 : Vec F S1024x4096 .bf16) (x1 : Vec F S4096x64 .f32) (x2 : Vec F S1024x1 .f32) (x3 : Vec F S4096x1 .f32) (x4 : Vec F S1x64 .f32)
    (xi5 : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay2 x1 x3 k1_pay1 x0)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap; · iexact HS
  ipureintro
  rw [read_write_whole1]
  sl_unfold_run_names
  simp only [View.readAt_eq_ld, View.ld_unit_zero (S := S4096x64) hzWhole1, View.ld_unit_zero (S := S4096x1) hzWhole1, View.ld_unit_zero (S := S1024x64) hzWhole1, View.ld_unit_zero (S := S1024x4096) hzWhole1, View.ld_unit_zero (S := S1024x1) hzWhole1, View.ld_unit_zero (S := S1x64) hzWhole1, View.readCov_unit_zero (S := S1024x64) _ hzWhole1]

set_option maxHeartbeats 1000000 in
/-- Between the first and the last column block: the scratch holds the sums so far and the body adds this block's
    product; the output window is not touched. -/
theorem kernelRun1_B (c : Dev nD) (i : grid1.Coords) (arg2 : Memref sig .tc .vmem S1024x4096 .bf16) (harg2 : arg2.IsWhole) (arg3 : Memref sig .tc .vmem S4096x64 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x64 .f32) (harg8 : arg8.IsWhole) (hc0 : ¬cond1_0 i) (hc1 : ¬cond1_1 i)
    (x0 : Vec F S1024x4096 .bf16) (x1 : Vec F S4096x64 .f32) (x2 : Vec F S1024x1 .f32) (x3 : Vec F S4096x1 .f32) (x4 : Vec F S1x64 .f32)
    (xi5 : Vec F S1024x64 .f32) (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k1_pay2 x1 x3 xs x0)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap; · iexact HS
  ipureintro
  rw [read_write_whole1]
  simp only [View.readAt_eq_ld, View.ld_unit_zero (S := S4096x64) hzWhole1, View.ld_unit_zero (S := S4096x1) hzWhole1, View.ld_unit_zero (S := S1024x64) hzWhole1, View.ld_unit_zero (S := S1024x4096) hzWhole1, View.ld_unit_zero (S := S1024x1) hzWhole1, View.ld_unit_zero (S := S1x64) hzWhole1]

set_option maxHeartbeats 1000000 in
/-- At the last column block: the body adds this block's product to the sums so far, then stores into the output
    window the finished sums scaled by the row scale, plus the bias, clamped below at zero. -/
theorem kernelRun1_C (c : Dev nD) (i : grid1.Coords) (arg2 : Memref sig .tc .vmem S1024x4096 .bf16) (harg2 : arg2.IsWhole) (arg3 : Memref sig .tc .vmem S4096x64 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x64 .f32) (harg6 : arg6.IsWhole) (arg7 : Memref sig .tc .vmem S1024x64 .f32) (harg7 : arg7.IsWhole) (arg8 : Memref sig .tc .vmem S1024x64 .f32) (harg8 : arg8.IsWhole) (hc0 : ¬cond1_0 i) (hc1 : cond1_1 i)
    (x0 : Vec F S1024x4096 .bf16) (x1 : Vec F S4096x64 .f32) (x2 : Vec F S1024x1 .f32) (x3 : Vec F S4096x1 .f32) (x4 : Vec F S1x64 .f32)
    (xs : Vec F S1024x64 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k1_pay3 (k1_pay2 x1 x3 xs x0) x2 x4)
            ∗ owns (c : Thread nD τ) arg8 fullShare (k1_pay2 x1 x3 xs x0)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists _; isplitr
    swap; · iexact H5
    ipureintro
    rw [read_write_whole1]
    sl_unfold_run_names
    simp only [View.readAt_eq_ld, View.ld_unit_zero (S := S4096x64) hzWhole1, View.ld_unit_zero (S := S4096x1) hzWhole1, View.ld_unit_zero (S := S1024x64) hzWhole1, View.ld_unit_zero (S := S1024x4096) hzWhole1, View.ld_unit_zero (S := S1024x1) hzWhole1, View.ld_unit_zero (S := S1x64) hzWhole1, View.readCov_unit_zero (S := S1024x64) _ hzWhole1]
  iexists _; isplitr
  swap; · iexact HS
  ipureintro
  sl_unfold_run_names
  rw [read_write_whole1]
  simp only [View.readAt_eq_ld, View.ld_unit_zero (S := S4096x64) hzWhole1, View.ld_unit_zero (S := S4096x1) hzWhole1, View.ld_unit_zero (S := S1024x64) hzWhole1, View.ld_unit_zero (S := S1024x4096) hzWhole1, View.ld_unit_zero (S := S1024x1) hzWhole1, View.ld_unit_zero (S := S1x64) hzWhole1]

/-! ## The launch's invariant with the scratch as a memref -/

/-- The launch's invariant: the call's own scratch owned whole at some contents, the other scoped buffers, the
    generator register. -/
theorem PhiA1_eq (c : Dev nD) :
    (Pipeline.ΦA spec1 c : sProp 𝕄)
      = iprop((iprop(∃ d, owns (c : Thread nD τ) scM1_0 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' staging buffers hold their blocks; the point's position among the four column
    blocks says which of the three runs applies; the invariant hands the run the scratch (at anything before the very
    first point, at the previous point's sums afterwards) and takes it back at this point's sums, the other scoped
    buffers and the generator register riding along untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 64 := lt_of_lt_of_eq t.isLt (show cfg1.N = 64 from N_1)
  by_cases h0 : t.val % 4 = 0
  · have h1 : ¬t.val % 4 = 3 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 t hc1) (noFlush1_5 t hc1)]
    rw [acc1_first V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond1_0 (grid1.coords t) := fun h => h0 ((hcond1_0 t).mp h)
    rw [acc1_next V c t h0]
    rw [PhiS1_castSucc V c t, PhiS1_pos V c _ _ hz]
    by_cases h1 : t.val % 4 = 3
    · have hc1 : cond1_1 (grid1.coords t) := (hcond1_1 t).mpr h1
      rw [show (dat1 V c).leavesExact 5 t = owns (c : Thread nD τ) (ms1_5 t) fullShare ((dat1 V c).after 5 t) from by
        unfold Dat.leavesExact; rw [liveAt1_5 t hc1], after1_5]
      rw [acc1_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h1 ((hcond1_1 t).mp h)
      rw [Dat.leavesExact_idle (dat1 V c) 5 t (idleAt1_5 t hc1) (noFlush1_5 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 (iblk1 V c 0 t) (iblk1 V c 1 t) (iblk1 V c 2 t) (iblk1 V c 3 t) (iblk1 V c 4 t) ((dat1 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body at every point: handed the input windows' current staging buffers at their blocks, the output windows'
    at anything and the invariant before the point, it runs to the end and leaves the buffers and the invariant as
    the proof data say. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the launch's back: the scratch's named contents are forgotten. -/
theorem hout1 (c : Dev nD) : (dat1 V c).Φ (Fin.last cfg1.N) ⊢ (Pipeline.ΦA spec1 c : sProp 𝕄) := by
  have hN : cfg1.N = 64 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, HR⟩, Hg⟩
  isplitl [HS HR]
  · isplitl [HS]
    · iexists _; iexact HS
    iexact HR
  iexact Hg

end Cert.KernelIdeal.Rgn

end
-- ==== Proof.KI.R2.Defs.lean ====
/-
  Region 2 (the second normalised-adjacency layer, grid 16 x 4): what its staging buffers and its scratch hold point
  by point, as explicit functions of the arrays the region finds.

  The kernel walks a row block i of 1024 rows across four column blocks k of 4096 columns.  At each point it scales
  the 4096 feature rows of block k by the column scale, multiplies the adjacency block by them and adds the product
  to the scratch: zero plus the first product after k = 0, the previous contents plus the product after k > 0.  The
  output window is stored only at k = 3: the finished sums times the row scale, plus the bias.
  At the other points the output window is idle and what is written here for it is never consulted.
  Windows 2 and 3 (row scale, column scale) stage blocks of ONE array; each holds it at half the full share.
-/
import proofs.«133464_j38560216383500_1_alg».proof.Proof.Patched.KernelIdealLaunch
import proofs.«133464_j38560216383500_1_alg».proof.Proof.Gen.KernelIdeal.Skeleton
import proofs.«133464_j38560216383500_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Rgn

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The blocks the point reads, at their literal types: the adjacency block (rows 1024 i …, columns 4096 k …), the
    feature rows 4096 k …, the row scale of rows 1024 i …, the column scale of rows 4096 k …, the bias row. -/
abbrev ablk2 (c : Dev nD) (t : Fin cfg2.N) : Vec F S1024x4096 .bf16 := iblk2 V c 0 t
abbrev vblk2 (c : Dev nD) (t : Fin cfg2.N) : Vec F S4096x16 .f32 := iblk2 V c 1 t
abbrev rblk2 (c : Dev nD) (t : Fin cfg2.N) : Vec F S1024x1 .f32 := iblk2 V c 2 t
abbrev cblk2 (c : Dev nD) (t : Fin cfg2.N) : Vec F S4096x1 .f32 := iblk2 V c 3 t
abbrev bblk2 (c : Dev nD) (t : Fin cfg2.N) : Vec F S1x16 .f32 := iblk2 V c 4 t

/-- The scratch operand: a whole scoped buffer of the kernel's own. -/
abbrev scM2_0 : Memref sig .tc .vmem S1024x16 .f32 := Memref.whole cc2_scratch0

/-- The scoped buffers no window of this call stages, split at the call's own scratch. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-! ## The running sums of block products -/

/-- What the scratch holds after the body at position `n`: at the first column block of a row block (n ≡ 0 mod 4)
    zero plus this block's product, elsewhere the previous point's contents plus this block's. -/
def acc2 (c : Dev nD) : (n : ℕ) → n < cfg2.N → Vec F S1024x16 .f32
  | 0, hn => k2_pay2 (vblk2 V c ⟨0, hn⟩) (cblk2 V c ⟨0, hn⟩) k2_pay1 (ablk2 V c ⟨0, hn⟩)
  | n + 1, hn =>
    if (n + 1) % 4 = 0 then k2_pay2 (vblk2 V c ⟨n + 1, hn⟩) (cblk2 V c ⟨n + 1, hn⟩) k2_pay1 (ablk2 V c ⟨n + 1, hn⟩)
    else k2_pay2 (vblk2 V c ⟨n + 1, hn⟩) (cblk2 V c ⟨n + 1, hn⟩) (acc2 c n (Nat.lt_of_succ_lt hn)) (ablk2 V c ⟨n + 1, hn⟩)

theorem acc2_first (c : Dev nD) (t : Fin cfg2.N) (h : t.val % 4 = 0) :
    acc2 V c t.val t.isLt = k2_pay2 (vblk2 V c t) (cblk2 V c t) k2_pay1 (ablk2 V c t) := by
  obtain ⟨n, hn⟩ := t
  cases n with
  | zero => rfl
  | succ n => exact if_pos h

theorem acc2_next (c : Dev nD) (t : Fin cfg2.N) (h : ¬ t.val % 4 = 0) :
    acc2 V c t.val t.isLt
      = k2_pay2 (vblk2 V c t) (cblk2 V c t) (acc2 V c (t.val - 1) (Nat.lt_of_le_of_lt (Nat.sub_le _ _) t.isLt)) (ablk2 V c t) := by
  obtain ⟨n, hn⟩ := t
  cases n with
  | zero => exact absurd (Nat.zero_mod _) h
  | succ n => exact if_neg h

/-! ## The region invariant -/

/-- Before position `n`: before the first point the launch's invariant; afterwards the same with the scratch at the
    sums the point before left. -/
def PhiS2 (c : Dev nD) : (n : ℕ) → n ≤ cfg2.N → sProp 𝕄
  | 0, _ => Pipeline.ΦA spec2 c
  | n + 1, hn => iprop((owns (c : Thread nD τ) scM2_0 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) scM2_0 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop((owns (c : Thread nD τ) scM2_0 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The proof data of pipeline 2 on core `c`: the arrays as the region finds them; after the body at point `t` each
    input's buffer at its block and the output's at the finished layer row block (consulted only where it is written
    back); the invariant above; nothing owed; full shares but for the two windows on the one scale array, which
    hold it at its two halves. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay3 (acc2 V c t.val t.isLt) (rblk2 V c t) (bblk2 V c t)
  Φ t := PhiS2 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = k2_pay3 (acc2 V c t.val t.isLt) (rblk2 V c t) (bblk2 V c t) := by dsimp only [dat2]

theorem q2_2 (c : Dev nD) : (dat2 V c).q 2 = fullShare.left := by dsimp only [dat2]
theorem q2_3 (c : Dev nD) : (dat2 V c).q 3 = fullShare.right := by dsimp only [dat2]
theorem q2_0 (c : Dev nD) : (dat2 V c).q 0 = fullShare := by dsimp only [dat2]
theorem q2_1 (c : Dev nD) : (dat2 V c).q 1 = fullShare := by dsimp only [dat2]
theorem q2_4 (c : Dev nD) : (dat2 V c).q 4 = fullShare := by dsimp only [dat2]
theorem q2_5 (c : Dev nD) : (dat2 V c).q 5 = fullShare := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

end Cert.KernelIdeal.Rgn

end
-- ==== Proof.KI.R2.Body.lean ====
/-
  Region 2: the kernel body meets the pipeline's obligation at every grid point, with the contents stated in
  Defs.lean, and the region invariant is entered from and returned to the launch's invariant.
-/
import proofs.«133464_j38560216383500_1_alg».proof.Proof.KI.R2.Defs
import Idealize.ShloMosaic.Lib.Pipeline.Value

set_option maxRecDepth 16384

noncomputable section

namespace Cert.KernelIdeal.Rgn

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two branch conditions over the grid -/

/-- The reset branch's condition (the column-block coordinate is the first), from the grid coordinates. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The output branch's condition (the column-block coordinate is the last). -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The staging memrefs at a point -/

abbrev ms2_0 (t : Fin cfg2.N) : Memref sig .tc .vmem S1024x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4096x16 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x16 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x16 .f32 := win2_5.stage (cfg2.slots t 5)
abbrev hs2_5 (t : Fin cfg2.N) : (ms2_5 t).IsWhole := hstage2_5 ((cfg2.slots t 5).cast nbuf2_5)

/-! ## Each input's staging buffer holds its block, fetched at the point or not -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## Whole-buffer loads and stores -/

/-- The whole-buffer rectangle's offsets are zero. -/
theorem hzWhole2 : (![0, 0] : Fin 2 → ℕ) = fun _ => 0 := funext fun a => by fin_cases a <;> rfl

/-- A store through the whole-buffer rectangle, last, leaves its payload whatever the buffer held and whatever was
    stored before. -/
theorem read_write_whole2 {κ : Kind} {sp : Space} (v : View sig κ sp S1024x16 .f32) (f : v.ty.Contents (Elt F)) (p : Vec F S1024x16 .f32)
    (L : List (View.Piece (Elt F) S1024x16 .f32)) :
    v.read (Elt F) (v.writes (Elt F) f (⟨Rect.unit (s := S1024x16) ![0, 0] S1024x16.size inb_S1024x16_S1024x16_0_0, p⟩ :: L)) = p := by
  rw [View.read_writes_eq_canon _ _ _ (fun y => ⟨_, List.mem_cons_self, View.mem_set_unit_zero hzWhole2 inb_S1024x16_S1024x16_0_0 y⟩), View.canon_cons_unit_zero hzWhole2]

set_option maxHeartbeats 1000000 in
/-- At the first column block: the scratch, whatever it held, is zeroed, and the body adds this block's product to
    the zeros it reads back; the output window is not touched. -/
theorem kernelRun2_A (c : Dev nD) (i : grid2.Coords) (arg2 : Memref sig .tc .vmem S1024x4096 .bf16) (harg2 : arg2.IsWhole) (arg3 : Memref sig .tc .vmem S4096x16 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : cond2_0 i) (hc1 : ¬cond2_1 i)
    (x0 : Vec F S1024x4096 .bf16) (x1 : Vec F S4096x16 .f32) (x2 : Vec F S1024x1 .f32) (x3 : Vec F S4096x1 .f32) (x4 : Vec F S1x16 .f32)
    (xi5 : Vec F S1024x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k2_pay2 x1 x3 k2_pay1 x0)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
  subst hf0; subst hf1; subst hf2; subst hf3; subst hf4; subst hf5
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap; · iexact HS
  ipureintro
  rw [read_write_whole2]
  sl_unfold_run_names
  simp only [View.readAt_eq_ld, View.ld_unit_zero (S := S4096x16) hzWhole2, View.ld_unit_zero (S := S4096x1) hzWhole2, View.ld_unit_zero (S := S1024x16) hzWhole2, View.ld_unit_zero (S := S1024x4096) hzWhole2, View.ld_unit_zero (S := S1024x1) hzWhole2, View.ld_unit_zero (S := S1x16) hzWhole2, View.readCov_unit_zero (S := S1024x16) _ hzWhole2]

set_option maxHeartbeats 1000000 in
/-- Between the first and the last column block: the scratch holds the sums so far and the body adds this block's
    product; the output window is not touched. -/
theorem kernelRun2_B (c : Dev nD) (i : grid2.Coords) (arg2 : Memref sig .tc .vmem S1024x4096 .bf16) (harg2 : arg2.IsWhole) (arg3 : Memref sig .tc .vmem S4096x16 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : ¬cond2_1 i)
    (x0 : Vec F S1024x4096 .bf16) (x1 : Vec F S4096x16 .f32) (x2 : Vec F S1024x1 .f32) (x3 : Vec F S4096x1 .f32) (x4 : Vec F S1x16 .f32)
    (xi5 : Vec F S1024x16 .f32) (xs : Vec F S1024x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xi5
            ∗ owns (c : Thread nD τ) arg8 fullShare (k2_pay2 x1 x3 xs x0)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  iexists _; isplitr
  swap; · iexact HS
  ipureintro
  rw [read_write_whole2]
  simp only [View.readAt_eq_ld, View.ld_unit_zero (S := S4096x16) hzWhole2, View.ld_unit_zero (S := S4096x1) hzWhole2, View.ld_unit_zero (S := S1024x16) hzWhole2, View.ld_unit_zero (S := S1024x4096) hzWhole2, View.ld_unit_zero (S := S1024x1) hzWhole2, View.ld_unit_zero (S := S1x16) hzWhole2]

set_option maxHeartbeats 1000000 in
/-- At the last column block: the body adds this block's product to the sums so far, then stores into the output
    window the finished sums scaled by the row scale, plus the bias, clamped below at zero. -/
theorem kernelRun2_C (c : Dev nD) (i : grid2.Coords) (arg2 : Memref sig .tc .vmem S1024x4096 .bf16) (harg2 : arg2.IsWhole) (arg3 : Memref sig .tc .vmem S4096x16 .f32) (harg3 : arg3.IsWhole) (arg4 : Memref sig .tc .vmem S1024x1 .f32) (harg4 : arg4.IsWhole) (arg5 : Memref sig .tc .vmem S4096x1 .f32) (harg5 : arg5.IsWhole) (arg6 : Memref sig .tc .vmem S1x16 .f32) (harg6 : arg6.IsWhole) (arg7 : Memref sig .tc .vmem S1024x16 .f32) (harg7 : arg7.IsWhole) (arg8 : Memref sig .tc .vmem S1024x16 .f32) (harg8 : arg8.IsWhole) (hc0 : ¬cond2_0 i) (hc1 : cond2_1 i)
    (x0 : Vec F S1024x4096 .bf16) (x1 : Vec F S4096x16 .f32) (x2 : Vec F S1024x1 .f32) (x3 : Vec F S4096x1 .f32) (x4 : Vec F S1x16 .f32)
    (xs : Vec F S1024x16 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k2_pay3 (k2_pay2 x1 x3 xs x0) x2 x4)
            ∗ owns (c : Thread nD τ) arg8 fullShare (k2_pay2 x1 x3 xs x0)) -∗ K ⟨⟩))
      ⊢ wp frame (wpE (defs₀ (F := F)) Variants.none c none) E (cc2_kernel i arg2 harg2 arg3 harg3 arg4 harg4 arg5 harg5 arg6 harg6 arg7 harg7 arg8 harg8) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr
    · ipureintro; rfl
    · iexact H0
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists _; isplitr
    swap; · iexact H5
    ipureintro
    rw [read_write_whole2]
    sl_unfold_run_names
    simp only [View.readAt_eq_ld, View.ld_unit_zero (S := S4096x16) hzWhole2, View.ld_unit_zero (S := S4096x1) hzWhole2, View.ld_unit_zero (S := S1024x16) hzWhole2, View.ld_unit_zero (S := S1024x4096) hzWhole2, View.ld_unit_zero (S := S1024x1) hzWhole2, View.ld_unit_zero (S := S1x16) hzWhole2, View.readCov_unit_zero (S := S1024x16) _ hzWhole2]
  iexists _; isplitr
  swap; · iexact HS
  ipureintro
  sl_unfold_run_names
  rw [read_write_whole2]
  simp only [View.readAt_eq_ld, View.ld_unit_zero (S := S4096x16) hzWhole2, View.ld_unit_zero (S := S4096x1) hzWhole2, View.ld_unit_zero (S := S1024x16) hzWhole2, View.ld_unit_zero (S := S1024x4096) hzWhole2, View.ld_unit_zero (S := S1024x1) hzWhole2, View.ld_unit_zero (S := S1x16) hzWhole2]

/-! ## The launch's invariant with the scratch as a memref -/

/-- The launch's invariant: the call's own scratch owned whole at some contents, the other scoped buffers, the
    generator register. -/
theorem PhiA2_eq (c : Dev nD) :
    (Pipeline.ΦA spec2 c : sProp 𝕄)
      = iprop((iprop(∃ d, owns (c : Thread nD τ) scM2_0 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' staging buffers hold their blocks; the point's position among the four column
    blocks says which of the three runs applies; the invariant hands the run the scratch (at anything before the very
    first point, at the previous point's sums afterwards) and takes it back at this point's sums, the other scoped
    buffers and the generator register riding along untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  have hN : t.val < 64 := lt_of_lt_of_eq t.isLt (show cfg2.N = 64 from N_2)
  by_cases h0 : t.val % 4 = 0
  · have h1 : ¬t.val % 4 = 3 := by omega
    have hc0 : cond2_0 (grid2.coords t) := (hcond2_0 t).mpr h0
    have hc1 : ¬cond2_1 (grid2.coords t) := fun h => h1 ((hcond2_1 t).mp h)
    rw [Dat.leavesExact_idle (dat2 V c) 5 t (idleAt2_5 t hc1) (noFlush2_5 t hc1)]
    rw [acc2_first V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 (iblk2 V c 0 t) (iblk2 V c 1 t) (iblk2 V c 2 t) (iblk2 V c 3 t) (iblk2 V c 4 t) ((dat2 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    have hc0 : ¬cond2_0 (grid2.coords t) := fun h => h0 ((hcond2_0 t).mp h)
    rw [acc2_next V c t h0]
    rw [PhiS2_castSucc V c t, PhiS2_pos V c _ _ hz]
    by_cases h1 : t.val % 4 = 3
    · have hc1 : cond2_1 (grid2.coords t) := (hcond2_1 t).mpr h1
      rw [show (dat2 V c).leavesExact 5 t = owns (c : Thread nD τ) (ms2_5 t) fullShare ((dat2 V c).after 5 t) from by
        unfold Dat.leavesExact; rw [liveAt2_5 t hc1], after2_5]
      rw [acc2_next V c t h0]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 (iblk2 V c 0 t) (iblk2 V c 1 t) (iblk2 V c 2 t) (iblk2 V c 3 t) (iblk2 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond2_1 (grid2.coords t) := fun h => h1 ((hcond2_1 t).mp h)
      rw [Dat.leavesExact_idle (dat2 V c) 5 t (idleAt2_5 t hc1) (noFlush2_5 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩⟩
      iapply (kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) hc0 hc1 (iblk2 V c 0 t) (iblk2 V c 1 t) (iblk2 V c 2 t) (iblk2 V c 3 t) (iblk2 V c 4 t) ((dat2 V c).before 5 t d5) _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body at every point: handed the input windows' current staging buffers at their blocks, the output windows'
    at anything and the invariant before the point, it runs to the end and leaves the buffers and the invariant as
    the proof data say. -/
theorem body_obligation2 (c : Dev nD) :
    BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]

/-- After the last point the invariant gives the launch's back: the scratch's named contents are forgotten. -/
theorem hout2 (c : Dev nD) : (dat2 V c).Φ (Fin.last cfg2.N) ⊢ (Pipeline.ΦA spec2 c : sProp 𝕄) := by
  have hN : cfg2.N = 64 := N_2
  rw [show (dat2 V c).Φ (Fin.last cfg2.N) = PhiS2 V c (Fin.last cfg2.N).val (Nat.le_of_lt_succ (Fin.last cfg2.N).isLt) from rfl,
    PhiS2_pos V c _ _ (by rw [Fin.val_last]; omega), PhiA2_eq]
  iintro ⟨⟨HS, HR⟩, Hg⟩
  isplitl [HS HR]
  · isplitl [HS]
    · iexists _; iexact HS
    iexact HR
  iexact Hg

end Cert.KernelIdeal.Rgn

end
-- ==== Proof.KI.AssemblyDefs.lean ====
/-
  The contents of every unscoped buffer between two items of @main, as a fold from the launch memory: a host stretch
  applies its operations; a region leaves each of its output arrays at what its write-backs fold to and touches
  nothing else.
-/
import proofs.«133464_j38560216383500_1_alg».proof.Proof.KI.R0.Defs
import proofs.«133464_j38560216383500_1_alg».proof.Proof.KI.R1.Defs
import proofs.«133464_j38560216383500_1_alg».proof.Proof.KI.R2.Defs
import Idealize.ShloMosaic.Lib.StableHlo.Run

set_option maxRecDepth 16384

noncomputable section

namespace Cert.KernelIdeal.Rgn

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m ((c : Dev nD), b)
/-- After the first host stretch (region 0's entry): the dense adjacency is built. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: the cast copy and the scale column at what the region's write-backs leave. -/
def W2 (c : Dev nD) : Valuation τ sig (Elt F) :=
  Function.update (Function.update (W1 m c) main_v42_0 ((dat0 (V1 m) c).arrAt 1 cfg0.N)) main_v42_1 ((dat0 (V1 m) c).arrAt 2 cfg0.N)
/-- After the second host stretch (region 1's entry): the first feature projection and the bias row. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: the hidden layer at what the region's write-backs leave. -/
def W4 (c : Dev nD) : Valuation τ sig (Elt F) :=
  Function.update (W3 m c) main_v45 ((dat1 (V3 m) c).arrAt 5 cfg1.N)
/-- After the third host stretch (region 2's entry): the second feature projection and the bias row. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At region 2's exit: the result at what the region's write-backs leave. -/
def W6 (c : Dev nD) : Valuation τ sig (Elt F) :=
  Function.update (W5 m c) main_v48 ((dat2 (V5 m) c).arrAt 5 cfg2.N)

end Cert.KernelIdeal.Rgn

end
-- ==== Proof.KI.Assembly.lean ====
/-
  @main from the launch to the return: three host stretches and three kernel regions in turn.

  Given, for each region, that its body meets the pipeline's obligation at every grid point and that its invariant
  is entered from and returned to the launch's, every weakly fair execution of @main terminates, nothing faulting,
  and ends with every unscoped buffer at the last valuation of the fold in AssemblyDefs.lean.  The argument arrays are
  written by no item, so they end as launched; the result array is the last region's output.

  Each region's arrays are split out of the core's unscoped buffers at its entry and put back at its exit.  In the two
  layer regions the row-scale and column-scale windows stage blocks of ONE array: at entry that array's full share is
  dealt to the two windows as its left and right halves, and at exit the halves, both still at the entry contents
  (inputs are never written back), are joined again.
-/
import proofs.«133464_j38560216383500_1_alg».proof.Proof.KI.AssemblyDefs
import proofs.«133464_j38560216383500_1_alg».proof.Proof.Patched.KernelIdealRegions
import Idealize.ShloMosaic.Lib.Pipeline.RegionsLoop
import Idealize.ShloMosaic.Lib.Pipeline.FrameSuffix
import Idealize.ShloMosaic.Adequacy
import Idealize.ShloMosaic.Init

set_option maxRecDepth 16384

noncomputable section

namespace Cert.KernelIdeal.Rgn

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each item leaves unchanged -/

/-- The first host stretch leaves every buffer it does not write at the launch contents. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- Region 0 changes its two output arrays only. -/
theorem W2_of (c : Dev nD) (r : Ref sig .tc) (h0 : r ≠ main_v42_0) (h1 : r ≠ main_v42_1) :
    W2 m c (Proc.devRef .tc r) = W1 m c (Proc.devRef .tc r) := by
  unfold W2
  rw [Function.update_of_ne (StableHlo.devRef_ne_of_ne h1), Function.update_of_ne (StableHlo.devRef_ne_of_ne h0)]
theorem W2_main_v42_0 (c : Dev nD) : W2 m c (Proc.devRef .tc main_v42_0) = (dat0 (V1 m) c).arrAt 1 cfg0.N := by
  unfold W2
  rw [Function.update_of_ne (StableHlo.devRef_ne_of_ne (by decide)), Function.update_self]
theorem W2_main_v42_1 (c : Dev nD) : W2 m c (Proc.devRef .tc main_v42_1) = (dat0 (V1 m) c).arrAt 2 cfg0.N := by
  unfold W2
  rw [Function.update_self]
/-- The second host stretch leaves every buffer it does not write as region 0 left it. -/
theorem W3_of (c : Dev nD) (r : Ref sig .tc) (h : r ∉ hostOps1_W) : W3 m c (Proc.devRef .tc r) = W2 m c (Proc.devRef .tc r) :=
  StableHlo.after_of_writes_sub hostOps1 _ hostOps1_writes h
/-- Region 1 changes its output array only. -/
theorem W4_of (c : Dev nD) (r : Ref sig .tc) (h : r ≠ main_v45) : W4 m c (Proc.devRef .tc r) = W3 m c (Proc.devRef .tc r) := by
  unfold W4
  rw [Function.update_of_ne (StableHlo.devRef_ne_of_ne h)]
theorem W4_main_v45 (c : Dev nD) : W4 m c (Proc.devRef .tc main_v45) = (dat1 (V3 m) c).arrAt 5 cfg1.N := by
  unfold W4
  rw [Function.update_self]
/-- The third host stretch leaves every buffer it does not write as region 1 left it. -/
theorem W5_of (c : Dev nD) (r : Ref sig .tc) (h : r ∉ hostOps2_W) : W5 m c (Proc.devRef .tc r) = W4 m c (Proc.devRef .tc r) :=
  StableHlo.after_of_writes_sub hostOps2 _ hostOps2_writes h
/-- Region 2 changes its output array only. -/
theorem W6_of (c : Dev nD) (r : Ref sig .tc) (h : r ≠ main_v48) : W6 m c (Proc.devRef .tc r) = W5 m c (Proc.devRef .tc r) := by
  unfold W6
  rw [Function.update_of_ne (StableHlo.devRef_ne_of_ne h)]

/-- The result array at the end is the last region's output. -/
theorem W6_main_v48 (c : Dev nD) : W6 m c (Proc.devRef .tc main_v48) = (dat2 (V5 m) c).arrAt 5 cfg2.N := by
  unfold W6
  rw [Function.update_self]

/-- A buffer no host stretch writes and no region puts out reaches the end as launched. -/
theorem W6_of_untouched (c : Dev nD) (r : Ref sig .tc) (h0 : r ∉ hostOps0_W) (h1 : r ∉ hostOps1_W) (h2 : r ∉ hostOps2_W)
    (ha : r ≠ main_v42_0) (hb : r ≠ main_v42_1) (hc : r ≠ main_v45) (hd : r ≠ main_v48) :
    W6 m c (Proc.devRef .tc r) = m ((c : Thread nD τ).loc r) :=
  (W6_of m c r hd).trans <| (W5_of m c r h2).trans <| (W4_of m c r hc).trans <| (W3_of m c r h1).trans <|
    (W2_of m c r ha hb).trans <| (W1_of m c r h0).trans rfl

/-- No item writes an argument array: each holds its launch contents at the end. -/
theorem W6_main_arg0 (c : Dev nD) : W6 m c (Proc.devRef .tc main_arg0) = m ((c : Thread nD τ).loc main_arg0) :=
  W6_of_untouched m c main_arg0 (by decide) (by decide) (by decide) (by decide) (by decide) (by decide) (by decide)
theorem W6_main_arg1 (c : Dev nD) : W6 m c (Proc.devRef .tc main_arg1) = m ((c : Thread nD τ).loc main_arg1) :=
  W6_of_untouched m c main_arg1 (by decide) (by decide) (by decide) (by decide) (by decide) (by decide) (by decide)
theorem W6_main_arg2 (c : Dev nD) : W6 m c (Proc.devRef .tc main_arg2) = m ((c : Thread nD τ).loc main_arg2) :=
  W6_of_untouched m c main_arg2 (by decide) (by decide) (by decide) (by decide) (by decide) (by decide) (by decide)
theorem W6_main_arg3 (c : Dev nD) : W6 m c (Proc.devRef .tc main_arg3) = m ((c : Thread nD τ).loc main_arg3) :=
  W6_of_untouched m c main_arg3 (by decide) (by decide) (by decide) (by decide) (by decide) (by decide) (by decide)
theorem W6_main_arg4 (c : Dev nD) : W6 m c (Proc.devRef .tc main_arg4) = m ((c : Thread nD τ).loc main_arg4) :=
  W6_of_untouched m c main_arg4 (by decide) (by decide) (by decide) (by decide) (by decide) (by decide) (by decide)
theorem W6_main_arg5 (c : Dev nD) : W6 m c (Proc.devRef .tc main_arg5) = m ((c : Thread nD τ).loc main_arg5) :=
  W6_of_untouched m c main_arg5 (by decide) (by decide) (by decide) (by decide) (by decide) (by decide) (by decide)
theorem W6_main_arg6 (c : Dev nD) : W6 m c (Proc.devRef .tc main_arg6) = m ((c : Thread nD τ).loc main_arg6) :=
  W6_of_untouched m c main_arg6 (by decide) (by decide) (by decide) (by decide) (by decide) (by decide) (by decide)

/-! ## The exit contents read at the TensorCore's references, and what each region's arrays hold there -/

/-- Region 0's, region 1's and region 2's exit contents at the TensorCore's references. -/
abbrev E2 : (c : Dev nD) → (b : Ref sig .tc) → Buf (Elt F) ((c : Thread nD τ).loc b) := fun c b => W2 m c b
abbrev E4 : (c : Dev nD) → (b : Ref sig .tc) → Buf (Elt F) ((c : Thread nD τ).loc b) := fun c b => W4 m c b
abbrev E6 : (c : Dev nD) → (b : Ref sig .tc) → Buf (Elt F) ((c : Thread nD τ).loc b) := fun c b => W6 m c b

/-- At region 0's exit its input array is as entered and its two outputs at what the write-backs fold to; -/
theorem hF0 (c : Dev nD) : ∀ w : Fin cfg0.W, (dat0 (V1 m) c).arrAt w cfg0.N = E2 m c (Pipeline.arrRef spec0 w)
  | ⟨0, _⟩ => (((dat0 (V1 m) c).arrAt_in 0 rfl _).trans (A_eq0 (V1 m) c 0)).trans (W2_of m c main_v41 (by decide) (by decide)).symm
  | ⟨1, _⟩ => (W2_main_v42_0 m c).symm
  | ⟨2, _⟩ => (W2_main_v42_1 m c).symm
/-- every other buffer is as entered. -/
theorem hrest0 (c : Dev nD) : ∀ b, b ∉ Finset.univ.image (Pipeline.arrRef spec0) → E2 m c b = V1 m c b :=
  fun b hb => W2_of m c b (fun e => hb (Finset.mem_image.mpr ⟨1, Finset.mem_univ _, e.symm⟩))
    (fun e => hb (Finset.mem_image.mpr ⟨2, Finset.mem_univ _, e.symm⟩))

/-- A property of the six window indices holds of all once it holds of each. -/
theorem fin6_forall {P : Fin 6 → Prop} (h0 : P 0) (h1 : P 1) (h2 : P 2) (h3 : P 3) (h4 : P 4) (h5 : P 5) : ∀ w, P w
  | 0 => h0 | 1 => h1 | 2 => h2 | 3 => h3 | 4 => h4 | 5 => h5

/-- At region 1's exit its five inputs are as entered (no input is written back) and its output at what the write-backs fold to; -/
theorem hF1_0 (c : Dev nD) : (dat1 (V3 m) c).arrAt 0 cfg1.N = E4 m c (Pipeline.arrRef spec1 0) :=
  (((dat1 (V3 m) c).arrAt_in 0 rfl _).trans (A_eq1 (V3 m) c 0)).trans (W4_of m c main_v42_0 (by decide)).symm
theorem hF1_1 (c : Dev nD) : (dat1 (V3 m) c).arrAt 1 cfg1.N = E4 m c (Pipeline.arrRef spec1 1) :=
  (((dat1 (V3 m) c).arrAt_in 1 rfl _).trans (A_eq1 (V3 m) c 1)).trans (W4_of m c main_v43 (by decide)).symm
theorem hF1_2 (c : Dev nD) : (dat1 (V3 m) c).arrAt 2 cfg1.N = E4 m c (Pipeline.arrRef spec1 2) :=
  (((dat1 (V3 m) c).arrAt_in 2 rfl _).trans (A_eq1 (V3 m) c 2)).trans (W4_of m c main_v42_1 (by decide)).symm
theorem hF1_3 (c : Dev nD) : (dat1 (V3 m) c).arrAt 3 cfg1.N = E4 m c (Pipeline.arrRef spec1 3) :=
  (((dat1 (V3 m) c).arrAt_in 3 rfl _).trans (A_eq1 (V3 m) c 3)).trans (W4_of m c main_v42_1 (by decide)).symm
theorem hF1_4 (c : Dev nD) : (dat1 (V3 m) c).arrAt 4 cfg1.N = E4 m c (Pipeline.arrRef spec1 4) :=
  (((dat1 (V3 m) c).arrAt_in 4 rfl _).trans (A_eq1 (V3 m) c 4)).trans (W4_of m c main_v44 (by decide)).symm
theorem hF1_5 (c : Dev nD) : (dat1 (V3 m) c).arrAt 5 cfg1.N = E4 m c (Pipeline.arrRef spec1 5) :=
  (W4_main_v45 m c).symm
theorem hF1 (c : Dev nD) : ∀ w : Fin cfg1.W, (dat1 (V3 m) c).arrAt w cfg1.N = E4 m c (Pipeline.arrRef spec1 w) :=
  fin6_forall (P := fun w : Fin 6 => (dat1 (V3 m) c).arrAt w cfg1.N = E4 m c (Pipeline.arrRef spec1 w))
    (hF1_0 m c) (hF1_1 m c) (hF1_2 m c) (hF1_3 m c) (hF1_4 m c) (hF1_5 m c)
/-- every other buffer is as entered. -/
theorem hrest1 (c : Dev nD) : ∀ b, b ∉ Finset.univ.image (Pipeline.arrRef spec1) → E4 m c b = V3 m c b :=
  fun b hb => W4_of m c b (fun e => hb (Finset.mem_image.mpr ⟨5, Finset.mem_univ _, e.symm⟩))

/-- At region 2's exit its five inputs are as entered and its output at what the write-backs fold to; -/
theorem hF2_0 (c : Dev nD) : (dat2 (V5 m) c).arrAt 0 cfg2.N = E6 m c (Pipeline.arrRef spec2 0) :=
  (((dat2 (V5 m) c).arrAt_in 0 rfl _).trans (A_eq2 (V5 m) c 0)).trans (W6_of m c main_v42_0 (by decide)).symm
theorem hF2_1 (c : Dev nD) : (dat2 (V5 m) c).arrAt 1 cfg2.N = E6 m c (Pipeline.arrRef spec2 1) :=
  (((dat2 (V5 m) c).arrAt_in 1 rfl _).trans (A_eq2 (V5 m) c 1)).trans (W6_of m c main_v46 (by decide)).symm
theorem hF2_2 (c : Dev nD) : (dat2 (V5 m) c).arrAt 2 cfg2.N = E6 m c (Pipeline.arrRef spec2 2) :=
  (((dat2 (V5 m) c).arrAt_in 2 rfl _).trans (A_eq2 (V5 m) c 2)).trans (W6_of m c main_v42_1 (by decide)).symm
theorem hF2_3 (c : Dev nD) : (dat2 (V5 m) c).arrAt 3 cfg2.N = E6 m c (Pipeline.arrRef spec2 3) :=
  (((dat2 (V5 m) c).arrAt_in 3 rfl _).trans (A_eq2 (V5 m) c 3)).trans (W6_of m c main_v42_1 (by decide)).symm
theorem hF2_4 (c : Dev nD) : (dat2 (V5 m) c).arrAt 4 cfg2.N = E6 m c (Pipeline.arrRef spec2 4) :=
  (((dat2 (V5 m) c).arrAt_in 4 rfl _).trans (A_eq2 (V5 m) c 4)).trans (W6_of m c main_v47 (by decide)).symm
theorem hF2_5 (c : Dev nD) : (dat2 (V5 m) c).arrAt 5 cfg2.N = E6 m c (Pipeline.arrRef spec2 5) :=
  (W6_main_v48 m c).symm
theorem hF2 (c : Dev nD) : ∀ w : Fin cfg2.W, (dat2 (V5 m) c).arrAt w cfg2.N = E6 m c (Pipeline.arrRef spec2 w) :=
  fin6_forall (P := fun w : Fin 6 => (dat2 (V5 m) c).arrAt w cfg2.N = E6 m c (Pipeline.arrRef spec2 w))
    (hF2_0 m c) (hF2_1 m c) (hF2_2 m c) (hF2_3 m c) (hF2_4 m c) (hF2_5 m c)
/-- every other buffer is as entered. -/
theorem hrest2 (c : Dev nD) : ∀ b, b ∉ Finset.univ.image (Pipeline.arrRef spec2) → E6 m c b = V5 m c b :=
  fun b hb => W6_of m c b (fun e => hb (Finset.mem_image.mpr ⟨5, Finset.mem_univ _, e.symm⟩))

/-! ## The layer regions' arrays and the buffers behind them -/

section Arrays
variable (V : (c : Dev nD) → (b : Ref sig .tc) → Buf (Elt F) ((c : Thread nD τ).loc b))

/-- The shares region 1's proof data hold its arrays at: the scale array's two windows at the halves, the others whole. -/
theorem share1_0 (c : Dev nD) : (dat1 V c).share 0 = fullShare := rfl
theorem share1_1 (c : Dev nD) : (dat1 V c).share 1 = fullShare := rfl
theorem share1_2 (c : Dev nD) : (dat1 V c).share 2 = fullShare.left := rfl
theorem share1_3 (c : Dev nD) : (dat1 V c).share 3 = fullShare.right := rfl
theorem share1_4 (c : Dev nD) : (dat1 V c).share 4 = fullShare := rfl
theorem share1_5 (c : Dev nD) : (dat1 V c).share 5 = fullShare := rfl

/-- Window w's array of region 1 held at a share: the buffer behind it, whole, at the valuation's contents. -/
theorem arrPiece1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) (q : PosShare TreeShare) (w : Fin cfg1.W) :
    ((cfg1.win w).arr.view.loc (c : Thread nD τ) ↦[(cfg1.win w).arr.view.set]{q} G w : sProp 𝕄)
      = (((c : Thread nD τ).loc (Pipeline.arrRef spec1 w)) ↦{q} V' (Pipeline.arrRef spec1 w)) := by
  rw [hG w, (arr_whole1 w).set_eq_univ]

/-- Region 1's arrays, each at the valuation's contents, are the five distinct buffers behind them whole at the full
    share: the scale array's full share is the left half, held by the row-scale window, and the right half, held by
    the column-scale window. -/
theorem arrays_iff_arrBufs1 (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs (Ix := Unit) (Name := ℕ) (U := UR sig nD τ) (Lvl := ℕ) spec1 c V' : sProp 𝕄)
      ⊣⊢ (dat1 V c).arrays G := by
  unfold Pipeline.arrBufs Pipeline.Dat.arrays
  rw [bigSep_W1, bigSep_eq_bigSepL_of_eq [main_v42_0, main_v43, main_v42_1, main_v44, main_v45] (by decide) (by decide)]
  rw [arrPiece1 c V' G hG _ 0, arrPiece1 c V' G hG _ 1, arrPiece1 c V' G hG _ 2, arrPiece1 c V' G hG _ 3,
    arrPiece1 c V' G hG _ 4, arrPiece1 c V' G hG _ 5, share1_0, share1_1, share1_2, share1_3, share1_4, share1_5]
  show iprop((((c : Thread nD τ).loc main_v42_0) ↦{fullShare} V' main_v42_0) ∗ (((c : Thread nD τ).loc main_v43) ↦{fullShare} V' main_v43)
      ∗ (((c : Thread nD τ).loc main_v42_1) ↦{fullShare} V' main_v42_1) ∗ (((c : Thread nD τ).loc main_v44) ↦{fullShare} V' main_v44)
      ∗ (((c : Thread nD τ).loc main_v45) ↦{fullShare} V' main_v45))
    ⊣⊢ (iprop((((c : Thread nD τ).loc main_v42_0) ↦{fullShare} V' main_v42_0) ∗ (((c : Thread nD τ).loc main_v43) ↦{fullShare} V' main_v43)
      ∗ (((c : Thread nD τ).loc main_v42_1) ↦{fullShare.left} V' main_v42_1) ∗ (((c : Thread nD τ).loc main_v42_1) ↦{fullShare.right} V' main_v42_1)
      ∗ (((c : Thread nD τ).loc main_v44) ↦{fullShare} V' main_v44) ∗ (((c : Thread nD τ).loc main_v45) ↦{fullShare} V' main_v45)) : sProp 𝕄)
  constructor
  · iintro ⟨H0, H1, H2, H4, H5⟩
    ihave H2 := (pointsTo_share (PosShare.mem_left_op_right fullShare)).1 $$ H2
    icases H2 with ⟨H2, H3⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    ihave H2 := (pointsTo_share (PosShare.mem_left_op_right fullShare)).2 $$ [H2 H3]
    · isplitl [H2] <;> iassumption
    isplitl [H0]; · iexact H0
    isplitl [H1]; · iexact H1
    isplitl [H2]; · iexact H2
    isplitl [H4]; · iexact H4
    iexact H5

/-- The shares region 2's proof data hold its arrays at: the scale array's two windows at the halves, the others whole. -/
theorem share2_0 (c : Dev nD) : (dat2 V c).share 0 = fullShare := rfl
theorem share2_1 (c : Dev nD) : (dat2 V c).share 1 = fullShare := rfl
theorem share2_2 (c : Dev nD) : (dat2 V c).share 2 = fullShare.left := rfl
theorem share2_3 (c : Dev nD) : (dat2 V c).share 3 = fullShare.right := rfl
theorem share2_4 (c : Dev nD) : (dat2 V c).share 4 = fullShare := rfl
theorem share2_5 (c : Dev nD) : (dat2 V c).share 5 = fullShare := rfl

/-- Window w's array of region 2 held at a share: the buffer behind it, whole, at the valuation's contents. -/
theorem arrPiece2 (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w)) (q : PosShare TreeShare) (w : Fin cfg2.W) :
    ((cfg2.win w).arr.view.loc (c : Thread nD τ) ↦[(cfg2.win w).arr.view.set]{q} G w : sProp 𝕄)
      = (((c : Thread nD τ).loc (Pipeline.arrRef spec2 w)) ↦{q} V' (Pipeline.arrRef spec2 w)) := by
  rw [hG w, (arr_whole2 w).set_eq_univ]

/-- Region 2's arrays, each at the valuation's contents, are the five distinct buffers behind them whole at the full
    share: the scale array's full share is the left half, held by the row-scale window, and the right half, held by
    the column-scale window. -/
theorem arrays_iff_arrBufs2 (c : Dev nD) (V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w)) :
    (Pipeline.arrBufs (Ix := Unit) (Name := ℕ) (U := UR sig nD τ) (Lvl := ℕ) spec2 c V' : sProp 𝕄)
      ⊣⊢ (dat2 V c).arrays G := by
  unfold Pipeline.arrBufs Pipeline.Dat.arrays
  rw [bigSep_W2, bigSep_eq_bigSepL_of_eq [main_v42_0, main_v46, main_v42_1, main_v47, main_v48] (by decide) (by decide)]
  rw [arrPiece2 c V' G hG _ 0, arrPiece2 c V' G hG _ 1, arrPiece2 c V' G hG _ 2, arrPiece2 c V' G hG _ 3,
    arrPiece2 c V' G hG _ 4, arrPiece2 c V' G hG _ 5, share2_0, share2_1, share2_2, share2_3, share2_4, share2_5]
  show iprop((((c : Thread nD τ).loc main_v42_0) ↦{fullShare} V' main_v42_0) ∗ (((c : Thread nD τ).loc main_v46) ↦{fullShare} V' main_v46)
      ∗ (((c : Thread nD τ).loc main_v42_1) ↦{fullShare} V' main_v42_1) ∗ (((c : Thread nD τ).loc main_v47) ↦{fullShare} V' main_v47)
      ∗ (((c : Thread nD τ).loc main_v48) ↦{fullShare} V' main_v48))
    ⊣⊢ (iprop((((c : Thread nD τ).loc main_v42_0) ↦{fullShare} V' main_v42_0) ∗ (((c : Thread nD τ).loc main_v46) ↦{fullShare} V' main_v46)
      ∗ (((c : Thread nD τ).loc main_v42_1) ↦{fullShare.left} V' main_v42_1) ∗ (((c : Thread nD τ).loc main_v42_1) ↦{fullShare.right} V' main_v42_1)
      ∗ (((c : Thread nD τ).loc main_v47) ↦{fullShare} V' main_v47) ∗ (((c : Thread nD τ).loc main_v48) ↦{fullShare} V' main_v48)) : sProp 𝕄)
  constructor
  · iintro ⟨H0, H1, H2, H4, H5⟩
    ihave H2 := (pointsTo_share (PosShare.mem_left_op_right fullShare)).1 $$ H2
    icases H2 with ⟨H2, H3⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    ihave H2 := (pointsTo_share (PosShare.mem_left_op_right fullShare)).2 $$ [H2 H3]
    · isplitl [H2] <;> iassumption
    isplitl [H0]; · iexact H0
    isplitl [H1]; · iexact H1
    isplitl [H2]; · iexact H2
    isplitl [H4]; · iexact H4
    iexact H5

end Arrays

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and that it
    owes nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last contents of the fold, the generator
    register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- REGION 0 over the thread state: entered from every unscoped buffer at the contents after the first host stretch,
    left at those with its two outputs at what the write-backs fold to. Its three arrays are distinct buffers, each
    split out of the unscoped buffers whole and put back whole. -/
def reg0
    (hb : ∀ c : Dev nD, BodyObligation (dat0 (F := F) (V1 m) c) (defs₀ (F := F)) Variants.none () Set.univ)
    (hi : ∀ c : Dev nD, (Pipeline.ΦA spec0 c : sProp 𝕄) ⊢ (dat0 (V1 m) c).Φ 0)
    (ho : ∀ c : Dev nD, (dat0 (V1 m) c).Φ (Fin.last cfg0.N) ⊢ (Pipeline.ΦA spec0 c : sProp 𝕄)) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 0).pre c (fun _ => fullShare) (adm 0).1
        ∗ Pipeline.scopedRest (Ix := Unit) (Name := ℕ) (U := UR sig nD τ) (Lvl := ℕ) (Val := Elt F) spec0 c)
      ⊢ (Pipeline.ΦA spec0 c : sProp 𝕄) from by
    unfold Pipeline.ΦA
    iintro ⟨Hp, -, Hr⟩
    isplitl [Hr]; · iexact Hr
    iexact Hp).trans (hi c)
  hout c := (ho c).trans (by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the fold's contents before it, left at the
    contents after it. Its arrays are split out of the unscoped buffers, the scale array's share dealt to its two
    windows, and put back at the exit contents, the halves joined; the generator register goes into the launch's
    invariant and comes back; nothing owed; no semaphore of the kernel's own. -/
def reg1
    (hb : ∀ c : Dev nD, BodyObligation (dat1 (F := F) (V3 m) c) (defs₀ (F := F)) Variants.none () Set.univ)
    (hi : ∀ c : Dev nD, (Pipeline.ΦA spec1 c : sProp 𝕄) ⊢ (dat1 (V3 m) c).Φ 0)
    (ho : ∀ c : Dev nD, (dat1 (V3 m) c).Φ (Fin.last cfg1.N) ⊢ (Pipeline.ΦA spec1 c : sProp 𝕄)) :
    Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit : (unscopedBufs (Ix := Unit) (Name := ℕ) (U := UR sig nD τ) (Lvl := ℕ) c (V3 m c) : sProp 𝕄)
        ⊢ iprop((pdats m 1 c).arrays ((pdats m 1 c).arrAt · 0)
            ∗ Pipeline.unscopedRest (Ix := Unit) (Name := ℕ) (U := UR sig nD τ) (Lvl := ℕ) spec1 c (V3 m c)) := by
      rw [Pipeline.unscopedBufs_split₀ cfgs 1 winFacts₀1.arr_unscoped c (V3 m c)]
      exact sep_mono (arrays_iff_arrBufs1 (V3 m) c (V3 m c) (fun w => (dat1 (V3 m) c).arrAt w 0) fun _ => rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 1).pre c (fun _ => fullShare) (adm 1).1
        ∗ Pipeline.scopedRest (Ix := Unit) (Name := ℕ) (U := UR sig nD τ) (Lvl := ℕ) (Val := Elt F) spec1 c)
      ⊢ (Pipeline.ΦA spec1 c : sProp 𝕄) from by
    unfold Pipeline.ΦA
    iintro ⟨Hp, -, Hr⟩
    isplitl [Hr]; · iexact Hr
    iexact Hp).trans (hi c)
  hout c := (ho c).trans (by
    rw [Pipeline.ownSems0_none]; unfold Pipeline.ΦA
    iintro ⟨Hr, Hp⟩
    isplitl [Hp]; · iexact Hp
    isplitr; · iempintro
    iexact Hr)
  hexit c := by
    have hjoin : iprop((pdats m 1 c).arrays ((pdats m 1 c).arrAt · cfg1.N)
          ∗ Pipeline.unscopedRest (Ix := Unit) (Name := ℕ) (U := UR sig nD τ) (Lvl := ℕ) spec1 c (V3 m c))
        ⊢ (unscopedBufs (Ix := Unit) (Name := ℕ) (U := UR sig nD τ) (Lvl := ℕ) c (E4 m c) : sProp 𝕄) := by
      rw [Pipeline.unscopedBufs_split₀ cfgs 1 winFacts₀1.arr_unscoped c (E4 m c)]
      refine sep_mono (arrays_iff_arrBufs1 (V3 m) c (E4 m c) (fun w => (dat1 (V3 m) c).arrAt w cfg1.N) (hF1 m c)).2 (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the fold's contents before it, left at the
    contents after it. Its arrays are split out of the unscoped buffers, the scale array's share dealt to its two
    windows, and put back at the exit contents, the halves joined; the generator register goes into the launch's
    invariant and comes back; nothing owed; no semaphore of the kernel's own. -/
def reg2
    (hb : ∀ c : Dev nD, BodyObligation (dat2 (F := F) (V5 m) c) (defs₀ (F := F)) Variants.none () Set.univ)
    (hi : ∀ c : Dev nD, (Pipeline.ΦA spec2 c : sProp 𝕄) ⊢ (dat2 (V5 m) c).Φ 0)
    (ho : ∀ c : Dev nD, (dat2 (V5 m) c).Φ (Fin.last cfg2.N) ⊢ (Pipeline.ΦA spec2 c : sProp 𝕄)) :
    Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit : (unscopedBufs (Ix := Unit) (Name := ℕ) (U := UR sig nD τ) (Lvl := ℕ) c (V5 m c) : sProp 𝕄)
        ⊢ iprop((pdats m 2 c).arrays ((pdats m 2 c).arrAt · 0)
            ∗ Pipeline.unscopedRest (Ix := Unit) (Name := ℕ) (U := UR sig nD τ) (Lvl := ℕ) spec2 c (V5 m c)) := by
      rw [Pipeline.unscopedBufs_split₀ cfgs 2 winFacts₀2.arr_unscoped c (V5 m c)]
      exact sep_mono (arrays_iff_arrBufs2 (V5 m) c (V5 m c) (fun w => (dat2 (V5 m) c).arrAt w 0) fun _ => rfl).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show iprop(iprop(∃ r, prngReg c r) ∗ Pipeline.prefHeld (pcfgs (F := F) 2).pre c (fun _ => fullShare) (adm 2).1
        ∗ Pipeline.scopedRest (Ix := Unit) (Name := ℕ) (U := UR sig nD τ) (Lvl := ℕ) (Val := Elt F) spec2 c)
      ⊢ (Pipeline.ΦA spec2 c : sProp 𝕄) from by
    unfold Pipeline.ΦA
    iintro ⟨Hp, -, Hr⟩
    isplitl [Hr]; · iexact Hr
    iexact Hp).trans (hi c)
  hout c := (ho c).trans (by
    rw [Pipeline.ownSems0_none]; unfold Pipeline.ΦA
    iintro ⟨Hr, Hp⟩
    isplitl [Hp]; · iexact Hp
    isplitr; · iempintro
    iexact Hr)
  hexit c := by
    have hjoin : iprop((pdats m 2 c).arrays ((pdats m 2 c).arrAt · cfg2.N)
          ∗ Pipeline.unscopedRest (Ix := Unit) (Name := ℕ) (U := UR sig nD τ) (Lvl := ℕ) spec2 c (V5 m c))
        ⊢ (unscopedBufs (Ix := Unit) (Name := ℕ) (U := UR sig nD τ) (Lvl := ℕ) c (E6 m c) : sProp 𝕄) := by
      rw [Pipeline.unscopedBufs_split₀ cfgs 2 winFacts₀2.arr_unscoped c (E6 m c)]
      refine sep_mono (arrays_iff_arrBufs2 (V5 m) c (E6 m c) (fun w => (dat2 (V5 m) c).arrAt w cfg2.N) (hF2 m c)).2 (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from the contents before it, a region per kernel call. -/
abbrev rsegs (R0 : Pipeline.RegionSeg (pcfgs (F := F)) adm (pdats m) () defs₀ 𝒱₀ L lv 0)
    (R1 : Pipeline.RegionSeg (pcfgs (F := F)) adm (pdats m) () defs₀ 𝒱₀ L lv 1)
    (R2 : Pipeline.RegionSeg (pcfgs (F := F)) adm (pdats m) () defs₀ 𝒱₀ L lv 2) :
    List (Pipeline.Seg (pcfgs (F := F)) adm (pdats m) () defs₀ 𝒱₀ L lv) :=
  [ .host (hseg hostOps0 hostOps0_sub hostOps0_fresh (W0 m)),
    .region R0,
    .host (hseg hostOps1 hostOps1_sub hostOps1_fresh (W2 m)),
    .region R1,
    .host (hseg hostOps2 hostOps2_sub hostOps2_fresh (W4 m)),
    .region R2 ]

/-- @main is the run of the segments: both are the chain of the same six fragments. -/
theorem main_run (R0 : Pipeline.RegionSeg (pcfgs (F := F)) adm (pdats m) () defs₀ 𝒱₀ L lv 0)
    (R1 : Pipeline.RegionSeg (pcfgs (F := F)) adm (pdats m) () defs₀ 𝒱₀ L lv 1)
    (R2 : Pipeline.RegionSeg (pcfgs (F := F)) adm (pdats m) () defs₀ 𝒱₀ L lv 2) (c : Dev nD) :
    main (F := F) c = Pipeline.Seg.run (rsegs m R0 R1 R2) := by
  rw [main_chain c, Pipeline.Seg.run_eq_chain]
  rfl

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Given each region's body obligation and the two ends of its invariant, at the region's entry contents
    of the fold: from any memory with zero counters every weakly fair execution of @main terminates, nothing
    faulting, and every final state holds every unscoped buffer of every core at the last valuation. -/
theorem run_all
    (hb0 : ∀ c : Dev nD, BodyObligation (dat0 (F := F) (V1 m) c) (defs₀ (F := F)) Variants.none () Set.univ)
    (hi0 : ∀ c : Dev nD, (Pipeline.ΦA spec0 c : sProp 𝕄) ⊢ (dat0 (V1 m) c).Φ 0)
    (ho0 : ∀ c : Dev nD, (dat0 (V1 m) c).Φ (Fin.last cfg0.N) ⊢ (Pipeline.ΦA spec0 c : sProp 𝕄))
    (hb1 : ∀ c : Dev nD, BodyObligation (dat1 (F := F) (V3 m) c) (defs₀ (F := F)) Variants.none () Set.univ)
    (hi1 : ∀ c : Dev nD, (Pipeline.ΦA spec1 c : sProp 𝕄) ⊢ (dat1 (V3 m) c).Φ 0)
    (ho1 : ∀ c : Dev nD, (dat1 (V3 m) c).Φ (Fin.last cfg1.N) ⊢ (Pipeline.ΦA spec1 c : sProp 𝕄))
    (hb2 : ∀ c : Dev nD, BodyObligation (dat2 (F := F) (V5 m) c) (defs₀ (F := F)) Variants.none () Set.univ)
    (hi2 : ∀ c : Dev nD, (Pipeline.ΦA spec2 c : sProp 𝕄) ⊢ (dat2 (V5 m) c).Φ 0)
    (ho2 : ∀ c : Dev nD, (dat2 (V5 m) c).Φ (Fin.last cfg2.N) ⊢ (Pipeline.ΦA spec2 c : sProp 𝕄)) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) := by
  exact Pipeline.θ_run_regions_kit (pcfgs (F := F)) adm (pdats m) () cellOf_inj emb₁ defs₀ 𝒱₀ L lv m ρ main
    (rsegs m (reg0 m hb0 hi0 ho0) (reg1 m hb1 hi1 ho1) (reg2 m hb2 hi2 ho2))
    (fun c Q => by rw [main_run m (reg0 m hb0 hi0 ho0) (reg1 m hb1 hi1 ho1) (reg2 m hb2 hi2 ho2) c])
    (by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Rgn

end
-- ==== Proof.Spec.lean ====
/-
  The mathematics of the two programs, over plain functions of coordinates with values in the extended reals.

  A is the dense adjacency (N x N, N = 16384).  Its row sums are the degrees; the scale s(r) is the inverse square root
  of the degree where the degree is positive and zero elsewhere.  One layer maps features v (N x D) and a bias b to

      kernel's arrangement      ( Σ_j A(r,j) · (v(j,d) · s(j)) ) · s(r) + b(d)
      reference's arrangement     Σ_j ((s(r) · A(r,j)) · s(j)) · v(j,d)   + b(d)

  The two agree because s(r) is a nonnegative real: multiplication by a nonnegative real distributes over any sum of
  extended reals (no cancellation of +∞ against −∞ can be created or removed by it), and the remaining regrouping is
  commutativity and associativity of the product.  No finiteness of A or v is needed.
-/
import Idealize.ShloMosaic.PureOps.Ideal
import Idealize.ShloMosaic.Lib.ValueIdx

noncomputable section

open scoped BigOperators

namespace Cert.Spec

open Idealize.ShloMosaic

/-- A matrix of extended reals by coordinates. -/
abbrev M (a b : Nat) := Fin a → Fin b → EReal

/-- The degree of row r: its row sum. -/
def deg (A : M 16384 16384) (r : Fin 16384) : EReal := ∑ j : Fin 16384, A r j

/-- The inverse square root of a degree where it is positive, zero elsewhere. -/
def disOf (d : EReal) : EReal := if 0 < d then Ideal.rsqrt d else 0

/-- The scale of row r. -/
def dis (A : M 16384 16384) (r : Fin 16384) : EReal := disOf (deg A r)

/-- A matrix product over one contracted axis. -/
def mm {n k d : Nat} (X : M n k) (W : M k d) : M n d := fun i j => ∑ l : Fin k, X i l * W l j

/-- One layer, in the kernel's arrangement. -/
def layerK {D : Nat} (A : M 16384 16384) (s : Fin 16384 → EReal) (v : M 16384 D) (b : Fin D → EReal) : M 16384 D :=
  fun r d => (∑ j : Fin 16384, A r j * (v j d * s j)) * s r + b d

/-- One layer, in the reference's arrangement. -/
def layerR {D : Nat} (A : M 16384 16384) (s : Fin 16384 → EReal) (v : M 16384 D) (b : Fin D → EReal) : M 16384 D :=
  fun r d => (∑ j : Fin 16384, ((s r * A r j) * s j) * v j d) + b d

/-- Clamping at zero from below. -/
def relu {n D : Nat} (X : M n D) : M n D := fun r d => max (X r d) 0

/-- The whole network in the kernel's arrangement. -/
def outK (A : M 16384 16384) (x : M 16384 64) (W1 : M 64 64) (b1 : Fin 64 → EReal) (W2 : M 64 16) (b2 : Fin 16 → EReal) :
    M 16384 16 :=
  layerK A (dis A) (mm (relu (layerK A (dis A) (mm x W1) b1)) W2) b2

/-- The whole network in the reference's arrangement. -/
def outR (A : M 16384 16384) (x : M 16384 64) (W1 : M 64 64) (b1 : Fin 64 → EReal) (W2 : M 64 16) (b2 : Fin 16 → EReal) :
    M 16384 16 :=
  layerR A (dis A) (mm (relu (layerR A (dis A) (mm x W1) b1)) W2) b2

/-- The scale is a nonnegative real whatever the degree is (at +∞ the inverse root is 0). -/
theorem disOf_nonneg_ne_top (d : EReal) : 0 ≤ disOf d ∧ disOf d ≠ ⊤ := by
  unfold disOf
  split_ifs with h
  · induction d using EReal.rec with
    | bot => exact absurd h (not_lt_bot)
    | coe r =>
      -- a positive real degree: the inverse root is the real (√r)⁻¹ ≥ 0
      have hr : 0 < r := by exact_mod_cast h
      have h1 : ¬ r < 0 := not_lt.mpr hr.le
      have h2 : r ≠ 0 := ne_of_gt hr
      rw [Ideal.rsqrt_coe, if_neg h1, if_neg h2]
      refine ⟨?_, EReal.coe_ne_top _⟩
      exact_mod_cast inv_nonneg.mpr (Real.sqrt_nonneg r)
    | top =>
      -- at +∞ the inverse root is 0
      rw [Ideal.rsqrt_top]
      exact ⟨le_refl _, EReal.zero_ne_top⟩
  · exact ⟨le_refl _, EReal.zero_ne_top⟩

/-- Multiplication by a nonnegative real distributes over a finite sum of extended reals. -/
theorem sum_mul_of_nonneg_ne_top {ι : Type} (S : Finset ι) (f : ι → EReal) (c : EReal) (h0 : 0 ≤ c) (ht : c ≠ ⊤) :
    (∑ j ∈ S, f j) * c = ∑ j ∈ S, f j * c := by
  classical
  induction S using Finset.induction_on with
  | empty => simp
  | insert a S ha ih =>
    -- one step: (f a + Σ) · c = f a · c + Σ · c, by distributivity of a nonnegative real
    rw [Finset.sum_insert ha, Finset.sum_insert ha, EReal.right_distrib_of_nonneg_of_ne_top h0 ht, ih]

/-- The two arrangements of a layer agree when every scale is a nonnegative real. -/
theorem layerK_eq_layerR {D : Nat} (A : M 16384 16384) (s : Fin 16384 → EReal) (v : M 16384 D) (b : Fin D → EReal)
    (hs : ∀ r, 0 ≤ s r ∧ s r ≠ ⊤) : layerK A s v b = layerR A s v b := by
  funext r d
  show (∑ j : Fin 16384, A r j * (v j d * s j)) * s r + b d
      = (∑ j : Fin 16384, ((s r * A r j) * s j) * v j d) + b d
  -- push the row scale inside the sum, then regroup each product
  rw [sum_mul_of_nonneg_ne_top _ _ _ (hs r).1 (hs r).2]
  refine congrArg (fun t => t + b d) (Finset.sum_congr rfl ?_)
  intro j _
  ac_rfl

/-- The two arrangements of the whole network agree. -/
theorem outK_eq_outR (A : M 16384 16384) (x : M 16384 64) (W1 : M 64 64) (b1 : Fin 64 → EReal) (W2 : M 64 16)
    (b2 : Fin 16 → EReal) : outK A x W1 b1 W2 b2 = outR A x W1 b1 W2 b2 := by
  -- every row scale is a nonnegative real, so each layer's two arrangements agree
  have hs : ∀ r, 0 ≤ dis A r ∧ dis A r ≠ ⊤ := fun r => disOf_nonneg_ne_top (deg A r)
  unfold outK outR
  rw [layerK_eq_layerR A (dis A) (mm x W1) b1 hs, layerK_eq_layerR A (dis A) _ b2 hs]

end Cert.Spec

end
-- ==== Proof.KI.R0.Value.lean ====
/-
  Region 0 at the ideal instance: what its two output arrays hold after the last grid point, as functions of the
  adjacency the region finds.  The cast copy holds the adjacency itself (narrowing a float format is the identity
  on extended reals); the scale column holds, in row r, the inverse square root of row r's sum where that sum is
  positive and zero elsewhere.  The kernel reaches the row sum as ((0 + s_0) + s_1) + … + s_7 over eight column blocks
  of 2048, each s_k itself zero plus a block row sum: a regrouping of the one sum over all 16384 columns.
-/
import proofs.«133464_j38560216383500_1_alg».proof.Proof.KI.R0.Defs
import proofs.«133464_j38560216383500_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.GenP Cert.KernelIdeal.Rgn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The adjacency the region finds, by coordinates. -/
def adjOf (c : Dev nD) : Spec.M 16384 16384 := fun a b => (V c main_v41 : S16384x16384.Idx → EReal) (ix2 a b)

namespace R0

/-! ## The payloads at an index -/

/-- The zero column the accumulation starts from. -/
theorem pay1_apply (y : S1024x1.Idx) : (k0_pay1 (F := Ideal) : S1024x1.Idx → EReal) y = 0 := by
  unfold k0_pay1
  refine (congrFun (shapeCast_self _ _) y).trans ?_
  exact Ideal.ofBits_zero_f32

/-- The narrowed block is the block: a change of float format is the identity on extended reals. -/
theorem pay4_apply (x0 : Vec Ideal S1024x2048 .f32) (y : S1024x2048.Idx) :
    (k0_pay4 x0 : S1024x2048.Idx → EReal) y = (x0 : S1024x2048.Idx → EReal) y := by
  unfold k0_pay4 k0_pay2
  exact congrFun (shapeCast_self _ _) y

/-- One accumulation step at a row: the column's entry plus the block's row sum over its 2048 lanes. -/
theorem pay3_apply (x0 : Vec Ideal S1024x2048 .f32) (a : Vec Ideal S1024x1 .f32) (r : Fin 1024) :
    (k0_pay3 x0 a : S1024x1.Idx → EReal) (ix2 r 0)
      = (a : S1024x1.Idx → EReal) (ix2 r 0) + ∑ l : Fin 2048, (x0 : S1024x2048.Idx → EReal) (ix2 r l) := by
  unfold k0_pay3 k0_pay2
  refine (congrFun (shapeCast_self _ _) (ix2 r 0)).trans ?_
  refine congrArg (fun z => (a : S1024x1.Idx → EReal) (ix2 r 0) + z) ?_
  refine (shapeCast_apply _ _ (ix2 r 0) (ix1 r) ?_).trans ?_
  · rw [Shape.rowMajor_val_one, Shape.rowMajor_val_two]
    show r.val = r.val * 1 + 0
    omega
  refine (Ideal.multiReduction_add_single _ _ reduces_S1024x2048_S1024 (.inl rfl) rfl (ix1 r)).trans ?_
  refine Finset.sum_congr rfl fun l _ => ?_
  refine (congrFun (shapeCast_self x0 _) _).trans ?_
  refine congrArg (x0 : S1024x2048.Idx → EReal) ?_
  funext d
  match d with
  | ⟨0, _⟩ => exact Fin.ext rfl
  | ⟨1, _⟩ => exact Fin.ext rfl

/-- The scale a finished row sum gives: its inverse square root where positive, zero elsewhere. -/
theorem pay5_apply (a : Vec Ideal S1024x1 .f32) (y : S1024x1.Idx) :
    (k0_pay5 a : S1024x1.Idx → EReal) y = Spec.disOf ((a : S1024x1.Idx → EReal) y) := by
  unfold k0_pay5 Spec.disOf
  show Scalar.select (FloatOps.cmpf .ogt ((a : S1024x1.Idx → EReal) y) (Ideal.ofBits .f32 0x00000000#32))
      (FloatOps.rsqrt ((a : S1024x1.Idx → EReal) y)) (Ideal.ofBits .f32 0x00000000#32) = _
  rw [Ideal.ofBits_zero_f32, Ideal.cmpf_def, Ideal.rsqrt_def]
  unfold Ideal.cmp Scalar.select
  by_cases h : (0 : EReal) < (a : S1024x1.Idx → EReal) y
  · rw [if_pos h, if_pos (by simp [h])]
  · rw [if_neg h, if_neg (by simp [h])]

/-! ## The blocks the points read -/

/-- The index maps over the grid: at point t the adjacency's and the copy's block is (t / 8, t % 8), the scale
    column's block is (t / 8, 0). -/
theorem idx_facts : ∀ t : Fin cfg0.N, win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = 0 :=
  (by decide +kernel : ∀ t : Fin grid0.N, _)

/-- The adjacency block of point t at (r, l) is the adjacency at row 1024 (t / 8) + r, column 2048 (t % 8) + l. -/
theorem ablk0_apply (c : Dev nD) (t : Fin cfg0.N) (r : Fin 1024) (l : Fin 2048) (p q : Fin 16384)
    (hp : p.val = 1024 * (t.val / 8) + r.val) (hq : q.val = 2048 * (t.val % 8) + l.val) :
    (ablk0 V c t : S1024x2048.Idx → EReal) (ix2 r l) = adjOf V c p q := by
  obtain ⟨e0, e1, -⟩ := idx_facts t
  unfold adjOf
  show (iblk0 V c 0 t : S1024x2048.Idx → EReal) (ix2 r l) = _
  unfold iblk0
  rw [View.read_apply]
  show (V c main_v41 : S16384x16384.Idx → EReal) _ = (V c main_v41 : S16384x16384.Idx → EReal) _
  refine congrArg (V c main_v41 : S16384x16384.Idx → EReal) ?_
  funext a
  apply Fin.ext
  match a with
  | ⟨0, _⟩ => show win0_0.index t 0 * 1024 + 1 * r.val = p.val; rw [e0, hp]; omega
  | ⟨1, _⟩ => show win0_0.index t 1 * 2048 + 1 * l.val = q.val; rw [e1, hq]; omega

/-! ## The running row sums -/

/-- Row p's sum over column block s of 2048 columns (zero past the last block). -/
def colSum (A : Spec.M 16384 16384) (p : Fin 16384) (s : ℕ) : EReal :=
  ∑ l : Fin 2048, if h : 2048 * s + l.val < 16384 then A p ⟨2048 * s + l.val, h⟩ else 0

/-- The lane sum of point t's block at row r is row p's sum over column block t % 8, p = 1024 (t / 8) + r. -/
theorem ablk0_rowsum (c : Dev nD) (t : Fin cfg0.N) (r : Fin 1024) (p : Fin 16384)
    (hp : p.val = 1024 * (t.val / 8) + r.val) :
    ∑ l : Fin 2048, (ablk0 V c t : S1024x2048.Idx → EReal) (ix2 r l) = colSum (adjOf V c) p (t.val % 8) := by
  unfold colSum
  refine Finset.sum_congr rfl fun l _ => ?_
  have hl : 2048 * (t.val % 8) + l.val < 16384 := by have := l.isLt; omega
  rw [dif_pos hl]
  exact ablk0_apply V c t r l p ⟨2048 * (t.val % 8) + l.val, hl⟩ hp rfl

/-- At the first column block of a row block the scratch holds zero plus that block's row sums. -/
theorem acc0_at_first (c : Dev nD) (t : Fin cfg0.N) (h : t.val % 8 = 0) (r : Fin 1024) (p : Fin 16384)
    (hp : p.val = 1024 * (t.val / 8) + r.val) :
    (acc0 V c t.val t.isLt : S1024x1.Idx → EReal) (ix2 r 0) = colSum (adjOf V c) p 0 := by
  refine (congrFun (acc0_first V c t h) (ix2 r 0)).trans ?_
  refine (pay3_apply (ablk0 V c t) (k0_pay1 (F := Ideal)) r).trans ?_
  rw [pay1_apply, zero_add, ablk0_rowsum V c t r p hp, h]

/-- At a later column block the scratch holds what the point before left plus this block's row sums. -/
theorem acc0_at_next (c : Dev nD) (n : ℕ) (hn : n + 1 < cfg0.N) (h : ¬ (n + 1) % 8 = 0) (r : Fin 1024) (p : Fin 16384)
    (hp : p.val = 1024 * ((n + 1) / 8) + r.val) :
    (acc0 V c (n + 1) hn : S1024x1.Idx → EReal) (ix2 r 0)
      = (acc0 V c n (Nat.lt_of_succ_lt hn) : S1024x1.Idx → EReal) (ix2 r 0) + colSum (adjOf V c) p ((n + 1) % 8) := by
  refine (congrFun (acc0_next V c ⟨n + 1, hn⟩ h) (ix2 r 0)).trans ?_
  refine (pay3_apply (ablk0 V c ⟨n + 1, hn⟩) (acc0 V c n (Nat.lt_of_succ_lt hn)) r).trans ?_
  rw [ablk0_rowsum V c ⟨n + 1, hn⟩ r p hp]

/-- After column block n % 8 of row block n / 8 the scratch holds, at row r, the sum of row p over the column blocks
    0 … n % 8, p = 1024 (n / 8) + r: by induction on the point. -/
theorem acc0_apply (c : Dev nD) : ∀ (n : ℕ) (hn : n < cfg0.N) (r : Fin 1024) (p : Fin 16384),
    p.val = 1024 * (n / 8) + r.val →
    (acc0 V c n hn : S1024x1.Idx → EReal) (ix2 r 0) = ∑ s ∈ Finset.range (n % 8 + 1), colSum (adjOf V c) p s
  | 0, hn, r, p, hp => by
    refine (acc0_at_first V c ⟨0, hn⟩ rfl r p hp).trans ?_
    exact (Finset.sum_range_one _).symm
  | n + 1, hn, r, p, hp => by
    by_cases h : (n + 1) % 8 = 0
    · refine (acc0_at_first V c ⟨n + 1, hn⟩ h r p hp).trans ?_
      rw [h]
      exact (Finset.sum_range_one _).symm
    · have hdiv : (n + 1) / 8 = n / 8 := by omega
      have hmod : (n + 1) % 8 = n % 8 + 1 := by omega
      refine (acc0_at_next V c n hn h r p hp).trans ?_
      rw [acc0_apply c n (Nat.lt_of_succ_lt hn) r p (by rw [hp, hdiv]), hmod, Finset.sum_range_succ _ (n % 8 + 1)]

/-- The one sum over all 16384 columns, regrouped into eight blocks of 2048. -/
theorem deg_blocks (A : Spec.M 16384 16384) (p : Fin 16384) :
    Spec.deg A p = ∑ s ∈ Finset.range 8, colSum A p s := by
  unfold Spec.deg
  have e := Equiv.sum_comp (finProdFinEquiv : Fin 8 × Fin 2048 ≃ Fin (8 * 2048)) (fun j : Fin (8 * 2048) => A p j)
  refine e.symm.trans ?_
  rw [Fintype.sum_prod_type, Finset.sum_range]
  refine Finset.sum_congr rfl fun s _ => ?_
  unfold colSum
  refine Finset.sum_congr rfl fun l _ => ?_
  have hl : 2048 * s.val + l.val < 16384 := by have := s.isLt; have := l.isLt; omega
  rw [dif_pos hl]
  refine congrArg (A p) (Fin.ext ?_)
  show l.val + 2048 * s.val = 2048 * s.val + l.val
  omega

/-- At the last column block of a row block the scratch holds the row's whole sum. -/
theorem acc0_last (c : Dev nD) (t : Fin cfg0.N) (h : t.val % 8 = 7) (r : Fin 1024) (p : Fin 16384)
    (hp : p.val = 1024 * (t.val / 8) + r.val) :
    (acc0 V c t.val t.isLt : S1024x1.Idx → EReal) (ix2 r 0) = Spec.deg (adjOf V c) p := by
  rw [acc0_apply V c t.val t.isLt r p hp, h, deg_blocks]

/-! ## What the points write back, and the arrays after the last point -/

/-- The scale column as the contents of its array: row i holds the scale of row i. -/
def scaleCol (c : Dev nD) : S16384x1.Idx → EReal := fun i => Spec.dis (adjOf V c) ⟨(i 0).val, idx2_lt0 i⟩

/-- Every point writes back its block of the adjacency: the narrowed block is the block, and the copy's block sits
    where the adjacency's does. -/
theorem flushed1_eq (c : Dev nD) (t : Fin cfg0.N) :
    (dat0 V c).flushed 1 t = ((cfg0.win 1).blk t).view.read (Elt Ideal) (V c main_v41 : S16384x16384.Idx → EReal) := by
  obtain ⟨e0, e1, e2, e3, -⟩ := idx_facts t
  show (cfg0.win 1).cut (grid0.coords t) ((dat0 V c).after 1 t) = _
  rw [after0_1]
  funext y
  rw [View.read_apply]
  show (k0_pay4 (ablk0 V c t) : S1024x2048.Idx → EReal) ((cfg0.win 1).xinj (grid0.coords t) y)
    = (V c main_v41 : S16384x16384.Idx → EReal) (((cfg0.win 1).blk t).view.emb y)
  refine (pay4_apply (ablk0 V c t) ((cfg0.win 1).xinj (grid0.coords t) y)).trans ?_
  show (iblk0 V c 0 t : S1024x2048.Idx → EReal) ((cfg0.win 1).xinj (grid0.coords t) y) = _
  unfold iblk0
  rw [View.read_apply]
  show (V c main_v41 : S16384x16384.Idx → EReal) _ = (V c main_v41 : S16384x16384.Idx → EReal) _
  refine congrArg (V c main_v41 : S16384x16384.Idx → EReal) ?_
  funext a
  apply Fin.ext
  match a with
  | ⟨0, _⟩ => show win0_0.index t 0 * 1024 + 1 * (y 0).val = win0_1.index t 0 * 1024 + 1 * (y 0).val; rw [e0, e2]
  | ⟨1, _⟩ => show win0_0.index t 1 * 2048 + 1 * (y 1).val = win0_1.index t 1 * 2048 + 1 * (y 1).val; rw [e1, e3]

/-- Reading a block of the scale column's array: the array at the block's embedded index. -/
theorem read_blk2 (G : S16384x1.Idx → EReal) (t : Fin cfg0.N) (y : ((cfg0.win 2).xblock (cfg0.grid.coords t)).Idx) :
    ((cfg0.win 2).blk t).view.read (Elt Ideal) G y = G (((cfg0.win 2).blk t).view.emb y) := rfl

/-- The scale column at an index whose row coordinate is p is the scale of row p. -/
theorem scaleCol_apply (c : Dev nD) (i : S16384x1.Idx) (p : Fin 16384) (hp : p.val = (i 0).val) :
    scaleCol V c i = Spec.dis (adjOf V c) p := by
  unfold scaleCol
  exact congrArg (Spec.dis (adjOf V c)) (Fin.ext hp.symm)

/-- The last column block's point writes back its rows of the scale column: the finished row sum is the degree. -/
theorem flushed2_eq (c : Dev nD) (t : Fin cfg0.N) (hf : (cfg0.win 2).flush t = true) :
    (dat0 V c).flushed 2 t = ((cfg0.win 2).blk t).view.read (Elt Ideal) (scaleCol V c) := by
  have h7 : t.val % 8 = 7 := (flush0_2 t).mp hf
  obtain ⟨-, -, -, -, e4, e5⟩ := idx_facts t
  have hN : cfg0.N = 128 := N_0
  have ht := t.isLt
  show (cfg0.win 2).cut (grid0.coords t) ((dat0 V c).after 2 t) = _
  rw [after0_2]
  funext y
  have hy0 : (y 0).val < 1024 := (y 0).isLt
  have hy1 : (y 1).val < 1 := (y 1).isLt
  have hx : ((cfg0.win 2).xinj (grid0.coords t) y : S1024x1.Idx) = ix2 (⟨(y 0).val, hy0⟩ : Fin 1024) (0 : Fin 1) := by
    funext a
    match a with
    | ⟨0, _⟩ => rfl
    | ⟨1, _⟩ => exact Fin.ext (by show (y 1).val = 0; omega)
  have hp : 1024 * (t.val / 8) + (y 0).val < 16384 := by omega
  refine Eq.trans ?_ (read_blk2 (scaleCol V c) t y).symm
  have hs : scaleCol V c (((cfg0.win 2).blk t).view.emb y)
      = Spec.dis (adjOf V c) ⟨1024 * (t.val / 8) + (y 0).val, hp⟩ := by
    refine scaleCol_apply V c _ _ ?_
    show 1024 * (t.val / 8) + (y 0).val = win0_2.index t 0 * 1024 + 1 * (y 0).val
    rw [e4]; omega
  rw [hs]
  show (k0_pay5 (acc0 V c t.val t.isLt) : S1024x1.Idx → EReal) ((cfg0.win 2).xinj (grid0.coords t) y) = _
  rw [hx]
  refine (pay5_apply (acc0 V c t.val t.isLt) _).trans ?_
  rw [acc0_last V c t h7 ⟨(y 0).val, hy0⟩ ⟨1024 * (t.val / 8) + (y 0).val, hp⟩ rfl]
  rfl

/-- An index of the copy is in point t's block iff each coordinate is in the block's range on its axis. -/
theorem mem_blk1 (t : Fin cfg0.N) (i : S16384x16384.Idx) :
    i ∈ ((cfg0.win 1).blk t).view.set
      ↔ ∀ a : Fin 2, win0_1.index t a * S1024x2048.size a ≤ (i a).val ∧ (i a).val < win0_1.index t a * S1024x2048.size a + S1024x2048.size a := by
  show i ∈ ((View.whole main_v42_0).slice (win0_1.rect t)).set ↔ _
  rw [View.set_slice_whole, Rect.mem_set_unit]
  exact Iff.rfl

/-- An index of the scale column is in point t's block iff each coordinate is in the block's range on its axis. -/
theorem mem_blk2 (t : Fin cfg0.N) (i : S16384x1.Idx) :
    i ∈ ((cfg0.win 2).blk t).view.set
      ↔ ∀ a : Fin 2, win0_2.index t a * S1024x1.size a ≤ (i a).val ∧ (i a).val < win0_2.index t a * S1024x1.size a + S1024x1.size a := by
  show i ∈ ((View.whole main_v42_1).slice (win0_2.rect t)).set ↔ _
  rw [View.set_slice_whole, Rect.mem_set_unit]
  exact Iff.rfl

/-- Entry (a, b) of the copy is written by point 8 (a / 1024) + b / 2048. -/
theorem cover1 (i : S16384x16384.Idx) :
    ∃ t : Fin cfg0.N, (cfg0.win 1).flush t = true ∧ i ∈ ((cfg0.win 1).blk t).view.set := by
  have hi0 : (i 0).val < 16384 := idx2_lt0 i
  have hi1 : (i 1).val < 16384 := idx2_lt1 i
  have hN : cfg0.N = 128 := N_0
  obtain ⟨t, ht⟩ : ∃ t : Fin cfg0.N, t.val = 8 * ((i 0).val / 1024) + (i 1).val / 2048 := ⟨⟨_, by omega⟩, rfl⟩
  obtain ⟨-, -, e2, e3, -⟩ := idx_facts t
  refine ⟨t, flush0_1 t, ?_⟩
  rw [mem_blk1]
  intro a
  match a with
  | ⟨0, _⟩ =>
    show win0_1.index t 0 * 1024 ≤ (i 0).val ∧ (i 0).val < win0_1.index t 0 * 1024 + 1024
    rw [e2, ht]; omega
  | ⟨1, _⟩ =>
    show win0_1.index t 1 * 2048 ≤ (i 1).val ∧ (i 1).val < win0_1.index t 1 * 2048 + 2048
    rw [e3, ht]; omega

/-- Row a of the scale column is written by the last column block's point of its row block, 8 (a / 1024) + 7. -/
theorem cover2 (i : S16384x1.Idx) :
    ∃ t : Fin cfg0.N, (cfg0.win 2).flush t = true ∧ i ∈ ((cfg0.win 2).blk t).view.set := by
  have hi0 : (i 0).val < 16384 := idx2_lt0 i
  have hi1 : (i 1).val < 1 := idx2_lt1 i
  have hN : cfg0.N = 128 := N_0
  obtain ⟨t, ht⟩ : ∃ t : Fin cfg0.N, t.val = 8 * ((i 0).val / 1024) + 7 := ⟨⟨_, by omega⟩, rfl⟩
  obtain ⟨-, -, -, -, e4, e5⟩ := idx_facts t
  refine ⟨t, (flush0_2 t).mpr (by rw [ht]; omega), ?_⟩
  rw [mem_blk2]
  intro a
  match a with
  | ⟨0, _⟩ =>
    show win0_2.index t 0 * 1024 ≤ (i 0).val ∧ (i 0).val < win0_2.index t 0 * 1024 + 1024
    rw [e4, ht]; omega
  | ⟨1, _⟩ =>
    show win0_2.index t 1 * 1 ≤ (i 1).val ∧ (i 1).val < win0_2.index t 1 * 1 + 1
    rw [e5]; omega

end R0

open R0

/-- The cast copy after the region is the adjacency. -/
theorem arr0_1_apply (c : Dev nD) (p q : Fin 16384) :
    ((dat0 (F := Ideal) V c).arrAt 1 cfg0.N : S16384x16384.Idx → EReal) (ix2 p q) = adjOf V c p q := by
  have h := (dat0 (F := Ideal) V c).arrAt_eq_of_cover 1 (V c main_v41 : S16384x16384.Idx → EReal)
    (fun t _ => flushed1_eq V c t) cover1
  exact congrFun h (ix2 p q)

/-- The scale column after the region: row p holds the scale of row p. -/
theorem arr0_2_apply (c : Dev nD) (p : Fin 16384) :
    ((dat0 (F := Ideal) V c).arrAt 2 cfg0.N : S16384x1.Idx → EReal) (ix2 p 0) = Spec.dis (adjOf V c) p := by
  have h := (dat0 (F := Ideal) V c).arrAt_eq_of_cover 2 (scaleCol V c)
    (fun t hf => flushed2_eq V c t hf) cover2
  exact (congrFun h (ix2 p 0)).trans (scaleCol_apply V c (ix2 p 0) p rfl)

end Cert.KernelIdeal.Val

end
-- ==== Proof.KI.R1.Value.lean ====
/-
  Region 1 at the ideal instance: what its output array holds after the last grid point, as a function of the
  arrays the region finds: in row r and column d, the kernel's arrangement of one layer clamped at zero below.  The
  kernel reaches the sum over all 16384 columns j as ((0 + P_0) + P_1) + P_2 + P_3 over four column blocks of 4096,
  each P_k zero plus the block's sum of products: a regrouping of the one sum.
-/
import proofs.«133464_j38560216383500_1_alg».proof.Proof.KI.R1.Defs
import proofs.«133464_j38560216383500_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.GenP Cert.KernelIdeal.Rgn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

namespace R1

/-! ## The contraction of a block product -/

theorem lhs1_0 (i : S1024x64.Idx) (q : dot_S1024x4096_S4096x64_S1024x64_1_0_0_1_n_n.contr.Idx) :
    (dot_S1024x4096_S4096x64_S1024x64_1_0_0_1_n_n.lhsIdx i q 0).val = (i 0).val := by
  unfold DotDims.lhsIdx
  rw [dif_neg (show ¬(0 : Fin S1024x4096.rank) ∈ dot_S1024x4096_S4096x64_S1024x64_1_0_0_1_n_n.lhsBatch by decide), dif_pos (show (0 : Fin S1024x4096.rank) ∈ dot_S1024x4096_S4096x64_S1024x64_1_0_0_1_n_n.lhsNonContracting by decide)]
  rfl
theorem lhs1_1 (i : S1024x64.Idx) (q : dot_S1024x4096_S4096x64_S1024x64_1_0_0_1_n_n.contr.Idx) :
    (dot_S1024x4096_S4096x64_S1024x64_1_0_0_1_n_n.lhsIdx i q 1).val = (q ⟨0, by decide⟩).val :=
  dot_S1024x4096_S4096x64_S1024x64_1_0_0_1_n_n.lhsIdx_val_of_single rfl i q
theorem rhs1_0 (i : S1024x64.Idx) (q : dot_S1024x4096_S4096x64_S1024x64_1_0_0_1_n_n.contr.Idx) :
    (dot_S1024x4096_S4096x64_S1024x64_1_0_0_1_n_n.rhsIdx i q 0).val = (q ⟨0, by decide⟩).val :=
  dot_S1024x4096_S4096x64_S1024x64_1_0_0_1_n_n.rhsIdx_val_of_single rfl i q
theorem rhs1_1 (i : S1024x64.Idx) (q : dot_S1024x4096_S4096x64_S1024x64_1_0_0_1_n_n.contr.Idx) :
    (dot_S1024x4096_S4096x64_S1024x64_1_0_0_1_n_n.rhsIdx i q 1).val = (i 1).val := by
  unfold DotDims.rhsIdx
  rw [dif_neg (show ¬(1 : Fin S4096x64.rank) ∈ dot_S1024x4096_S4096x64_S1024x64_1_0_0_1_n_n.rhsBatch by decide), dif_pos (show (1 : Fin S4096x64.rank) ∈ dot_S1024x4096_S4096x64_S1024x64_1_0_0_1_n_n.rhsNonContracting by decide)]
  rfl

/-- A block product into the zero accumulator, at row x and column d: the sum over the block's 4096 columns. -/
theorem matmul1_apply (a : FVec Ideal S1024x4096 .bf16) (w : FVec Ideal S4096x64 .bf16) (x : Fin 1024) (d : Fin 64) :
    matmul dot_S1024x4096_S4096x64_S1024x64_1_0_0_1_n_n none a w (constant (F := Ideal) S1024x64 .f32 0x00000000#32) (ix2 x d)
      = ∑ j : Fin 4096, a (ix2 x j) * w (ix2 j d) := by
  simp only [matmul]
  rw [Ideal.matmul_constant_zero_apply, ← Equiv.sum_comp (ValueIdx.contrEquiv1 dot_S1024x4096_S4096x64_S1024x64_1_0_0_1_n_n 4096 rfl rfl).symm]
  refine Finset.sum_congr rfl fun k _ => ?_
  have hk := ValueIdx.contrEquiv1_symm_val dot_S1024x4096_S4096x64_S1024x64_1_0_0_1_n_n 4096 rfl rfl k
  have el : dot_S1024x4096_S4096x64_S1024x64_1_0_0_1_n_n.lhsIdx (ix2 x d) ((ValueIdx.contrEquiv1 dot_S1024x4096_S4096x64_S1024x64_1_0_0_1_n_n 4096 rfl rfl).symm k) = ix2 x k := funext fun b => Fin.ext (by
    match b with
    | ⟨0, _⟩ => exact lhs1_0 _ _
    | ⟨1, _⟩ => exact (lhs1_1 _ _).trans hk)
  have er : dot_S1024x4096_S4096x64_S1024x64_1_0_0_1_n_n.rhsIdx (ix2 x d) ((ValueIdx.contrEquiv1 dot_S1024x4096_S4096x64_S1024x64_1_0_0_1_n_n 4096 rfl rfl).symm k) = ix2 k d := funext fun b => Fin.ext (by
    match b with
    | ⟨0, _⟩ => exact (rhs1_0 _ _).trans hk
    | ⟨1, _⟩ => exact rhs1_1 _ _)
  rw [el, er]

/-! ## A column broadcast across the lanes -/

/-- An `[a, 1]` column broadcast to `[a, b]` reads, at `(p, c)`, the column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The zero the running sums start from. -/
theorem pay1_apply (i : S1024x64.Idx) : (k1_pay1 (F := Ideal)) i = 0 := by
  unfold k1_pay1
  rw [shapeCast_self]
  exact Ideal.ofBits_zero_f32

/-- One step of the running sums at row x and column d: what was there plus the block's sum of products of the
    adjacency entries with the scaled feature rows. -/
theorem pay2_apply (v : FVec Ideal S4096x64 .f32) (cs : FVec Ideal S4096x1 .f32) (acc : FVec Ideal S1024x64 .f32)
    (a : FVec Ideal S1024x4096 .bf16) (x : Fin 1024) (d : Fin 64) :
    k1_pay2 v cs acc a (ix2 x d) = acc (ix2 x d) + ∑ j : Fin 4096, a (ix2 x j) * (v (ix2 j d) * cs (ix2 j (0 : Fin 1))) := by
  unfold k1_pay2
  simp only [shapeCast_self]
  refine (addf_apply _ _ _).trans ?_
  refine congrArg (fun t => acc (ix2 x d) + t) ?_
  refine (matmul1_apply _ _ x d).trans ?_
  refine Finset.sum_congr rfl fun j _ => ?_
  refine congrArg (fun t => a (ix2 x j) * t) ?_
  refine (truncf_apply (ψ := .bf16) (mulf v (broadcastTo S4096x64 cs broadcasts_S4096x1_S4096x64)) bitsLt_bf16_f32 (ix2 j d)).trans ?_
  refine (mulf_apply _ _ _).trans ?_
  exact congrArg (fun t => v (ix2 j d) * t) (broadcastTo_a1_ab_apply cs _ j d)

/-- The finished layer block at row x and column d: the sums times the row scale, plus the bias, clamped at zero. -/
theorem pay3_apply (acc : FVec Ideal S1024x64 .f32) (rs : FVec Ideal S1024x1 .f32) (bs : FVec Ideal S1x64 .f32)
    (x : Fin 1024) (d : Fin 64) :
    k1_pay3 acc rs bs (ix2 x d) = max (acc (ix2 x d) * rs (ix2 x (0 : Fin 1)) + bs (ix2 (0 : Fin 1) d)) 0 := by
  unfold k1_pay3
  simp only [shapeCast_self]
  refine (maximumf_apply _ _ _).trans ?_
  refine congrArg₂ max ?_ Ideal.ofBits_zero_f32
  refine (addf_apply _ _ _).trans ?_
  refine congrArg₂ (· + ·) ?_ (broadcastTo_1b_ab_apply bs _ x d)
  refine (mulf_apply _ _ _).trans ?_
  exact congrArg (fun t => acc (ix2 x d) * t) (broadcastTo_a1_ab_apply rs _ x d)

/-! ## Where the blocks sit -/

/-- The index maps over the grid: point t is row block t / 4 and column block t % 4. -/
theorem idx1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0
    ∧ win1_3.index t (0 : Fin 2) = t.val % 4 ∧ win1_3.index t (1 : Fin 2) = 0
    ∧ win1_4.index t (0 : Fin 2) = 0 ∧ win1_4.index t (1 : Fin 2) = 0
    ∧ win1_5.index t (0 : Fin 2) = t.val / 4 ∧ win1_5.index t (1 : Fin 2) = 0 :=
  (by decide +kernel : ∀ t : Fin grid1.N, _)

/-- The adjacency block at point t: rows 1024 (t / 4) …, columns 4096 (t % 4) …. -/
theorem ablk1_apply (c : Dev nD) (t : Fin cfg1.N) (x : Fin 1024) (j : Fin 4096) (r k : Fin 16384)
    (hr : r.val = 1024 * (t.val / 4) + x.val) (hk : k.val = 4096 * (t.val % 4) + j.val) :
    (ablk1 V c t : FVec Ideal S1024x4096 .bf16) (ix2 x j) = (V c main_v42_0 : S16384x16384.Idx → EReal) (ix2 r k) := by
  obtain ⟨e0, e1, -⟩ := idx1 t
  show iblk1 V c 0 t (ix2 x j) = _
  unfold iblk1
  rw [View.read_apply]
  show (V c main_v42_0 : S16384x16384.Idx → EReal) _ = _
  refine congrArg _ (funext fun a => Fin.ext ?_)
  match a with
  | ⟨0, _⟩ => show win1_0.index t 0 * 1024 + 1 * x.val = r.val; rw [e0, hr]; omega
  | ⟨1, _⟩ => show win1_0.index t 1 * 4096 + 1 * j.val = k.val; rw [e1, hk]; omega

/-- The feature rows at point t: rows 4096 (t % 4) …. -/
theorem vblk1_apply (c : Dev nD) (t : Fin cfg1.N) (j : Fin 4096) (d : Fin 64) (k : Fin 16384)
    (hk : k.val = 4096 * (t.val % 4) + j.val) :
    (vblk1 V c t : FVec Ideal S4096x64 .f32) (ix2 j d) = (V c main_v43 : S16384x64.Idx → EReal) (ix2 k d) := by
  obtain ⟨-, -, e0, e1, -⟩ := idx1 t
  show iblk1 V c 1 t (ix2 j d) = _
  unfold iblk1
  rw [View.read_apply]
  show (V c main_v43 : S16384x64.Idx → EReal) _ = _
  refine congrArg _ (funext fun a => Fin.ext ?_)
  match a with
  | ⟨0, _⟩ => show win1_1.index t 0 * 4096 + 1 * j.val = k.val; rw [e0, hk]; omega
  | ⟨1, _⟩ => show win1_1.index t 1 * 64 + 1 * d.val = d.val; rw [e1]; omega

/-- The row scale at point t: rows 1024 (t / 4) …. -/
theorem rblk1_apply (c : Dev nD) (t : Fin cfg1.N) (x : Fin 1024) (r : Fin 16384)
    (hr : r.val = 1024 * (t.val / 4) + x.val) :
    (rblk1 V c t : FVec Ideal S1024x1 .f32) (ix2 x (0 : Fin 1)) = (V c main_v42_1 : S16384x1.Idx → EReal) (ix2 r (0 : Fin 1)) := by
  obtain ⟨-, -, -, -, e0, e1, -⟩ := idx1 t
  show iblk1 V c 2 t (ix2 x (0 : Fin 1)) = _
  unfold iblk1
  rw [View.read_apply]
  show (V c main_v42_1 : S16384x1.Idx → EReal) _ = _
  refine congrArg _ (funext fun a => Fin.ext ?_)
  match a with
  | ⟨0, _⟩ => show win1_2.index t 0 * 1024 + 1 * x.val = r.val; rw [e0, hr]; omega
  | ⟨1, _⟩ => show win1_2.index t 1 * 1 + 1 * 0 = 0; rw [e1]

/-- The column scale at point t: rows 4096 (t % 4) … of the same scale array. -/
theorem cblk1_apply (c : Dev nD) (t : Fin cfg1.N) (j : Fin 4096) (k : Fin 16384)
    (hk : k.val = 4096 * (t.val % 4) + j.val) :
    (cblk1 V c t : FVec Ideal S4096x1 .f32) (ix2 j (0 : Fin 1)) = (V c main_v42_1 : S16384x1.Idx → EReal) (ix2 k (0 : Fin 1)) := by
  obtain ⟨-, -, -, -, -, -, e0, e1, -⟩ := idx1 t
  show iblk1 V c 3 t (ix2 j (0 : Fin 1)) = _
  unfold iblk1
  rw [View.read_apply]
  show (V c main_v42_1 : S16384x1.Idx → EReal) _ = _
  refine congrArg _ (funext fun a => Fin.ext ?_)
  match a with
  | ⟨0, _⟩ => show win1_3.index t 0 * 4096 + 1 * j.val = k.val; rw [e0, hk]; omega
  | ⟨1, _⟩ => show win1_3.index t 1 * 1 + 1 * 0 = 0; rw [e1]

/-- The bias row at every point: the whole array. -/
theorem bblk1_apply (c : Dev nD) (t : Fin cfg1.N) (d : Fin 64) :
    (bblk1 V c t : FVec Ideal S1x64 .f32) (ix2 (0 : Fin 1) d) = (V c main_v44 : S1x64.Idx → EReal) (ix2 (0 : Fin 1) d) := by
  obtain ⟨-, -, -, -, -, -, -, -, e0, e1, -⟩ := idx1 t
  show iblk1 V c 4 t (ix2 (0 : Fin 1) d) = _
  unfold iblk1
  rw [View.read_apply]
  show (V c main_v44 : S1x64.Idx → EReal) _ = _
  refine congrArg _ (funext fun a => Fin.ext ?_)
  match a with
  | ⟨0, _⟩ => show win1_4.index t 0 * 1 + 1 * 0 = 0; rw [e0]
  | ⟨1, _⟩ => show win1_4.index t 1 * 64 + 1 * d.val = d.val; rw [e1]; omega

/-! ## The running sums -/

/-- Column j of column block s of the adjacency (s below 4). -/
def col1 (s : ℕ) (j : Fin 4096) : Fin 16384 := ⟨(4096 * s + j.val) % 16384, Nat.mod_lt _ (by decide)⟩

/-- The arrays the region finds, by coordinates: the adjacency, the scale, the features, the bias. -/
abbrev adjM (c : Dev nD) : Spec.M 16384 16384 := fun a b => (V c main_v42_0 : S16384x16384.Idx → EReal) (ix2 a b)
abbrev scaleF (c : Dev nD) : Fin 16384 → EReal := fun a => (V c main_v42_1 : S16384x1.Idx → EReal) (ix2 a 0)
abbrev featM (c : Dev nD) : Spec.M 16384 64 := fun a b => (V c main_v43 : S16384x64.Idx → EReal) (ix2 a b)
abbrev biasF (c : Dev nD) : Fin 64 → EReal := fun b => (V c main_v44 : S1x64.Idx → EReal) (ix2 0 b)

/-- The product the sum of row r and column d takes at adjacency column p: the entry times the scaled feature. -/
def term1 (c : Dev nD) (r : Fin 16384) (d : Fin 64) (p : Fin 16384) : EReal :=
  adjM V c r p * (featM V c p d * scaleF V c p)

/-- The sum of those products over column block s. -/
def blockSum1 (c : Dev nD) (r : Fin 16384) (d : Fin 64) (s : ℕ) : EReal := ∑ j : Fin 4096, term1 V c r d (col1 s j)

/-- The product of the blocks at point t, at row x and column d, is the block sum of the row 1024 (t / 4) + x
    over column block t % 4. -/
theorem prod1_apply (c : Dev nD) (t : Fin cfg1.N) (x : Fin 1024) (d : Fin 64) (r : Fin 16384)
    (hr : r.val = 1024 * (t.val / 4) + x.val) :
    (∑ j : Fin 4096, (ablk1 V c t : FVec Ideal S1024x4096 .bf16) (ix2 x j)
        * ((vblk1 V c t : FVec Ideal S4096x64 .f32) (ix2 j d) * (cblk1 V c t : FVec Ideal S4096x1 .f32) (ix2 j (0 : Fin 1))))
      = blockSum1 V c r d (t.val % 4) := by
  unfold blockSum1
  refine Finset.sum_congr rfl fun j _ => ?_
  have hc : (col1 (t.val % 4) j).val = 4096 * (t.val % 4) + j.val := by
    show (4096 * (t.val % 4) + j.val) % 16384 = _
    have := j.isLt
    omega
  unfold term1
  rw [ablk1_apply V c t x j r (col1 (t.val % 4) j) hr hc, vblk1_apply V c t j d (col1 (t.val % 4) j) hc,
    cblk1_apply V c t j (col1 (t.val % 4) j) hc]

/-- After column block n % 4 of row block n / 4 the scratch holds, at row x and column d, the block sums of the
    row 1024 (n / 4) + x over the column blocks 0 … n % 4. -/
theorem acc1_apply (c : Dev nD) : ∀ (n : ℕ) (hn : n < cfg1.N) (x : Fin 1024) (d : Fin 64) (r : Fin 16384),
    r.val = 1024 * (n / 4) + x.val →
    (acc1 (F := Ideal) V c n hn : FVec Ideal S1024x64 .f32) (ix2 x d) = ∑ s ∈ Finset.range (n % 4 + 1), blockSum1 V c r d s := by
  intro n
  induction n with
  | zero =>
    intro hn x d r hr
    refine (congrFun (acc1_first V c ⟨0, hn⟩ rfl) (ix2 x d)).trans ?_
    refine (pay2_apply (vblk1 V c ⟨0, hn⟩) (cblk1 V c ⟨0, hn⟩) (k1_pay1 (F := Ideal)) (ablk1 V c ⟨0, hn⟩) x d).trans ?_
    rw [pay1_apply, zero_add, prod1_apply V c ⟨0, hn⟩ x d r hr]
    exact (Finset.sum_range_one _).symm
  | succ n ih =>
    intro hn x d r hr
    by_cases h : (n + 1) % 4 = 0
    · refine (congrFun (acc1_first V c ⟨n + 1, hn⟩ h) (ix2 x d)).trans ?_
      refine (pay2_apply (vblk1 V c ⟨n + 1, hn⟩) (cblk1 V c ⟨n + 1, hn⟩) (k1_pay1 (F := Ideal)) (ablk1 V c ⟨n + 1, hn⟩) x d).trans ?_
      rw [pay1_apply, zero_add, prod1_apply V c ⟨n + 1, hn⟩ x d r hr]
      show blockSum1 V c r d ((n + 1) % 4) = _
      rw [h]
      exact (Finset.sum_range_one _).symm
    · refine (congrFun (acc1_next V c ⟨n + 1, hn⟩ h) (ix2 x d)).trans ?_
      refine (pay2_apply (vblk1 V c ⟨n + 1, hn⟩) (cblk1 V c ⟨n + 1, hn⟩) (acc1 V c n (Nat.lt_of_succ_lt hn)) (ablk1 V c ⟨n + 1, hn⟩) x d).trans ?_
      have hr' : r.val = 1024 * (n / 4) + x.val := by omega
      have hm : (n + 1) % 4 = n % 4 + 1 := by omega
      rw [ih (Nat.lt_of_succ_lt hn) x d r hr', prod1_apply V c ⟨n + 1, hn⟩ x d r hr]
      show _ + blockSum1 V c r d ((n + 1) % 4) = _
      rw [hm, Finset.sum_range_succ _ (n % 4 + 1)]

/-- The four block sums of a row are its one sum over all 16384 columns: column 4096 s + j of the adjacency is
    column j of column block s. -/
theorem blocks1_sum (c : Dev nD) (r : Fin 16384) (d : Fin 64) :
    ∑ s ∈ Finset.range 4, blockSum1 V c r d s = ∑ p : Fin 16384, term1 V c r d p := by
  rw [Finset.sum_range]
  have e := Equiv.sum_comp (finProdFinEquiv (m := 4) (n := 4096)) (term1 V c r d)
  rw [← e, Fintype.sum_prod_type]
  refine Finset.sum_congr rfl fun s _ => ?_
  unfold blockSum1
  refine Finset.sum_congr rfl fun j _ => ?_
  refine congrArg (term1 V c r d) (Fin.ext ?_)
  show (4096 * s.val + j.val) % 16384 = j.val + 4096 * s.val
  have := s.isLt
  have := j.isLt
  omega

/-! ## From the blocks to the array -/

/-- The hidden layer as one function of the arrays the region finds: one layer in the kernel's arrangement, clamped
    at zero below. -/
def G1 (c : Dev nD) : S16384x64.Idx → EReal := fun i =>
  max (Spec.layerK (adjM V c) (scaleF V c) (featM V c) (biasF V c) (i 0) (i 1)) 0

theorem N1_eq : cfg1.N = 64 := N_1

/-- What a point that ends a row block writes back is its block of the hidden layer. -/
theorem flushed1_eq (c : Dev nD) (t : Fin cfg1.N) (hf : (cfg1.win 5).flush t = true) :
    (dat1 (F := Ideal) V c).flushed 5 t = ((cfg1.win 5).blk t).view.read (Elt Ideal) (G1 V c) := by
  have h3 : t.val % 4 = 3 := (flush1_5 t).mp hf
  have hN : t.val < 64 := lt_of_lt_of_eq t.isLt N1_eq
  obtain ⟨-, -, -, -, -, -, -, -, -, -, e0, e1⟩ := idx1 t
  show (cfg1.win 5).cut (grid1.coords t) ((dat1 (F := Ideal) V c).after 5 t) = _
  rw [after1_5]
  funext y
  rw [View.read_apply]
  have hy0 : (y 0).val < 1024 := (y 0).isLt
  have hy1 : (y 1).val < 64 := (y 1).isLt
  show k1_pay3 (acc1 (F := Ideal) V c t.val t.isLt) (rblk1 V c t) (bblk1 V c t) ((cfg1.win 5).xinj (grid1.coords t) y)
    = G1 V c (((cfg1.win 5).blk t).view.emb y)
  have hx : (cfg1.win 5).xinj (grid1.coords t) y = ix2 (⟨(y 0).val, hy0⟩ : Fin 1024) (⟨(y 1).val, hy1⟩ : Fin 64) :=
    funext fun a => Fin.ext (by
      match a with
      | ⟨0, _⟩ => rfl
      | ⟨1, _⟩ => rfl)
  have hr : 1024 * (t.val / 4) + (y 0).val < 16384 := by omega
  have hemb : ((cfg1.win 5).blk t).view.emb y
      = ix2 (⟨1024 * (t.val / 4) + (y 0).val, hr⟩ : Fin 16384) (⟨(y 1).val, hy1⟩ : Fin 64) :=
    funext fun a => Fin.ext (by
      match a with
      | ⟨0, _⟩ => show win1_5.index t 0 * 1024 + 1 * (y 0).val = 1024 * (t.val / 4) + (y 0).val; rw [e0]; omega
      | ⟨1, _⟩ => show win1_5.index t 1 * 64 + 1 * (y 1).val = (y 1).val; rw [e1]; omega)
  refine (congrArg (k1_pay3 (acc1 (F := Ideal) V c t.val t.isLt) (rblk1 V c t) (bblk1 V c t)) hx).trans ?_
  refine Eq.trans ?_ (congrArg (G1 V c) hemb).symm
  refine (pay3_apply (acc1 (F := Ideal) V c t.val t.isLt) (rblk1 V c t) (bblk1 V c t) ⟨(y 0).val, hy0⟩ ⟨(y 1).val, hy1⟩).trans ?_
  rw [acc1_apply V c t.val t.isLt ⟨(y 0).val, hy0⟩ ⟨(y 1).val, hy1⟩ ⟨1024 * (t.val / 4) + (y 0).val, hr⟩ rfl, h3,
    blocks1_sum, rblk1_apply V c t ⟨(y 0).val, hy0⟩ ⟨1024 * (t.val / 4) + (y 0).val, hr⟩ rfl,
    bblk1_apply V c t ⟨(y 1).val, hy1⟩]
  rfl

/-- An index of the output array is in point t's block when each coordinate is in the block's range on its axis. -/
theorem mem_blk1 (t : Fin cfg1.N) (i : S16384x64.Idx) :
    i ∈ ((cfg1.win 5).blk t).view.set ↔ ∀ a : Fin 2, win1_5.index t a * S1024x64.size a ≤ (i a).val ∧ (i a).val < win1_5.index t a * S1024x64.size a + S1024x64.size a := by
  show i ∈ ((View.whole main_v45).slice (win1_5.rect t)).set ↔ _
  rw [View.set_slice_whole, Rect.mem_set_unit]
  exact Iff.rfl

/-- Row r of the output is written back by the last column block's point of its row block, 4 (r / 1024) + 3. -/
theorem cover1 (i : S16384x64.Idx) : ∃ t : Fin cfg1.N, (cfg1.win 5).flush t = true ∧ i ∈ ((cfg1.win 5).blk t).view.set := by
  have hi0 : (i 0).val < 16384 := (i 0).isLt
  have hi1 : (i 1).val < 64 := (i 1).isLt
  have ht : 4 * ((i 0).val / 1024) + 3 < cfg1.N := by rw [N1_eq]; omega
  refine ⟨⟨4 * ((i 0).val / 1024) + 3, ht⟩, (flush1_5 _).mpr (by show (4 * ((i 0).val / 1024) + 3) % 4 = 3; omega), ?_⟩
  obtain ⟨-, -, -, -, -, -, -, -, -, -, e0, e1⟩ := idx1 ⟨4 * ((i 0).val / 1024) + 3, ht⟩
  rw [mem_blk1]
  intro a
  match a with
  | ⟨0, _⟩ =>
    show win1_5.index ⟨4 * ((i 0).val / 1024) + 3, ht⟩ (0 : Fin 2) * 1024 ≤ (i 0).val
      ∧ (i 0).val < win1_5.index ⟨4 * ((i 0).val / 1024) + 3, ht⟩ (0 : Fin 2) * 1024 + 1024
    rw [e0]
    show (4 * ((i 0).val / 1024) + 3) / 4 * 1024 ≤ (i 0).val ∧ (i 0).val < (4 * ((i 0).val / 1024) + 3) / 4 * 1024 + 1024
    omega
  | ⟨1, _⟩ =>
    show win1_5.index ⟨4 * ((i 0).val / 1024) + 3, ht⟩ (1 : Fin 2) * 64 ≤ (i 1).val
      ∧ (i 1).val < win1_5.index ⟨4 * ((i 0).val / 1024) + 3, ht⟩ (1 : Fin 2) * 64 + 64
    rw [e1]
    omega

/-- So the output array ends holding the hidden layer. -/
theorem arr1_5_eq (c : Dev nD) : (dat1 (F := Ideal) V c).arrAt 5 cfg1.N = G1 V c :=
  (dat1 (F := Ideal) V c).arrAt_eq_of_cover 5 (G1 V c) (flushed1_eq V c) cover1

end R1

open R1

/-- The hidden layer after the region. -/
theorem arr1_5_apply (c : Dev nD) (r : Fin 16384) (d : Fin 64) :
    ((dat1 (F := Ideal) V c).arrAt 5 cfg1.N : S16384x64.Idx → EReal) (ix2 r d)
      = max (Spec.layerK (fun a b => (V c main_v42_0 : S16384x16384.Idx → EReal) (ix2 a b))
              (fun a => (V c main_v42_1 : S16384x1.Idx → EReal) (ix2 a 0))
              (fun a b => (V c main_v43 : S16384x64.Idx → EReal) (ix2 a b))
              (fun b => (V c main_v44 : S1x64.Idx → EReal) (ix2 0 b)) r d) 0 :=
  congrFun (R1.arr1_5_eq V c) (ix2 r d)

end Cert.KernelIdeal.Val

end
-- ==== Proof.KI.R2.Value.lean ====
/-
  Region 2 at the ideal instance: what its output array holds after the last grid point, as a function of the
  arrays the region finds: in row r and column d, the kernel's arrangement of one layer.  The kernel reaches the sum
  over all 16384 columns j as ((0 + P_0) + P_1) + P_2 + P_3 over four column blocks of 4096, each P_k zero plus the
  block's sum of products: a regrouping of the one sum.
-/
import proofs.«133464_j38560216383500_1_alg».proof.Proof.KI.R2.Defs
import proofs.«133464_j38560216383500_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Cert.KernelIdeal Cert.KernelIdeal.Gen Cert.KernelIdeal.GenP Cert.KernelIdeal.Rgn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! The steps toward the result: the three stored values at an index, the blocks a point reads as entries of the arrays,
    the running sums and their regrouping, and the passage from the written-back blocks to the array. -/
namespace R2

/-! ## Layout: one column spread over many -/

/-- A column `[a, 1]` spread to `[a, b]` reads, at `(p, q)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The block product: rows of the left operand against columns of the right, over the one contracted axis -/

theorem lhs_mm2_0 (i : S1024x16.Idx) (q : dot_S1024x4096_S4096x16_S1024x16_1_0_0_1_n_n.contr.Idx) :
    (dot_S1024x4096_S4096x16_S1024x16_1_0_0_1_n_n.lhsIdx i q 0).val = (i 0).val := by
  unfold DotDims.lhsIdx
  rw [dif_neg (show ¬(0 : Fin S1024x4096.rank) ∈ dot_S1024x4096_S4096x16_S1024x16_1_0_0_1_n_n.lhsBatch by decide), dif_pos (show (0 : Fin S1024x4096.rank) ∈ dot_S1024x4096_S4096x16_S1024x16_1_0_0_1_n_n.lhsNonContracting by decide)]
  rfl
theorem lhs_mm2_1 (i : S1024x16.Idx) (q : dot_S1024x4096_S4096x16_S1024x16_1_0_0_1_n_n.contr.Idx) :
    (dot_S1024x4096_S4096x16_S1024x16_1_0_0_1_n_n.lhsIdx i q 1).val = (q ⟨0, by decide⟩).val :=
  dot_S1024x4096_S4096x16_S1024x16_1_0_0_1_n_n.lhsIdx_val_of_single rfl i q
theorem rhs_mm2_0 (i : S1024x16.Idx) (q : dot_S1024x4096_S4096x16_S1024x16_1_0_0_1_n_n.contr.Idx) :
    (dot_S1024x4096_S4096x16_S1024x16_1_0_0_1_n_n.rhsIdx i q 0).val = (q ⟨0, by decide⟩).val :=
  dot_S1024x4096_S4096x16_S1024x16_1_0_0_1_n_n.rhsIdx_val_of_single rfl i q
theorem rhs_mm2_1 (i : S1024x16.Idx) (q : dot_S1024x4096_S4096x16_S1024x16_1_0_0_1_n_n.contr.Idx) :
    (dot_S1024x4096_S4096x16_S1024x16_1_0_0_1_n_n.rhsIdx i q 1).val = (i 1).val := by
  unfold DotDims.rhsIdx
  rw [dif_neg (show ¬(1 : Fin S4096x16.rank) ∈ dot_S1024x4096_S4096x16_S1024x16_1_0_0_1_n_n.rhsBatch by decide), dif_pos (show (1 : Fin S4096x16.rank) ∈ dot_S1024x4096_S4096x16_S1024x16_1_0_0_1_n_n.rhsNonContracting by decide)]
  rfl

/-- The block product into a zero accumulator, at a row and a column: the sum over the block's 4096 columns. -/
theorem mm2_apply (x : FVec Ideal S1024x4096 .bf16) (y : FVec Ideal S4096x16 .bf16) (p : Fin 1024) (d : Fin 16) :
    matmul dot_S1024x4096_S4096x16_S1024x16_1_0_0_1_n_n none x y (constant (F := Ideal) S1024x16 .f32 0x00000000#32) (ix2 p d)
      = ∑ j : Fin 4096, x (ix2 p j) * y (ix2 j d) := by
  show FloatOps.matmul dot_S1024x4096_S4096x16_S1024x16_1_0_0_1_n_n none x y (constant (F := Ideal) S1024x16 .f32 0x00000000#32) (ix2 p d) = _
  rw [Ideal.matmul_constant_zero_apply, ← Equiv.sum_comp (ValueIdx.contrEquiv1 dot_S1024x4096_S4096x16_S1024x16_1_0_0_1_n_n 4096 rfl rfl).symm]
  refine Finset.sum_congr rfl fun k _ => ?_
  have hk := ValueIdx.contrEquiv1_symm_val dot_S1024x4096_S4096x16_S1024x16_1_0_0_1_n_n 4096 rfl rfl k
  have el : dot_S1024x4096_S4096x16_S1024x16_1_0_0_1_n_n.lhsIdx (ix2 p d) ((ValueIdx.contrEquiv1 dot_S1024x4096_S4096x16_S1024x16_1_0_0_1_n_n 4096 rfl rfl).symm k) = ix2 p k := funext fun a => Fin.ext (by
    match a with
    | ⟨0, _⟩ => exact lhs_mm2_0 _ _
    | ⟨1, _⟩ => exact (lhs_mm2_1 _ _).trans hk)
  have er : dot_S1024x4096_S4096x16_S1024x16_1_0_0_1_n_n.rhsIdx (ix2 p d) ((ValueIdx.contrEquiv1 dot_S1024x4096_S4096x16_S1024x16_1_0_0_1_n_n 4096 rfl rfl).symm k) = ix2 k d := funext fun a => Fin.ext (by
    match a with
    | ⟨0, _⟩ => exact (rhs_mm2_0 _ _).trans hk
    | ⟨1, _⟩ => exact rhs_mm2_1 _ _)
  rw [el, er]

/-! ## The three stored values at a row and a column -/

/-- The value the scratch is reset to: zero everywhere. -/
theorem pay1_apply (p : Fin 1024) (d : Fin 16) : (k2_pay1 (F := Ideal)) (ix2 p d) = 0 := by
  unfold k2_pay1
  simp only [shapeCast_self]
  exact Ideal.ofBits_zero_f32

/-- The accumulation step: what the scratch held plus the block's sum of adjacency entry times scaled feature. -/
theorem pay2_apply (v3 : Vec Ideal S4096x16 .f32) (v5 : Vec Ideal S4096x1 .f32) (v10 : Vec Ideal S1024x16 .f32) (v11 : Vec Ideal S1024x4096 .bf16)
    (p : Fin 1024) (d : Fin 16) :
    k2_pay2 v3 v5 v10 v11 (ix2 p d)
      = v10 (ix2 p d) + ∑ j : Fin 4096, v11 (ix2 p j) * (v3 (ix2 j d) * v5 (ix2 j (0 : Fin 1))) := by
  unfold k2_pay2
  simp only [shapeCast_self]
  refine (addf_apply _ _ _).trans ?_
  refine congrArg (fun z => v10 (ix2 p d) + z) ?_
  refine (mm2_apply _ _ p d).trans ?_
  refine Finset.sum_congr rfl fun j _ => ?_
  refine congrArg (fun z => v11 (ix2 p j) * z) ?_
  show v3 (ix2 j d) * broadcastTo S4096x16 v5 broadcasts_S4096x1_S4096x16 (ix2 j d) = _
  rw [broadcastTo_a1_ab_apply]

/-- The stored result: the finished sums times the row's scale, plus the bias of the column. -/
theorem pay3_apply (v21 : Vec Ideal S1024x16 .f32) (v22 : Vec Ideal S1024x1 .f32) (v26 : Vec Ideal S1x16 .f32) (p : Fin 1024) (d : Fin 16) :
    k2_pay3 v21 v22 v26 (ix2 p d) = v21 (ix2 p d) * v22 (ix2 p (0 : Fin 1)) + v26 (ix2 (0 : Fin 1) d) := by
  unfold k2_pay3
  simp only [shapeCast_self]
  show v21 (ix2 p d) * broadcastTo S1024x16 v22 broadcasts_S1024x1_S1024x16 (ix2 p d) + broadcastTo S1024x16 v26 broadcasts_S1x16_S1024x16 (ix2 p d) = _
  rw [broadcastTo_a1_ab_apply, broadcastTo_1b_ab_apply]

/-! ## The blocks a point reads, as entries of the arrays -/

/-- The index maps' values, decided once over the grid: point `t` is row block `t / 4`, column block `t % 4`. -/
theorem idx_facts2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val % 4 ∧ win2_3.index t (1 : Fin 2) = 0
    ∧ win2_4.index t (0 : Fin 2) = 0 ∧ win2_4.index t (1 : Fin 2) = 0
    ∧ win2_5.index t (0 : Fin 2) = t.val / 4 ∧ win2_5.index t (1 : Fin 2) = 0 :=
  (by decide +kernel : ∀ t : Fin grid2.N, _)

/-- The adjacency block at point `t`: rows `1024 (t / 4) …`, columns `4096 (t % 4) …` of the array. -/
theorem ablk_apply (c : Dev nD) (t : Fin cfg2.N) (x : S1024x4096.Idx) (k : S16384x16384.Idx)
    (hk0 : (k 0).val = 1024 * (t.val / 4) + (x 0).val) (hk1 : (k 1).val = (x 1).val + 4096 * (t.val % 4)) :
    (ablk2 (F := Ideal) V c t) x = (V c main_v42_0 : S16384x16384.Idx → EReal) k := by
  obtain ⟨e0, e1, -⟩ := idx_facts2 t
  show ((cfg2.win 0).blk t).view.read (Elt Ideal) (V c (Pipeline.arrRef spec2 0)) x = _
  rw [View.read_apply]
  show (V c main_v42_0 : S16384x16384.Idx → EReal) (((cfg2.win 0).blk t).view.emb x) = _
  refine congrArg (V c main_v42_0 : S16384x16384.Idx → EReal) ?_
  funext a
  apply Fin.ext
  match a with
  | ⟨0, _⟩ => show win2_0.index t (0 : Fin 2) * 1024 + 1 * (x 0).val = (k 0).val; rw [e0, hk0]; omega
  | ⟨1, _⟩ => show win2_0.index t (1 : Fin 2) * 4096 + 1 * (x 1).val = (k 1).val; rw [e1, hk1]; omega

/-- The feature block at point `t`: rows `4096 (t % 4) …` of the array. -/
theorem vblk_apply (c : Dev nD) (t : Fin cfg2.N) (x : S4096x16.Idx) (k : S16384x16.Idx)
    (hk0 : (k 0).val = (x 0).val + 4096 * (t.val % 4)) (hk1 : (k 1).val = (x 1).val) :
    (vblk2 (F := Ideal) V c t) x = (V c main_v46 : S16384x16.Idx → EReal) k := by
  obtain ⟨-, -, e0, e1, -⟩ := idx_facts2 t
  show ((cfg2.win 1).blk t).view.read (Elt Ideal) (V c (Pipeline.arrRef spec2 1)) x = _
  rw [View.read_apply]
  show (V c main_v46 : S16384x16.Idx → EReal) (((cfg2.win 1).blk t).view.emb x) = _
  refine congrArg (V c main_v46 : S16384x16.Idx → EReal) ?_
  funext a
  apply Fin.ext
  match a with
  | ⟨0, _⟩ => show win2_1.index t (0 : Fin 2) * 4096 + 1 * (x 0).val = (k 0).val; rw [e0, hk0]; omega
  | ⟨1, _⟩ => show win2_1.index t (1 : Fin 2) * 16 + 1 * (x 1).val = (k 1).val; rw [e1, hk1]; omega

/-- The row-scale block at point `t`: rows `1024 (t / 4) …` of the scale array. -/
theorem rblk_apply (c : Dev nD) (t : Fin cfg2.N) (x : S1024x1.Idx) (k : S16384x1.Idx)
    (hk0 : (k 0).val = 1024 * (t.val / 4) + (x 0).val) (hk1 : (k 1).val = (x 1).val) :
    (rblk2 (F := Ideal) V c t) x = (V c main_v42_1 : S16384x1.Idx → EReal) k := by
  obtain ⟨-, -, -, -, e0, e1, -⟩ := idx_facts2 t
  show ((cfg2.win 2).blk t).view.read (Elt Ideal) (V c (Pipeline.arrRef spec2 2)) x = _
  rw [View.read_apply]
  show (V c main_v42_1 : S16384x1.Idx → EReal) (((cfg2.win 2).blk t).view.emb x) = _
  refine congrArg (V c main_v42_1 : S16384x1.Idx → EReal) ?_
  funext a
  apply Fin.ext
  match a with
  | ⟨0, _⟩ => show win2_2.index t (0 : Fin 2) * 1024 + 1 * (x 0).val = (k 0).val; rw [e0, hk0]; omega
  | ⟨1, _⟩ => show win2_2.index t (1 : Fin 2) * 1 + 1 * (x 1).val = (k 1).val; rw [e1, hk1]; omega

/-- The column-scale block at point `t`: rows `4096 (t % 4) …` of the scale array. -/
theorem cblk_apply (c : Dev nD) (t : Fin cfg2.N) (x : S4096x1.Idx) (k : S16384x1.Idx)
    (hk0 : (k 0).val = (x 0).val + 4096 * (t.val % 4)) (hk1 : (k 1).val = (x 1).val) :
    (cblk2 (F := Ideal) V c t) x = (V c main_v42_1 : S16384x1.Idx → EReal) k := by
  obtain ⟨-, -, -, -, -, -, e0, e1, -⟩ := idx_facts2 t
  show ((cfg2.win 3).blk t).view.read (Elt Ideal) (V c (Pipeline.arrRef spec2 3)) x = _
  rw [View.read_apply]
  show (V c main_v42_1 : S16384x1.Idx → EReal) (((cfg2.win 3).blk t).view.emb x) = _
  refine congrArg (V c main_v42_1 : S16384x1.Idx → EReal) ?_
  funext a
  apply Fin.ext
  match a with
  | ⟨0, _⟩ => show win2_3.index t (0 : Fin 2) * 4096 + 1 * (x 0).val = (k 0).val; rw [e0, hk0]; omega
  | ⟨1, _⟩ => show win2_3.index t (1 : Fin 2) * 1 + 1 * (x 1).val = (k 1).val; rw [e1, hk1]; omega

/-- The bias block at any point: the whole bias row. -/
theorem bblk_apply (c : Dev nD) (t : Fin cfg2.N) (x : S1x16.Idx) :
    (bblk2 (F := Ideal) V c t) x = (V c main_v47 : S1x16.Idx → EReal) x := by
  obtain ⟨-, -, -, -, -, -, -, -, e0, e1, -⟩ := idx_facts2 t
  show ((cfg2.win 4).blk t).view.read (Elt Ideal) (V c (Pipeline.arrRef spec2 4)) x = _
  rw [View.read_apply]
  show (V c main_v47 : S1x16.Idx → EReal) (((cfg2.win 4).blk t).view.emb x) = _
  refine congrArg (V c main_v47 : S1x16.Idx → EReal) ?_
  funext a
  apply Fin.ext
  match a with
  | ⟨0, _⟩ => show win2_4.index t (0 : Fin 2) * 1 + 1 * (x 0).val = (x 0).val; rw [e0]; omega
  | ⟨1, _⟩ => show win2_4.index t (1 : Fin 2) * 16 + 1 * (x 1).val = (x 1).val; rw [e1]; omega

/-! ## The layer's sum over the columns, cut into the four column blocks -/

/-- The arrays the region finds, at their literal types: the adjacency, the features, the scale, the bias row. -/
abbrev adjA (c : Dev nD) : S16384x16384.Idx → EReal := V c main_v42_0
abbrev featA (c : Dev nD) : S16384x16.Idx → EReal := V c main_v46
abbrev scaleA (c : Dev nD) : S16384x1.Idx → EReal := V c main_v42_1
abbrev biasA (c : Dev nD) : S1x16.Idx → EReal := V c main_v47

/-- One column's term of the layer's sum at row `r` and feature `d`, by the column's number (zero past the array):
    the adjacency entry times the column's scaled feature. -/
def colTerm (c : Dev nD) (r : Fin 16384) (d : Fin 16) (n : ℕ) : EReal :=
  if h : n < 16384 then
    adjA V c (ix2 r (⟨n, h⟩ : Fin 16384))
      * (featA V c (ix2 (⟨n, h⟩ : Fin 16384) d) * scaleA V c (ix2 (⟨n, h⟩ : Fin 16384) (0 : Fin 1)))
  else 0

/-- The terms of column block `k` (columns `4096 k …`) summed. -/
def blockSum (c : Dev nD) (r : Fin 16384) (d : Fin 16) (k : ℕ) : EReal :=
  ∑ j : Fin 4096, colTerm V c r d (j.val + 4096 * k)

/-- The running sums as the kernel forms them: zero plus block 0, then plus each next block. -/
def runSum (c : Dev nD) (r : Fin 16384) (d : Fin 16) : ℕ → EReal
  | 0 => 0 + blockSum V c r d 0
  | k + 1 => runSum c r d k + blockSum V c r d (k + 1)

/-- A sum over 16384 columns is the sum of its four blocks of 4096, taken in order. -/
theorem sum_four_blocks (f : ℕ → EReal) :
    ∑ j : Fin 16384, f j.val
      = ((∑ j : Fin 4096, f (j.val + 4096 * 0) + ∑ j : Fin 4096, f (j.val + 4096 * 1))
          + ∑ j : Fin 4096, f (j.val + 4096 * 2)) + ∑ j : Fin 4096, f (j.val + 4096 * 3) := by
  rw [← Equiv.sum_comp (finProdFinEquiv : Fin 4 × Fin 4096 ≃ Fin 16384) (fun j => f j.val), Fintype.sum_prod_type,
    Fin.sum_univ_four]
  rfl

/-- After the last column block the running sum is the one sum over all columns. -/
theorem runSum_three (c : Dev nD) (r : Fin 16384) (d : Fin 16) :
    runSum V c r d 3
      = ∑ j : Fin 16384, adjA V c (ix2 r j) * (featA V c (ix2 j d) * scaleA V c (ix2 j (0 : Fin 1))) := by
  have e1 : ∀ j : Fin 16384, adjA V c (ix2 r j) * (featA V c (ix2 j d) * scaleA V c (ix2 j (0 : Fin 1)))
      = colTerm V c r d j.val := fun j => by
    unfold colTerm
    rw [dif_pos j.isLt]
  rw [Finset.sum_congr rfl (fun j _ => e1 j), sum_four_blocks (colTerm V c r d)]
  show ((0 + blockSum V c r d 0 + blockSum V c r d 1) + blockSum V c r d 2) + blockSum V c r d 3 = _
  rw [zero_add]
  rfl

/-- The block's sum as the step forms it, from the blocks the point reads, is the array's column block's sum. -/
theorem step_sum_eq (c : Dev nD) (t : Fin cfg2.N) (p : Fin 1024) (d : Fin 16) (r : Fin 16384) (k : ℕ)
    (hr : r.val = 1024 * (t.val / 4) + p.val) (hk : t.val % 4 = k) :
    ∑ j : Fin 4096, (ablk2 (F := Ideal) V c t) (ix2 p j)
        * ((vblk2 (F := Ideal) V c t) (ix2 j d) * (cblk2 (F := Ideal) V c t) (ix2 j (0 : Fin 1)))
      = blockSum V c r d k := by
  subst hk
  unfold blockSum
  refine Finset.sum_congr rfl fun j _ => ?_
  have hlt : j.val + 4096 * (t.val % 4) < 16384 := by have := j.isLt; omega
  unfold colTerm
  rw [dif_pos hlt]
  exact congrArg₂ (fun a b : EReal => a * b) (ablk_apply V c t (ix2 p j) (ix2 r (⟨_, hlt⟩ : Fin 16384)) hr rfl)
    (congrArg₂ (fun a b : EReal => a * b) (vblk_apply V c t (ix2 j d) (ix2 (⟨_, hlt⟩ : Fin 16384) d) rfl rfl)
      (cblk_apply V c t (ix2 j (0 : Fin 1)) (ix2 (⟨_, hlt⟩ : Fin 16384) (0 : Fin 1)) rfl rfl))

/-- THE SCRATCH AFTER POINT `n`, at row `p` of its row block: the running sum through column block `n % 4` of the
    array's row `1024 (n / 4) + p`. By induction on the point: a first column block starts from zero, a later one
    adds onto what the point before left in the same row block. -/
theorem acc2_apply (c : Dev nD) : ∀ (n : ℕ) (hn : n < cfg2.N) (p : Fin 1024) (d : Fin 16) (r : Fin 16384),
    r.val = 1024 * (n / 4) + p.val → acc2 (F := Ideal) V c n hn (ix2 p d) = runSum V c r d (n % 4) := by
  intro n
  induction n with
  | zero =>
    intro hn p d r hr
    have e : acc2 (F := Ideal) V c 0 hn
        = k2_pay2 (vblk2 V c ⟨0, hn⟩) (cblk2 V c ⟨0, hn⟩) (k2_pay1 (F := Ideal)) (ablk2 V c ⟨0, hn⟩) := rfl
    refine (congrFun e (ix2 p d)).trans ?_
    refine (pay2_apply (vblk2 V c ⟨0, hn⟩) (cblk2 V c ⟨0, hn⟩) (k2_pay1 (F := Ideal)) (ablk2 V c ⟨0, hn⟩) p d).trans ?_
    show _ = 0 + blockSum V c r d 0
    exact congrArg₂ (fun a b : EReal => a + b) (pay1_apply p d) (step_sum_eq V c ⟨0, hn⟩ p d r 0 hr rfl)
  | succ m ih =>
    intro hn p d r hr
    by_cases h : (m + 1) % 4 = 0
    · have e : acc2 (F := Ideal) V c (m + 1) hn
          = k2_pay2 (vblk2 V c ⟨m + 1, hn⟩) (cblk2 V c ⟨m + 1, hn⟩) (k2_pay1 (F := Ideal)) (ablk2 V c ⟨m + 1, hn⟩) := if_pos h
      refine (congrFun e (ix2 p d)).trans ?_
      refine (pay2_apply (vblk2 V c ⟨m + 1, hn⟩) (cblk2 V c ⟨m + 1, hn⟩) (k2_pay1 (F := Ideal)) (ablk2 V c ⟨m + 1, hn⟩) p d).trans ?_
      rw [h]
      show _ = 0 + blockSum V c r d 0
      exact congrArg₂ (fun a b : EReal => a + b) (pay1_apply p d) (step_sum_eq V c ⟨m + 1, hn⟩ p d r 0 hr h)
    · have e : acc2 (F := Ideal) V c (m + 1) hn
          = k2_pay2 (vblk2 V c ⟨m + 1, hn⟩) (cblk2 V c ⟨m + 1, hn⟩) (acc2 V c m (Nat.lt_of_succ_lt hn)) (ablk2 V c ⟨m + 1, hn⟩) :=
        if_neg h
      refine (congrFun e (ix2 p d)).trans ?_
      refine (pay2_apply (vblk2 V c ⟨m + 1, hn⟩) (cblk2 V c ⟨m + 1, hn⟩) (acc2 V c m (Nat.lt_of_succ_lt hn)) (ablk2 V c ⟨m + 1, hn⟩) p d).trans ?_
      have e4 : (m + 1) % 4 = m % 4 + 1 := by omega
      have e5 : (m + 1) / 4 = m / 4 := by omega
      rw [e4]
      show _ = runSum V c r d (m % 4) + blockSum V c r d (m % 4 + 1)
      exact congrArg₂ (fun a b : EReal => a + b) (ih (Nat.lt_of_succ_lt hn) p d r (by rw [hr, e5]))
        (step_sum_eq V c ⟨m + 1, hn⟩ p d r (m % 4 + 1) hr e4)

/-! ## From the blocks to the array -/

/-- What the output array holds in the end, as one function of the arrays the region finds: the layer, entry by entry. -/
def layerOut (c : Dev nD) : S16384x16.Idx → EReal := fun i =>
  Spec.layerK (fun a b => (V c main_v42_0 : S16384x16384.Idx → EReal) (ix2 a b))
    (fun a => (V c main_v42_1 : S16384x1.Idx → EReal) (ix2 a 0))
    (fun a b => (V c main_v46 : S16384x16.Idx → EReal) (ix2 a b))
    (fun b => (V c main_v47 : S1x16.Idx → EReal) (ix2 0 b)) (i 0) (i 1)

/-- What a last column block's point stores, at row `p` of its row block, is the layer's entry of the array's row:
    the finished running sum is the one sum over all columns. -/
theorem out_point (c : Dev nD) (t : Fin cfg2.N) (h3 : t.val % 4 = 3) (p : Fin 1024) (d : Fin 16) (r : Fin 16384)
    (hr : r.val = 1024 * (t.val / 4) + p.val) :
    k2_pay3 (acc2 (F := Ideal) V c t.val t.isLt) (rblk2 V c t) (bblk2 V c t) (ix2 p d) = layerOut V c (ix2 r d) := by
  refine (pay3_apply (acc2 (F := Ideal) V c t.val t.isLt) (rblk2 V c t) (bblk2 V c t) p d).trans ?_
  rw [acc2_apply V c t.val t.isLt p d r hr, h3, runSum_three,
    rblk_apply V c t (ix2 p (0 : Fin 1)) (ix2 r (0 : Fin 1)) hr rfl, bblk_apply V c t (ix2 (0 : Fin 1) d)]
  rfl

/-- The same over an index of the block: the block's row `p` is the array's row `1024 (t / 4) + p`. -/
theorem out_block (c : Dev nD) (t : Fin cfg2.N) (h3 : t.val % 4 = 3) (y : S1024x16.Idx) :
    k2_pay3 (acc2 (F := Ideal) V c t.val t.isLt) (rblk2 V c t) (bblk2 V c t) y
      = layerOut V c (((cfg2.win 5).blk t).view.emb y) := by
  obtain ⟨p, d, rfl⟩ : ∃ (p : Fin 1024) (d : Fin 16), y = ix2 p d := ⟨y 0, y 1, eq_ix2 y⟩
  have hN : cfg2.N = 64 := N_2
  have ht : t.val < 64 := hN ▸ t.isLt
  obtain ⟨-, -, -, -, -, -, -, -, -, -, e0, e1⟩ := idx_facts2 t
  have hemb : ((cfg2.win 5).blk t).view.emb (ix2 p d)
      = ix2 (⟨1024 * (t.val / 4) + p.val, by have := p.isLt; omega⟩ : Fin 16384) d := by
    funext a
    apply Fin.ext
    match a with
    | ⟨0, _⟩ => show win2_5.index t (0 : Fin 2) * 1024 + 1 * p.val = 1024 * (t.val / 4) + p.val; rw [e0]; omega
    | ⟨1, _⟩ => show win2_5.index t (1 : Fin 2) * 16 + 1 * d.val = d.val; rw [e1]; omega
  exact (out_point V c t h3 p d ⟨1024 * (t.val / 4) + p.val, by have := p.isLt; omega⟩ rfl).trans
    (congrArg (layerOut V c) hemb.symm)

/-- WHAT A FLUSHING POINT WRITES BACK is its block of the layer's output. -/
theorem flushed2_5_eq (c : Dev nD) (t : Fin cfg2.N) (hf : (cfg2.win 5).flush t = true) :
    (dat2 (F := Ideal) V c).flushed 5 t = ((cfg2.win 5).blk t).view.read (Elt Ideal) (layerOut V c) := by
  have h3 : t.val % 4 = 3 := (flush2_5 t).mp hf
  show (cfg2.win 5).cut (grid2.coords t) ((dat2 (F := Ideal) V c).after 5 t) = _
  rw [after2_5]
  funext y
  exact out_block V c t h3 y

/-- An index of the array is in point `t`'s block iff each coordinate is in the block's range on its axis. -/
theorem mem_blk2_5 (t : Fin cfg2.N) (i : S16384x16.Idx) :
    i ∈ ((cfg2.win 5).blk t).view.set ↔ ∀ a : Fin 2, win2_5.index t a * S1024x16.size a ≤ (i a).val ∧ (i a).val < win2_5.index t a * S1024x16.size a + S1024x16.size a := by
  show i ∈ ((View.whole main_v48).slice (win2_5.rect t)).set ↔ _
  rw [View.set_slice_whole, Rect.mem_set_unit]
  exact Iff.rfl

/-- Every row of the array is in the block of its row block's last point. -/
theorem cover2_5 (i : S16384x16.Idx) : ∃ t : Fin cfg2.N, (cfg2.win 5).flush t = true ∧ i ∈ ((cfg2.win 5).blk t).view.set := by
  have hi0 : (i 0).val < 16384 := (i 0).isLt
  have hi1 : (i 1).val < 16 := (i 1).isLt
  have hN : cfg2.N = 64 := N_2
  obtain ⟨t, htv⟩ : ∃ t : Fin cfg2.N, t.val = 4 * ((i 0).val / 1024) + 3 := ⟨⟨4 * ((i 0).val / 1024) + 3, by rw [hN]; omega⟩, rfl⟩
  obtain ⟨-, -, -, -, -, -, -, -, -, -, e0, e1⟩ := idx_facts2 t
  refine ⟨t, (flush2_5 t).mpr (by rw [htv]; omega), ?_⟩
  rw [mem_blk2_5]
  intro a
  match a with
  | ⟨0, _⟩ => show win2_5.index t (0 : Fin 2) * 1024 ≤ (i 0).val ∧ (i 0).val < win2_5.index t (0 : Fin 2) * 1024 + 1024; rw [e0, htv]; omega
  | ⟨1, _⟩ => show win2_5.index t (1 : Fin 2) * 16 ≤ (i 1).val ∧ (i 1).val < win2_5.index t (1 : Fin 2) * 16 + 16; rw [e1]; omega

end R2

/-- The result after the region. -/
theorem arr2_5_apply (c : Dev nD) (r : Fin 16384) (d : Fin 16) :
    ((dat2 (F := Ideal) V c).arrAt 5 cfg2.N : S16384x16.Idx → EReal) (ix2 r d)
      = Spec.layerK (fun a b => (V c main_v42_0 : S16384x16384.Idx → EReal) (ix2 a b))
          (fun a => (V c main_v42_1 : S16384x1.Idx → EReal) (ix2 a 0))
          (fun a b => (V c main_v46 : S16384x16.Idx → EReal) (ix2 a b))
          (fun b => (V c main_v47 : S1x16.Idx → EReal) (ix2 0 b)) r d := by
  have h := (dat2 (F := Ideal) V c).arrAt_eq_of_cover 5 (R2.layerOut V c) (fun t hf => R2.flushed2_5_eq V c t hf) R2.cover2_5
  exact (congrFun h (ix2 r d)).trans rfl

end Cert.KernelIdeal.Val

end
-- ==== Proof.KernelValue.lean ====
/-
  The kernel's result as the specification's function of the argument arrays, at the ideal instance.

  The last region's output is one layer (kernel's arrangement) of the arrays it finds: the cast copy of the
  adjacency, which the first region left equal to the adjacency; the scale column, which the first region left at
  the scale of each row; the second feature projection, which the host computed as the matrix product of the hidden
  layer by the second weights; the second bias as a row.  The hidden layer is the second region's output: one layer,
  clamped at zero below, of the same adjacency and scale, the first feature projection (the host's matrix product of
  the features by the first weights) and the first bias.  Reading each host stretch back to the arguments gives the
  whole network in the kernel's arrangement.
-/
import proofs.«133464_j38560216383500_1_alg».proof.Proof.KI.AssemblyDefs
import proofs.«133464_j38560216383500_1_alg».proof.Proof.Spec
import proofs.«133464_j38560216383500_1_alg».proof.Proof.Patched.KernelIdealRegions
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Val

open Cert.KernelIdeal Cert.KernelIdeal.Gen Cert.KernelIdeal.Rgn
open Cert.KernelIdeal.GenP hiding V0 V1 V2 V3 V4 V5 V6
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The dense adjacency the first host stretch builds, by coordinates. -/
def adjK (c : Dev nD) : Spec.M 16384 16384 := fun a b => (V1 (F := Ideal) m c main_v41 : S16384x16384.Idx → EReal) (ix2 a b)
/-- The argument arrays by coordinates: features, first weights and bias, second weights and bias. -/
def xK (c : Dev nD) : Spec.M 16384 64 := fun a b => (m ((c : Thread nD τ).loc main_arg0) : S16384x64.Idx → EReal) (ix2 a b)
def w1K (c : Dev nD) : Spec.M 64 64 := fun a b => (m ((c : Thread nD τ).loc main_arg1) : S64x64.Idx → EReal) (ix2 a b)
def b1K (c : Dev nD) : Fin 64 → EReal := fun b => (m ((c : Thread nD τ).loc main_arg2) : S64.Idx → EReal) (ix1 b)
def w2K (c : Dev nD) : Spec.M 64 16 := fun a b => (m ((c : Thread nD τ).loc main_arg3) : S64x16.Idx → EReal) (ix2 a b)
def b2K (c : Dev nD) : Fin 16 → EReal := fun b => (m ((c : Thread nD τ).loc main_arg4) : S16.Idx → EReal) (ix1 b)

/-! ## What each stretch leaves alone -/

/-- The first region changes only its two output arrays. -/
theorem W2_of (c : Dev nD) (r : Ref sig .tc) (h0 : r ≠ main_v42_0) (h1 : r ≠ main_v42_1) :
    W2 (F := Ideal) m c (Proc.devRef .tc r) = W1 m c (Proc.devRef .tc r) := by
  unfold W2
  rw [Function.update_of_ne (StableHlo.devRef_ne_of_ne h1), Function.update_of_ne (StableHlo.devRef_ne_of_ne h0)]

/-- The second region changes only the hidden layer. -/
theorem W4_of (c : Dev nD) (r : Ref sig .tc) (h : r ≠ main_v45) :
    W4 (F := Ideal) m c (Proc.devRef .tc r) = W3 m c (Proc.devRef .tc r) := by
  unfold W4
  rw [Function.update_of_ne (StableHlo.devRef_ne_of_ne h)]

/-- An array that no host stretch writes and no region changes holds its launch contents when the second host stretch starts. -/
theorem W2_launch (c : Dev nD) (r : Ref sig .tc) (h0 : r ∉ hostOps0_W) (h1 : r ≠ main_v42_0) (h2 : r ≠ main_v42_1) :
    W2 (F := Ideal) m c (Proc.devRef .tc r) = m ((c : Thread nD τ).loc r) := by
  rw [W2_of m c r h1 h2]
  exact StableHlo.after_of_writes_sub hostOps0 _ hostOps0_writes h0

/-- … and when the third host stretch starts. -/
theorem W4_launch (c : Dev nD) (r : Ref sig .tc) (h0 : r ∉ hostOps0_W) (h1 : r ≠ main_v42_0) (h2 : r ≠ main_v42_1)
    (h3 : r ∉ hostOps1_W) (h4 : r ≠ main_v45) :
    W4 (F := Ideal) m c (Proc.devRef .tc r) = m ((c : Thread nD τ).loc r) := by
  rw [W4_of m c r h4]
  show StableHlo.after hostOps1 (W2 m c) (Proc.devRef .tc r) = _
  rw [StableHlo.after_of_writes_sub hostOps1 _ hostOps1_writes h3]
  exact W2_launch m c r h0 h1 h2

/-! ## The arrays the regions find -/

/-- The cast copy of the adjacency, as the last region finds it, is what the first region left. -/
theorem V5_v42_0 (c : Dev nD) : V5 (F := Ideal) m c main_v42_0 = (dat0 (F := Ideal) (V1 m) c).arrAt 1 cfg0.N := by
  show StableHlo.after hostOps2 (W4 m c) (Proc.devRef .tc main_v42_0) = _
  rw [StableHlo.after_of_writes_sub hostOps2 _ hostOps2_writes (by decide)]
  unfold W4
  rw [Function.update_of_ne (StableHlo.devRef_ne_of_ne (by decide))]
  show StableHlo.after hostOps1 (W2 m c) (Proc.devRef .tc main_v42_0) = _
  rw [StableHlo.after_of_writes_sub hostOps1 _ hostOps1_writes (by decide)]
  unfold W2
  rw [Function.update_of_ne (StableHlo.devRef_ne_of_ne (by decide)), Function.update_self]

/-- The scale column, as the last region finds it, is what the first region left. -/
theorem V5_v42_1 (c : Dev nD) : V5 (F := Ideal) m c main_v42_1 = (dat0 (F := Ideal) (V1 m) c).arrAt 2 cfg0.N := by
  show StableHlo.after hostOps2 (W4 m c) (Proc.devRef .tc main_v42_1) = _
  rw [StableHlo.after_of_writes_sub hostOps2 _ hostOps2_writes (by decide)]
  unfold W4
  rw [Function.update_of_ne (StableHlo.devRef_ne_of_ne (by decide))]
  show StableHlo.after hostOps1 (W2 m c) (Proc.devRef .tc main_v42_1) = _
  rw [StableHlo.after_of_writes_sub hostOps1 _ hostOps1_writes (by decide)]
  unfold W2
  rw [Function.update_self]

/-- The same two arrays as the second region finds them. -/
theorem V3_v42_0 (c : Dev nD) : V3 (F := Ideal) m c main_v42_0 = (dat0 (F := Ideal) (V1 m) c).arrAt 1 cfg0.N := by
  show StableHlo.after hostOps1 (W2 m c) (Proc.devRef .tc main_v42_0) = _
  rw [StableHlo.after_of_writes_sub hostOps1 _ hostOps1_writes (by decide)]
  unfold W2
  rw [Function.update_of_ne (StableHlo.devRef_ne_of_ne (by decide)), Function.update_self]

theorem V3_v42_1 (c : Dev nD) : V3 (F := Ideal) m c main_v42_1 = (dat0 (F := Ideal) (V1 m) c).arrAt 2 cfg0.N := by
  show StableHlo.after hostOps1 (W2 m c) (Proc.devRef .tc main_v42_1) = _
  rw [StableHlo.after_of_writes_sub hostOps1 _ hostOps1_writes (by decide)]
  unfold W2
  rw [Function.update_self]

/-- The second feature projection: the host's product of the hidden layer by the second weights. -/
theorem V5_v46 (c : Dev nD) : (V5 (F := Ideal) m c main_v46 : (⟨S16384x16, .f32⟩ : BufTy).Contents (Elt Ideal))
    = Host.dotGeneral (F := Ideal) (φ₁ := .f32) (φ₂ := .f32) dot_S16384x64_S64x16_S16384x16_1_0_0_1_n_n none
        ((dat1 (F := Ideal) (V3 m) c).arrAt 5 cfg1.N : (⟨S16384x64, .f32⟩ : BufTy).Contents (Elt Ideal))
        (m ((c : Thread nD τ).loc main_arg3) : (⟨S64x16, .f32⟩ : BufTy).Contents (Elt Ideal)) := by
  show StableHlo.after hostOps2 (W4 m c) (Proc.devRef .tc main_v46) = _
  after_results
  rw [W4_launch m c main_arg3 (by decide) (by decide) (by decide) (by decide) (by decide)]
  unfold W4
  rw [Function.update_self]

/-- The second bias as a row. -/
theorem V5_v47 (c : Dev nD) : (V5 (F := Ideal) m c main_v47 : (⟨S1x16, .f32⟩ : BufTy).Contents (Elt Ideal))
    = shapeCast S1x16 (m ((c : Thread nD τ).loc main_arg4) : (⟨S16, .f32⟩ : BufTy).Contents (Elt Ideal)) shapeCasts_S16_S1x16 := by
  show StableHlo.after hostOps2 (W4 m c) (Proc.devRef .tc main_v47) = _
  after_results
  rw [W4_launch m c main_arg4 (by decide) (by decide) (by decide) (by decide) (by decide)]
  rfl

/-- The first feature projection: the host's product of the features by the first weights. -/
theorem V3_v43 (c : Dev nD) : (V3 (F := Ideal) m c main_v43 : (⟨S16384x64, .f32⟩ : BufTy).Contents (Elt Ideal))
    = Host.dotGeneral (F := Ideal) (φ₁ := .f32) (φ₂ := .f32) dot_S16384x64_S64x64_S16384x64_1_0_0_1_n_n none
        (m ((c : Thread nD τ).loc main_arg0) : (⟨S16384x64, .f32⟩ : BufTy).Contents (Elt Ideal))
        (m ((c : Thread nD τ).loc main_arg1) : (⟨S64x64, .f32⟩ : BufTy).Contents (Elt Ideal)) := by
  show StableHlo.after hostOps1 (W2 m c) (Proc.devRef .tc main_v43) = _
  after_results
  rw [W2_launch m c main_arg0 (by decide) (by decide) (by decide), W2_launch m c main_arg1 (by decide) (by decide) (by decide)]

/-- The first bias as a row. -/
theorem V3_v44 (c : Dev nD) : (V3 (F := Ideal) m c main_v44 : (⟨S1x64, .f32⟩ : BufTy).Contents (Elt Ideal))
    = shapeCast S1x64 (m ((c : Thread nD τ).loc main_arg2) : (⟨S64, .f32⟩ : BufTy).Contents (Elt Ideal)) shapeCasts_S64_S1x64 := by
  show StableHlo.after hostOps1 (W2 m c) (Proc.devRef .tc main_v44) = _
  after_results
  rw [W2_launch m c main_arg2 (by decide) (by decide) (by decide)]
  rfl

/-! ## The host's matrix products read at an index -/

-- The first projection's axes: the left operand's row is the result's row, its column the contracted index; the right operand's row is the contracted index, its column the result's column.
theorem lhs_first_0 (i : S16384x64.Idx) (q : dot_S16384x64_S64x64_S16384x64_1_0_0_1_n_n.contr.Idx) :
    (dot_S16384x64_S64x64_S16384x64_1_0_0_1_n_n.lhsIdx i q 0).val = (i 0).val := by
  unfold DotDims.lhsIdx
  rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
  rfl
theorem lhs_first_1 (i : S16384x64.Idx) (q : dot_S16384x64_S64x64_S16384x64_1_0_0_1_n_n.contr.Idx) :
    (dot_S16384x64_S64x64_S16384x64_1_0_0_1_n_n.lhsIdx i q 1).val = (q ⟨0, by decide⟩).val :=
  dot_S16384x64_S64x64_S16384x64_1_0_0_1_n_n.lhsIdx_val_of_single rfl i q
theorem rhs_first_0 (i : S16384x64.Idx) (q : dot_S16384x64_S64x64_S16384x64_1_0_0_1_n_n.contr.Idx) :
    (dot_S16384x64_S64x64_S16384x64_1_0_0_1_n_n.rhsIdx i q 0).val = (q ⟨0, by decide⟩).val :=
  dot_S16384x64_S64x64_S16384x64_1_0_0_1_n_n.rhsIdx_val_of_single rfl i q
theorem rhs_first_1 (i : S16384x64.Idx) (q : dot_S16384x64_S64x64_S16384x64_1_0_0_1_n_n.contr.Idx) :
    (dot_S16384x64_S64x64_S16384x64_1_0_0_1_n_n.rhsIdx i q 1).val = (i 1).val := by
  unfold DotDims.rhsIdx
  rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
  rfl
/-- At the ideal instance the host's product at (r, d) is the sum over the contracted axis of left (r, l) times right (l, d). -/
theorem dot_first_apply (x0 : (⟨S16384x64, .f32⟩ : BufTy).Contents (Elt Ideal)) (x1 : (⟨S64x64, .f32⟩ : BufTy).Contents (Elt Ideal))
    (r : Fin 16384) (d : Fin 64) :
    Host.dotGeneral (F := Ideal) (φ₁ := .f32) (φ₂ := .f32) dot_S16384x64_S64x64_S16384x64_1_0_0_1_n_n none x0 x1 (ix2 r d) = ∑ l : Fin 64, x0 (ix2 r l) * x1 (ix2 l d) := by
  simp only [Host.dotGeneral]
  rw [Ideal.dotGeneral_apply, ← Equiv.sum_comp (ValueIdx.contrEquiv1 dot_S16384x64_S64x64_S16384x64_1_0_0_1_n_n 64 rfl rfl).symm]
  refine Finset.sum_congr rfl fun k _ => ?_
  have hk := ValueIdx.contrEquiv1_symm_val dot_S16384x64_S64x64_S16384x64_1_0_0_1_n_n 64 rfl rfl k
  have el : dot_S16384x64_S64x64_S16384x64_1_0_0_1_n_n.lhsIdx (ix2 r d) ((ValueIdx.contrEquiv1 dot_S16384x64_S64x64_S16384x64_1_0_0_1_n_n 64 rfl rfl).symm k) = ix2 r k := funext fun a => Fin.ext (by
    match a with
    | ⟨0, _⟩ => exact lhs_first_0 _ _
    | ⟨1, _⟩ => exact (lhs_first_1 _ _).trans hk)
  have er : dot_S16384x64_S64x64_S16384x64_1_0_0_1_n_n.rhsIdx (ix2 r d) ((ValueIdx.contrEquiv1 dot_S16384x64_S64x64_S16384x64_1_0_0_1_n_n 64 rfl rfl).symm k) = ix2 k d := funext fun a => Fin.ext (by
    match a with
    | ⟨0, _⟩ => exact (rhs_first_0 _ _).trans hk
    | ⟨1, _⟩ => exact rhs_first_1 _ _)
  rw [el, er]

-- The second projection's axes, likewise.
theorem lhs_second_0 (i : S16384x16.Idx) (q : dot_S16384x64_S64x16_S16384x16_1_0_0_1_n_n.contr.Idx) :
    (dot_S16384x64_S64x16_S16384x16_1_0_0_1_n_n.lhsIdx i q 0).val = (i 0).val := by
  unfold DotDims.lhsIdx
  rw [dif_neg (show ¬(0 : Fin S16384x64.rank) ∈ dot_S16384x64_S64x16_S16384x16_1_0_0_1_n_n.lhsBatch by decide), dif_pos (show (0 : Fin S16384x64.rank) ∈ dot_S16384x64_S64x16_S16384x16_1_0_0_1_n_n.lhsNonContracting by decide)]
  rfl
theorem lhs_second_1 (i : S16384x16.Idx) (q : dot_S16384x64_S64x16_S16384x16_1_0_0_1_n_n.contr.Idx) :
    (dot_S16384x64_S64x16_S16384x16_1_0_0_1_n_n.lhsIdx i q 1).val = (q ⟨0, by decide⟩).val :=
  dot_S16384x64_S64x16_S16384x16_1_0_0_1_n_n.lhsIdx_val_of_single rfl i q
theorem rhs_second_0 (i : S16384x16.Idx) (q : dot_S16384x64_S64x16_S16384x16_1_0_0_1_n_n.contr.Idx) :
    (dot_S16384x64_S64x16_S16384x16_1_0_0_1_n_n.rhsIdx i q 0).val = (q ⟨0, by decide⟩).val :=
  dot_S16384x64_S64x16_S16384x16_1_0_0_1_n_n.rhsIdx_val_of_single rfl i q
theorem rhs_second_1 (i : S16384x16.Idx) (q : dot_S16384x64_S64x16_S16384x16_1_0_0_1_n_n.contr.Idx) :
    (dot_S16384x64_S64x16_S16384x16_1_0_0_1_n_n.rhsIdx i q 1).val = (i 1).val := by
  unfold DotDims.rhsIdx
  rw [dif_neg (show ¬(1 : Fin S64x16.rank) ∈ dot_S16384x64_S64x16_S16384x16_1_0_0_1_n_n.rhsBatch by decide), dif_pos (show (1 : Fin S64x16.rank) ∈ dot_S16384x64_S64x16_S16384x16_1_0_0_1_n_n.rhsNonContracting by decide)]
  rfl
/-- At the ideal instance the host's product at (r, d) is the sum over the contracted axis of left (r, l) times right (l, d). -/
theorem dot_second_apply (x0 : (⟨S16384x64, .f32⟩ : BufTy).Contents (Elt Ideal)) (x1 : (⟨S64x16, .f32⟩ : BufTy).Contents (Elt Ideal))
    (r : Fin 16384) (d : Fin 16) :
    Host.dotGeneral (F := Ideal) (φ₁ := .f32) (φ₂ := .f32) dot_S16384x64_S64x16_S16384x16_1_0_0_1_n_n none x0 x1 (ix2 r d) = ∑ l : Fin 64, x0 (ix2 r l) * x1 (ix2 l d) := by
  simp only [Host.dotGeneral]
  rw [Ideal.dotGeneral_apply, ← Equiv.sum_comp (ValueIdx.contrEquiv1 dot_S16384x64_S64x16_S16384x16_1_0_0_1_n_n 64 rfl rfl).symm]
  refine Finset.sum_congr rfl fun k _ => ?_
  have hk := ValueIdx.contrEquiv1_symm_val dot_S16384x64_S64x16_S16384x16_1_0_0_1_n_n 64 rfl rfl k
  have el : dot_S16384x64_S64x16_S16384x16_1_0_0_1_n_n.lhsIdx (ix2 r d) ((ValueIdx.contrEquiv1 dot_S16384x64_S64x16_S16384x16_1_0_0_1_n_n 64 rfl rfl).symm k) = ix2 r k := funext fun a => Fin.ext (by
    match a with
    | ⟨0, _⟩ => exact lhs_second_0 _ _
    | ⟨1, _⟩ => exact (lhs_second_1 _ _).trans hk)
  have er : dot_S16384x64_S64x16_S16384x16_1_0_0_1_n_n.rhsIdx (ix2 r d) ((ValueIdx.contrEquiv1 dot_S16384x64_S64x16_S16384x16_1_0_0_1_n_n 64 rfl rfl).symm k) = ix2 k d := funext fun a => Fin.ext (by
    match a with
    | ⟨0, _⟩ => exact (rhs_second_0 _ _).trans hk
    | ⟨1, _⟩ => exact rhs_second_1 _ _)
  rw [el, er]

/-! ## The network -/

/-- One layer is a function of its four arguments only. -/
theorem layerK_congr {D : Nat} {A A' : Spec.M 16384 16384} {s s' : Fin 16384 → EReal} {v v' : Spec.M 16384 D}
    {b b' : Fin D → EReal} (hA : A = A') (hs : s = s') (hv : v = v') (hb : b = b') :
    Spec.layerK A s v b = Spec.layerK A' s' v' b' := by
  rw [hA, hs, hv, hb]

/-- The hidden layer: one layer, clamped at zero below, of the adjacency, its scale, the product of the features by the
    first weights, and the first bias. -/
theorem hidden_eq
    (h01 : ∀ (c : Dev nD) (p q : Fin 16384),
      ((dat0 (F := Ideal) (V1 m) c).arrAt 1 cfg0.N : S16384x16384.Idx → EReal) (ix2 p q) = adjK m c p q)
    (h02 : ∀ (c : Dev nD) (p : Fin 16384),
      ((dat0 (F := Ideal) (V1 m) c).arrAt 2 cfg0.N : S16384x1.Idx → EReal) (ix2 p 0) = Spec.dis (adjK m c) p)
    (h1 : ∀ (c : Dev nD) (r : Fin 16384) (d : Fin 64),
      ((dat1 (F := Ideal) (V3 m) c).arrAt 5 cfg1.N : S16384x64.Idx → EReal) (ix2 r d)
        = max (Spec.layerK (fun a b => (V3 m c main_v42_0 : S16384x16384.Idx → EReal) (ix2 a b))
                (fun a => (V3 m c main_v42_1 : S16384x1.Idx → EReal) (ix2 a 0))
                (fun a b => (V3 m c main_v43 : S16384x64.Idx → EReal) (ix2 a b))
                (fun b => (V3 m c main_v44 : S1x64.Idx → EReal) (ix2 0 b)) r d) 0)
    (c : Dev nD) (r : Fin 16384) (l : Fin 64) :
    ((dat1 (F := Ideal) (V3 m) c).arrAt 5 cfg1.N : S16384x64.Idx → EReal) (ix2 r l)
      = Spec.relu (Spec.layerK (adjK m c) (Spec.dis (adjK m c)) (Spec.mm (xK m c) (w1K m c)) (b1K m c)) r l := by
  refine (h1 c r l).trans ?_
  unfold Spec.relu
  refine congrArg (fun t : EReal => max t (0 : EReal)) (congrFun (congrFun (layerK_congr ?_ ?_ ?_ ?_) r) l)
  · -- the adjacency's cast copy is the adjacency
    funext a b
    rw [V3_v42_0]
    exact h01 c a b
  · -- the scale column is the scale
    funext a
    rw [V3_v42_1]
    exact h02 c a
  · -- the host's product, entry by entry
    funext a b
    rw [V3_v43]
    exact (dot_first_apply _ _ a b).trans rfl
  · -- the bias row read at its one row
    funext b
    rw [V3_v44]
    exact shapeCast_a_1a_apply _ _ 0 b

/-- Given what each region leaves in its output arrays (as functions of the arrays it finds), the last region's
    output is the whole network in the kernel's arrangement, of the adjacency the first host stretch builds and the
    argument arrays. -/
theorem kernel_value
    (h01 : ∀ (c : Dev nD) (p q : Fin 16384),
      ((dat0 (F := Ideal) (V1 m) c).arrAt 1 cfg0.N : S16384x16384.Idx → EReal) (ix2 p q) = adjK m c p q)
    (h02 : ∀ (c : Dev nD) (p : Fin 16384),
      ((dat0 (F := Ideal) (V1 m) c).arrAt 2 cfg0.N : S16384x1.Idx → EReal) (ix2 p 0) = Spec.dis (adjK m c) p)
    (h1 : ∀ (c : Dev nD) (r : Fin 16384) (d : Fin 64),
      ((dat1 (F := Ideal) (V3 m) c).arrAt 5 cfg1.N : S16384x64.Idx → EReal) (ix2 r d)
        = max (Spec.layerK (fun a b => (V3 m c main_v42_0 : S16384x16384.Idx → EReal) (ix2 a b))
                (fun a => (V3 m c main_v42_1 : S16384x1.Idx → EReal) (ix2 a 0))
                (fun a b => (V3 m c main_v43 : S16384x64.Idx → EReal) (ix2 a b))
                (fun b => (V3 m c main_v44 : S1x64.Idx → EReal) (ix2 0 b)) r d) 0)
    (h2 : ∀ (c : Dev nD) (r : Fin 16384) (d : Fin 16),
      ((dat2 (F := Ideal) (V5 m) c).arrAt 5 cfg2.N : S16384x16.Idx → EReal) (ix2 r d)
        = Spec.layerK (fun a b => (V5 m c main_v42_0 : S16384x16384.Idx → EReal) (ix2 a b))
            (fun a => (V5 m c main_v42_1 : S16384x1.Idx → EReal) (ix2 a 0))
            (fun a b => (V5 m c main_v46 : S16384x16.Idx → EReal) (ix2 a b))
            (fun b => (V5 m c main_v47 : S1x16.Idx → EReal) (ix2 0 b)) r d)
    (c : Dev nD) (r : Fin 16384) (d : Fin 16) :
    ((dat2 (F := Ideal) (V5 m) c).arrAt 5 cfg2.N : S16384x16.Idx → EReal) (ix2 r d)
      = Spec.outK (adjK m c) (xK m c) (w1K m c) (b1K m c) (w2K m c) (b2K m c) r d := by
  refine (h2 c r d).trans ?_
  unfold Spec.outK
  refine congrFun (congrFun (layerK_congr ?_ ?_ ?_ ?_) r) d
  · -- the adjacency's cast copy is the adjacency
    funext a b
    rw [V5_v42_0]
    exact h01 c a b
  · -- the scale column is the scale
    funext a
    rw [V5_v42_1]
    exact h02 c a
  · -- the host's product of the hidden layer by the second weights, entry by entry
    funext a b
    rw [V5_v46]
    refine (dot_second_apply _ _ a b).trans ?_
    unfold Spec.mm
    refine Finset.sum_congr rfl fun l _ => ?_
    rw [hidden_eq m h01 h02 h1 c a l]
    rfl
  · -- the bias row read at its one row
    funext b
    rw [V5_v47]
    exact shapeCast_a_1a_apply _ _ 0 b

end Cert.KernelIdeal.Val

end
-- ==== Proof.RefValue.lean ====
/-
  The reference's result as the specification's function of the argument arrays, at the ideal instance.

  The reference builds the dense adjacency, sums its rows into the degrees (zero plus the row sum), takes the scale
  (the inverse square root where the degree is positive, zero elsewhere), scales the adjacency by the row's scale on
  the left and the column's on the right, and applies two layers: the scaled adjacency times the feature projection,
  plus the bias, clamped at zero below after the first.  Index by index that is the whole network in the reference's
  arrangement.
-/
import proofs.«133464_j38560216383500_1_alg».proof.Proof.Gen.ReferenceIdeal.Run
import proofs.«133464_j38560216383500_1_alg».proof.Proof.Gen.ReferenceIdeal.Read
import proofs.«133464_j38560216383500_1_alg».proof.Proof.Spec
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The composed index functions of the stages, at coordinates -/

theorem idx42 (a k : Fin 16384) : idx_main_v42 (ix1 a) k = ix2 a k :=
  funext fun d => Fin.ext (by match d with | ⟨0, _⟩ => rfl | ⟨1, _⟩ => rfl)

theorem idx47_48 (a b : Fin 16384) : idx_main_v47 (idx_main_v48 (ix2 a b)) = ix1 a :=
  funext fun d => Fin.ext (by match d with | ⟨0, _⟩ => rfl)

theorem idx50_51 (a b : Fin 16384) : idx_main_v50 (idx_main_v51 (ix2 a b)) = ix1 b :=
  funext fun d => Fin.ext (by match d with | ⟨0, _⟩ => rfl)

theorem lidx53 (a : Fin 16384) (c k : Fin 64) : lidx_main_v53 (ix2 a c) k = ix2 a k :=
  funext fun d => Fin.ext (by match d with | ⟨0, _⟩ => rfl | ⟨1, _⟩ => rfl)

theorem ridx53 (a : Fin 16384) (c k : Fin 64) : ridx_main_v53 (ix2 a c) k = ix2 k c :=
  funext fun d => Fin.ext (by match d with | ⟨0, _⟩ => rfl | ⟨1, _⟩ => rfl)

theorem lidx54 (a : Fin 16384) (c : Fin 64) (k : Fin 16384) : lidx_main_v54 (ix2 a c) k = ix2 a k :=
  funext fun d => Fin.ext (by match d with | ⟨0, _⟩ => rfl | ⟨1, _⟩ => rfl)

theorem ridx54 (a : Fin 16384) (c : Fin 64) (k : Fin 16384) : ridx_main_v54 (ix2 a c) k = ix2 k c :=
  funext fun d => Fin.ext (by match d with | ⟨0, _⟩ => rfl | ⟨1, _⟩ => rfl)

theorem idx55_56 (a : Fin 16384) (c : Fin 64) : idx_main_v55 (idx_main_v56 (ix2 a c)) = ix1 c :=
  funext fun d => Fin.ext (by match d with | ⟨0, _⟩ => rfl)

theorem lidx59 (a : Fin 16384) (e : Fin 16) (k : Fin 64) : lidx_main_v59 (ix2 a e) k = ix2 a k :=
  funext fun d => Fin.ext (by match d with | ⟨0, _⟩ => rfl | ⟨1, _⟩ => rfl)

theorem ridx59 (a : Fin 16384) (e : Fin 16) (k : Fin 64) : ridx_main_v59 (ix2 a e) k = ix2 k e :=
  funext fun d => Fin.ext (by match d with | ⟨0, _⟩ => rfl | ⟨1, _⟩ => rfl)

theorem lidx60 (a : Fin 16384) (e : Fin 16) (k : Fin 16384) : lidx_main_v60 (ix2 a e) k = ix2 a k :=
  funext fun d => Fin.ext (by match d with | ⟨0, _⟩ => rfl | ⟨1, _⟩ => rfl)

theorem ridx60 (a : Fin 16384) (e : Fin 16) (k : Fin 16384) : ridx_main_v60 (ix2 a e) k = ix2 k e :=
  funext fun d => Fin.ext (by match d with | ⟨0, _⟩ => rfl | ⟨1, _⟩ => rfl)

theorem idx61_62 (a : Fin 16384) (e : Fin 16) : idx_main_v61 (idx_main_v62 (ix2 a e)) = ix1 e :=
  funext fun d => Fin.ext (by match d with | ⟨0, _⟩ => rfl)

/-- Selecting the inverse root where the comparison "above zero" holds, zero elsewhere, is the scale of a degree. -/
theorem select_ogt (D : EReal) : Scalar.select (Ideal.cmp .ogt D 0) (Ideal.rsqrt D) 0 = Spec.disOf D := by
  unfold Scalar.select Ideal.cmp Spec.disOf
  by_cases h : 0 < D <;> simp [h]

section Stages

variable (x0 : (⟨S16384x64, .f32⟩ : BufTy).Contents (Elt Ideal)) (x1 : (⟨S64x64, .f32⟩ : BufTy).Contents (Elt Ideal))
  (x2 : (⟨S64, .f32⟩ : BufTy).Contents (Elt Ideal)) (x3 : (⟨S64x16, .f32⟩ : BufTy).Contents (Elt Ideal))
  (x4 : (⟨S16, .f32⟩ : BufTy).Contents (Elt Ideal)) (x5 : (⟨S524288, .f32⟩ : BufTy).Contents (Elt Ideal))
  (x6 : (⟨S2x524288, .i32⟩ : BufTy).Contents (Elt Ideal))

/-- The adjacency the reference's first operations build, by coordinates. -/
abbrev adj : Spec.M 16384 16384 := fun a b => (val_main_v41 (F := Ideal) x5 x6 : S16384x16384.Idx → EReal) (ix2 a b)
/-- The features, the two weight matrices and the two biases, by coordinates. -/
abbrev feat : Spec.M 16384 64 := fun a b => (x0 : S16384x64.Idx → EReal) (ix2 a b)
abbrev w1 : Spec.M 64 64 := fun a b => (x1 : S64x64.Idx → EReal) (ix2 a b)
abbrev bias1 : Fin 64 → EReal := fun b => (x2 : S64.Idx → EReal) (ix1 b)
abbrev w2 : Spec.M 64 16 := fun a b => (x3 : S64x16.Idx → EReal) (ix2 a b)
abbrev bias2 : Fin 16 → EReal := fun b => (x4 : S16.Idx → EReal) (ix1 b)

/-- The reduce along the columns, from zero, is the row sum: the degree. -/
theorem deg_eq (a : Fin 16384) :
    (val_main_v42 (F := Ideal) x5 x6 : S16384.Idx → EReal) (ix1 a) = Spec.deg (adj x5 x6) a := by
  rw [val_main_v42_apply, val_main_cst_9_apply]
  simp only [Ideal.ofBits_def, Ideal.ofBits_zero_f32, zero_add, idx42]
  rfl

/-- The where-select of the inverse root against "degree above zero" is the scale. -/
theorem dis_eq (a : Fin 16384) :
    (val_main_v46 (F := Ideal) x5 x6 : S16384.Idx → EReal) (ix1 a) = Spec.dis (adj x5 x6) a := by
  rw [val_main_v46_apply, val_main_v44_apply, val_main_v45_apply, val_main_v43_apply, val_main_cst_10_apply,
    val_main_call0_v1_apply, val_main_call0_v0_apply, val_main_cst_11_apply, deg_eq]
  simp only [Ideal.ofBits_def, Ideal.ofBits_zero_f32, Ideal.cmpf_def, Ideal.hostUnary_rsqrt_def, select_ogt]
  rfl

/-- The scaled adjacency: the row's scale on the left, the column's on the right. -/
theorem norm_eq (a b : Fin 16384) :
    (val_main_v52 (F := Ideal) x5 x6 : S16384x16384.Idx → EReal) (ix2 a b)
      = (Spec.dis (adj x5 x6) a * adj x5 x6 a b) * Spec.dis (adj x5 x6) b := by
  rw [val_main_v52_apply, val_main_v49_apply, val_main_v48_apply, val_main_v47_apply, val_main_v51_apply,
    val_main_v50_apply, idx47_48, idx50_51, dis_eq, dis_eq]
  rfl

/-- The first feature projection is the matrix product of the features and the first weights. -/
theorem mm1_eq (a : Fin 16384) (c : Fin 64) :
    (val_main_v53 (F := Ideal) x0 x1 : S16384x64.Idx → EReal) (ix2 a c) = Spec.mm (feat x0) (w1 x1) a c := by
  rw [val_main_v53_apply]
  simp only [lidx53, ridx53]
  rfl

/-- The first layer before the clamp. -/
theorem layer1_eq (a : Fin 16384) (c : Fin 64) :
    (val_main_v57 (F := Ideal) x0 x1 x2 x5 x6 : S16384x64.Idx → EReal) (ix2 a c)
      = Spec.layerR (adj x5 x6) (Spec.dis (adj x5 x6)) (Spec.mm (feat x0) (w1 x1)) (bias1 x2) a c := by
  rw [val_main_v57_apply, val_main_v54_apply, val_main_v56_apply, val_main_v55_apply, idx55_56]
  simp only [lidx54, ridx54, norm_eq, mm1_eq, Ideal.addf_def]
  rfl

/-- The maximum with the zero constant is the clamp at zero from below. -/
theorem relu1_eq (a : Fin 16384) (c : Fin 64) :
    (val_main_v58 (F := Ideal) x0 x1 x2 x5 x6 : S16384x64.Idx → EReal) (ix2 a c)
      = Spec.relu (Spec.layerR (adj x5 x6) (Spec.dis (adj x5 x6)) (Spec.mm (feat x0) (w1 x1)) (bias1 x2)) a c := by
  rw [val_main_v58_apply, val_main_call1_v0_apply, val_main_call1_cst_apply, layer1_eq]
  simp only [Ideal.ofBits_def, Ideal.ofBits_zero_f32, Ideal.maximumf_def]
  rfl

/-- The second feature projection. -/
theorem mm2_eq (a : Fin 16384) (e : Fin 16) :
    (val_main_v59 (F := Ideal) x0 x1 x2 x3 x5 x6 : S16384x16.Idx → EReal) (ix2 a e)
      = Spec.mm (Spec.relu (Spec.layerR (adj x5 x6) (Spec.dis (adj x5 x6)) (Spec.mm (feat x0) (w1 x1)) (bias1 x2)))
          (w2 x3) a e := by
  rw [val_main_v59_apply]
  simp only [lidx59, ridx59, relu1_eq]
  rfl

end Stages

/-- The reference's result at row r and column d is the whole network, in the reference's arrangement, of the
    adjacency its first operations build and the argument arrays. -/
theorem ref_value
    (x0 : (⟨S16384x64, .f32⟩ : BufTy).Contents (Elt Ideal)) (x1 : (⟨S64x64, .f32⟩ : BufTy).Contents (Elt Ideal))
    (x2 : (⟨S64, .f32⟩ : BufTy).Contents (Elt Ideal)) (x3 : (⟨S64x16, .f32⟩ : BufTy).Contents (Elt Ideal))
    (x4 : (⟨S16, .f32⟩ : BufTy).Contents (Elt Ideal)) (x5 : (⟨S524288, .f32⟩ : BufTy).Contents (Elt Ideal))
    (x6 : (⟨S2x524288, .i32⟩ : BufTy).Contents (Elt Ideal)) (r : Fin 16384) (d : Fin 16) :
    (val_main_v63 (F := Ideal) x0 x1 x2 x3 x4 x5 x6 : S16384x16.Idx → EReal) (ix2 r d)
      = Spec.outR (fun a b => (val_main_v41 (F := Ideal) x5 x6 : S16384x16384.Idx → EReal) (ix2 a b))
          (fun a b => (x0 : S16384x64.Idx → EReal) (ix2 a b)) (fun a b => (x1 : S64x64.Idx → EReal) (ix2 a b))
          (fun b => (x2 : S64.Idx → EReal) (ix1 b)) (fun a b => (x3 : S64x16.Idx → EReal) (ix2 a b))
          (fun b => (x4 : S16.Idx → EReal) (ix1 b)) r d := by
  rw [val_main_v63_apply, val_main_v60_apply, val_main_v62_apply, val_main_v61_apply, idx61_62]
  simp only [lidx60, ridx60, norm_eq, mm2_eq, Ideal.addf_def]
  rfl

end Cert.ReferenceIdeal.RefValue

end
-- ==== Proof.Bridge.lean ====
/-
  The two programs build the dense adjacency by the same operations of the same two arguments (the edge weights and
  the edge index): halve the weights, scatter-add them at (row, col) and at (col, row) into zeros, add the identity.
  So the array the kernel's first region finds is the reference's adjacency stage of those arguments.
-/
import proofs.«133464_j38560216383500_1_alg».proof.Proof.KI.AssemblyDefs
import proofs.«133464_j38560216383500_1_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.StableHlo

/-- Joining two arrays along an axis respects equality of each piece: the join of equal pieces is the same array. -/
theorem concat2_congr {α : Type} (t : Shape) (ax : Fin t.rank) (s₁ s₂ : Shape) {a a' : s₁.Idx → α} {b b' : s₂.Idx → α}
    (h : Shape.Concatenates [s₁, s₂] t ax) (ha : a = a') (hb : b = b') :
    concatenate t ax [⟨s₁, a⟩, ⟨s₂, b⟩] h = concatenate t ax [⟨s₁, a'⟩, ⟨s₂, b'⟩] h := by
  subst ha; subst hb; rfl

attribute [local congr] concat2_congr

/-- What the kernel's first host stretch leaves in the adjacency buffer is the reference's adjacency stage of the
    kernel's own edge-weight and edge-index arguments. -/
theorem adj_bridge {F : FTy → Type} [FloatOps F]
    (m : (ℓ : Loc Cert.KernelIdeal.nD Cert.KernelIdeal.τ Cert.KernelIdeal.sig) → Buf (Elt F) ℓ) (c : Dev Cert.KernelIdeal.nD) :
    Cert.KernelIdeal.Rgn.V1 (F := F) m c Cert.KernelIdeal.main_v41
      = Cert.ReferenceIdeal.Read.val_main_v41 (F := F)
          (m ((c : Thread Cert.KernelIdeal.nD Cert.KernelIdeal.τ).loc Cert.KernelIdeal.main_arg5))
          (m ((c : Thread Cert.KernelIdeal.nD Cert.KernelIdeal.τ).loc Cert.KernelIdeal.main_arg6)) := by
  -- the fold of the host stretch, read at the adjacency buffer: each operation's value at its own result, the
  -- earlier contents elsewhere; what is left is the same composition of the same operations on both sides
  show StableHlo.after Cert.KernelIdeal.GenP.hostOps0 _ (Proc.devRef .tc Cert.KernelIdeal.main_v41) = _
  after_results_simp
  rfl

end Cert.Bridge

end
-- ==== Proof.lean ====
/-
  The certificate's claims.

  Both kernel programs (the word-level one and its idealization, the same text read at two float instances) run
  their three pipelined regions among three host stretches to the end; every unscoped buffer then holds the last
  valuation of a fold from the launch memory, in which no item writes an argument array: the frames.  The ideal pass
  rewrote nothing, so the idealization claim is trivial.

  At the ideal instance the kernel's result array is the last region's output, which is the two-layer network in the
  kernel's arrangement, (Σ_j A(r,j)·(v(j,d)·s(j)))·s(r) + b(d) per layer, of the dense adjacency A the first host
  stretch builds, its row scale s and the argument arrays.  The reference's result is the same network in the
  reference's arrangement, Σ_j ((s(r)·A(r,j))·s(j))·v(j,d) + b(d), of the adjacency its own first operations build.
  The two programs build the adjacency by the same operations of the same two arguments, and the two arrangements
  agree because the scale is a nonnegative real, over which multiplication distributes on the extended reals.
-/
import proofs.«133464_j38560216383500_1_alg».proof.Defs
import proofs.«133464_j38560216383500_1_alg».proof.Proof.Gen.Kernel
import proofs.«133464_j38560216383500_1_alg».proof.Proof.Gen.KernelIdeal
import proofs.«133464_j38560216383500_1_alg».proof.Proof.Gen.ReferenceIdeal
import proofs.«133464_j38560216383500_1_alg».proof.Proof.Gen.Pre_finite_inputs
import proofs.«133464_j38560216383500_1_alg».proof.Proof.Gen.ReferenceIdeal.Run
import proofs.«133464_j38560216383500_1_alg».proof.Proof.Gen.ReferenceIdeal.Read
import proofs.«133464_j38560216383500_1_alg».proof.Proof.K.R0.Body
import proofs.«133464_j38560216383500_1_alg».proof.Proof.K.R1.Body
import proofs.«133464_j38560216383500_1_alg».proof.Proof.K.R2.Body
import proofs.«133464_j38560216383500_1_alg».proof.Proof.K.Assembly
import proofs.«133464_j38560216383500_1_alg».proof.Proof.KI.R0.Body
import proofs.«133464_j38560216383500_1_alg».proof.Proof.KI.R1.Body
import proofs.«133464_j38560216383500_1_alg».proof.Proof.KI.R2.Body
import proofs.«133464_j38560216383500_1_alg».proof.Proof.KI.Assembly
import proofs.«133464_j38560216383500_1_alg».proof.Proof.KI.R0.Value
import proofs.«133464_j38560216383500_1_alg».proof.Proof.KI.R1.Value
import proofs.«133464_j38560216383500_1_alg».proof.Proof.KI.R2.Value
import proofs.«133464_j38560216383500_1_alg».proof.Proof.KernelValue
import proofs.«133464_j38560216383500_1_alg».proof.Proof.RefValue
import proofs.«133464_j38560216383500_1_alg».proof.Proof.Bridge
import proofs.«133464_j38560216383500_1_alg».proof.Proof.Spec
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs to the end and leaves its argument arrays as launched. -/
theorem frame_k : Cert.frame_Kernel := fun m ρ _ =>
  (θ_run (Cert.Kernel.defs (F := Bits)) _ _).mono
    (fun r h c => ⟨(h c _ (Cert.Kernel.Rgn.mem_uc Cert.Kernel.main_arg0 (by decide))).trans (Cert.Kernel.Rgn.W6_main_arg0 m c),
      (h c _ (Cert.Kernel.Rgn.mem_uc Cert.Kernel.main_arg1 (by decide))).trans (Cert.Kernel.Rgn.W6_main_arg1 m c),
      (h c _ (Cert.Kernel.Rgn.mem_uc Cert.Kernel.main_arg2 (by decide))).trans (Cert.Kernel.Rgn.W6_main_arg2 m c),
      (h c _ (Cert.Kernel.Rgn.mem_uc Cert.Kernel.main_arg3 (by decide))).trans (Cert.Kernel.Rgn.W6_main_arg3 m c),
      (h c _ (Cert.Kernel.Rgn.mem_uc Cert.Kernel.main_arg4 (by decide))).trans (Cert.Kernel.Rgn.W6_main_arg4 m c),
      (h c _ (Cert.Kernel.Rgn.mem_uc Cert.Kernel.main_arg5 (by decide))).trans (Cert.Kernel.Rgn.W6_main_arg5 m c),
      (h c _ (Cert.Kernel.Rgn.mem_uc Cert.Kernel.main_arg6 (by decide))).trans (Cert.Kernel.Rgn.W6_main_arg6 m c)⟩)
    (Cert.Kernel.Rgn.run_all (F := Bits) m ρ
      (fun c => Cert.Kernel.Rgn.body_obligation0 _ c) (fun c => Cert.Kernel.Rgn.hin0 _ c) (fun c => Cert.Kernel.Rgn.hout0 _ c)
      (fun c => Cert.Kernel.Rgn.body_obligation1 _ c) (fun c => Cert.Kernel.Rgn.hin1 _ c) (fun c => Cert.Kernel.Rgn.hout1 _ c)
      (fun c => Cert.Kernel.Rgn.body_obligation2 _ c) (fun c => Cert.Kernel.Rgn.hin2 _ c) (fun c => Cert.Kernel.Rgn.hout2 _ c))

/-- The idealized kernel runs to the end and leaves its argument arrays as launched. -/
theorem frame_ki : Cert.frame_KernelIdeal := fun m ρ _ =>
  (θ_run (Cert.KernelIdeal.defs (F := Ideal)) _ _).mono
    (fun r h c => ⟨(h c _ (Cert.KernelIdeal.Rgn.mem_uc Cert.KernelIdeal.main_arg0 (by decide))).trans (Cert.KernelIdeal.Rgn.W6_main_arg0 m c),
      (h c _ (Cert.KernelIdeal.Rgn.mem_uc Cert.KernelIdeal.main_arg1 (by decide))).trans (Cert.KernelIdeal.Rgn.W6_main_arg1 m c),
      (h c _ (Cert.KernelIdeal.Rgn.mem_uc Cert.KernelIdeal.main_arg2 (by decide))).trans (Cert.KernelIdeal.Rgn.W6_main_arg2 m c),
      (h c _ (Cert.KernelIdeal.Rgn.mem_uc Cert.KernelIdeal.main_arg3 (by decide))).trans (Cert.KernelIdeal.Rgn.W6_main_arg3 m c),
      (h c _ (Cert.KernelIdeal.Rgn.mem_uc Cert.KernelIdeal.main_arg4 (by decide))).trans (Cert.KernelIdeal.Rgn.W6_main_arg4 m c),
      (h c _ (Cert.KernelIdeal.Rgn.mem_uc Cert.KernelIdeal.main_arg5 (by decide))).trans (Cert.KernelIdeal.Rgn.W6_main_arg5 m c),
      (h c _ (Cert.KernelIdeal.Rgn.mem_uc Cert.KernelIdeal.main_arg6 (by decide))).trans (Cert.KernelIdeal.Rgn.W6_main_arg6 m c)⟩)
    (Cert.KernelIdeal.Rgn.run_all (F := Ideal) m ρ
      (fun c => Cert.KernelIdeal.Rgn.body_obligation0 _ c) (fun c => Cert.KernelIdeal.Rgn.hin0 _ c) (fun c => Cert.KernelIdeal.Rgn.hout0 _ c)
      (fun c => Cert.KernelIdeal.Rgn.body_obligation1 _ c) (fun c => Cert.KernelIdeal.Rgn.hin1 _ c) (fun c => Cert.KernelIdeal.Rgn.hout1 _ c)
      (fun c => Cert.KernelIdeal.Rgn.body_obligation2 _ c) (fun c => Cert.KernelIdeal.Rgn.hin2 _ c) (fun c => Cert.KernelIdeal.Rgn.hout2 _ c))

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨fun c => (Cert.KernelIdeal.Rgn.dat2 (F := Ideal) (Cert.KernelIdeal.Rgn.V5 m) c).arrAt 5 Cert.KernelIdeal.cfg2.N, ?_, ?_⟩
  · exact (θ_run (Cert.KernelIdeal.defs (F := Ideal)) _ _).mono
      (fun r h c => ⟨(h c _ (Cert.KernelIdeal.Rgn.mem_uc Cert.KernelIdeal.main_v48 (by decide))).trans (Cert.KernelIdeal.Rgn.W6_main_v48 m c),
      (h c _ (Cert.KernelIdeal.Rgn.mem_uc Cert.KernelIdeal.main_arg0 (by decide))).trans (Cert.KernelIdeal.Rgn.W6_main_arg0 m c),
      (h c _ (Cert.KernelIdeal.Rgn.mem_uc Cert.KernelIdeal.main_arg1 (by decide))).trans (Cert.KernelIdeal.Rgn.W6_main_arg1 m c),
      (h c _ (Cert.KernelIdeal.Rgn.mem_uc Cert.KernelIdeal.main_arg2 (by decide))).trans (Cert.KernelIdeal.Rgn.W6_main_arg2 m c),
      (h c _ (Cert.KernelIdeal.Rgn.mem_uc Cert.KernelIdeal.main_arg3 (by decide))).trans (Cert.KernelIdeal.Rgn.W6_main_arg3 m c),
      (h c _ (Cert.KernelIdeal.Rgn.mem_uc Cert.KernelIdeal.main_arg4 (by decide))).trans (Cert.KernelIdeal.Rgn.W6_main_arg4 m c),
      (h c _ (Cert.KernelIdeal.Rgn.mem_uc Cert.KernelIdeal.main_arg5 (by decide))).trans (Cert.KernelIdeal.Rgn.W6_main_arg5 m c),
      (h c _ (Cert.KernelIdeal.Rgn.mem_uc Cert.KernelIdeal.main_arg6 (by decide))).trans (Cert.KernelIdeal.Rgn.W6_main_arg6 m c)⟩)
      (Cert.KernelIdeal.Rgn.run_all (F := Ideal) m ρ
      (fun c => Cert.KernelIdeal.Rgn.body_obligation0 _ c) (fun c => Cert.KernelIdeal.Rgn.hin0 _ c) (fun c => Cert.KernelIdeal.Rgn.hout0 _ c)
      (fun c => Cert.KernelIdeal.Rgn.body_obligation1 _ c) (fun c => Cert.KernelIdeal.Rgn.hin1 _ c) (fun c => Cert.KernelIdeal.Rgn.hout1 _ c)
      (fun c => Cert.KernelIdeal.Rgn.body_obligation2 _ c) (fun c => Cert.KernelIdeal.Rgn.hin2 _ c) (fun c => Cert.KernelIdeal.Rgn.hout2 _ c))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v63_eq]
    funext i
    obtain ⟨r, d, rfl⟩ : ∃ (r : Fin 16384) (d : Fin 16), i = ix2 r d := ⟨i 0, i 1, eq_ix2 i⟩
    have hk := Cert.KernelIdeal.Val.kernel_value m
      (fun c p q => Cert.KernelIdeal.Val.arr0_1_apply _ c p q) (fun c p => Cert.KernelIdeal.Val.arr0_2_apply _ c p)
      (fun c r d => Cert.KernelIdeal.Val.arr1_5_apply _ c r d) (fun c r d => Cert.KernelIdeal.Val.arr2_5_apply _ c r d) c r d
    refine (Cert.ReferenceIdeal.RefValue.ref_value _ _ _ _ _ _ _ r d).trans ?_
    refine Eq.trans ?_ hk.symm
    rw [Cert.Spec.outK_eq_outR]
    have hb := Cert.Bridge.adj_bridge (F := Ideal) m c
    rw [(hagree c).1, (hagree c).2.1, (hagree c).2.2.1, (hagree c).2.2.2.1, (hagree c).2.2.2.2.1, (hagree c).2.2.2.2.2.1, (hagree c).2.2.2.2.2.2]
    unfold Cert.KernelIdeal.Val.adjK Cert.KernelIdeal.Val.xK Cert.KernelIdeal.Val.w1K Cert.KernelIdeal.Val.b1K Cert.KernelIdeal.Val.w2K Cert.KernelIdeal.Val.b2K
    rw [hb]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
